-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x39 : Shape := ⟨2, ![16384, 39]⟩
abbrev S390000x16 : Shape := ⟨2, ![390000, 16]⟩
abbrev S16x32 : Shape := ⟨2, ![16, 32]⟩
abbrev S32x32 : Shape := ⟨2, ![32, 32]⟩
abbrev S1248x128 : Shape := ⟨2, ![1248, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S390000x16 : S_.BroadcastsInDim S390000x16 (![] : Fin 0 → Fin S390000x16.rank)
  reducesTo_S390000x16_S_d0_1 : S390000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32x32 : S_.BroadcastsInDim S32x32 (![] : Fin 0 → Fin S32x32.rank)
  reducesTo_S32x32_S_d0_1 : S32x32.ReducesTo [0, 1] S_
  bcast_S_S1248x128 : S_.BroadcastsInDim S1248x128 (![] : Fin 0 → Fin S1248x128.rank)
  reducesTo_S1248x128_S_d0_1 : S1248x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg19 : FVec F S32 .f32) (main_arg20 : FVec F S32x1 .f32) (main_arg21 : FVec F S1 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x1 .f32 := Host.absf main_arg20
  let main_cst_36 : FVec F S_ .f32 := constant S_ .f32 0x7F800000#32
  let main_v95 : FVec F S32x1 .f32 := broadcastInDim S32x1 ![] bcast_S_S32x1 main_cst_36
  let main_v96 : IVec S32x1 1 := cmpf .olt main_v94 main_v95
  let main_c_37 : IVec S_ 1 := constantI S_ 1 1#1
  let main_v97 : IVec S_ 1 := (fun x v => Host.reduce IntOp.andi x v reducesTo_S32x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128x64 .f32) (main_arg17 : FVec F S64 .f32) (main_arg18 : FVec F S64x32 .f32) (main_arg19 : FVec F S32 .f32) (main_arg20 : FVec F S32x1 .f32) (main_arg21 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S32x32 .f32) (main_arg13 : FVec F S32x32 .f32) (main_arg14 : FVec F S1248x128 .f32) (main_arg15 : FVec F S128 .f32) (main_arg16 : FVec F S128x64 .f32) (main_arg17 : FVec F S64 .f32) (main_arg18 : FVec F S64x32 .f32) (main_arg19 : FVec F S32 .f32) (main_arg20 : FVec F S32x1 .f32) (main_arg21 : FVec F S1 .f32) (main_v48 : IVec S_ 1) (main_v49 : FVec F S32x32 .f32) (main_v50 : FVec F S32x32 .f32) : IVec S_ 1 :=
  let main_v51 : IVec S32x32 1 := cmpf .olt main_v49 main_v50
  let main_c_19 : IVec S_ 1 := constantI S_ 1 1#1
  let main_v52 : IVec S_ 1 := (fun x v => Host.reduce IntOp.andi x v reducesTo_S32x32_S_d0_1 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S1248x128 .f32 := Host.absf main_arg14
  let main_cst_24 : FVec F S_ .f32 := constant S_ .f32 0x7F800000#32
  let main_v65 : FVec F S1248x128 .f32 := broadcastInDim S1248x128 ![] bcast_S_S1248x128 main_cst_24
  let main_v66 : IVec S1248x128 1 := cmpf .olt main_v64 main_v65
  let main_c_25 : IVec S_ 1 := constantI S_ 1 1#1
  let main_v67 : IVec S_ 1 := (fun x v => Host.reduce IntOp.andi x v reducesTo_S1248x128_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S32x32 .f32) (main_arg9 : FVec F S32x32 .f32) (main_arg10 : FVec F S32x32 .f32) (main_arg11 : FVec F S32x32 .f32) (main_arg12 : FVec F S32x32 .f32) (main_arg13 : FVec F S32x32 .f32) (main_arg14 : FVec F S1248x128 .f32) (main_arg15 : FVec F S128 .f32) (main_arg16 : FVec F S128x64 .f32) (main_arg17 : FVec F S64 .f32) (main_arg18 : FVec F S64x32 .f32) (main_arg19 : FVec F S32 .f32) (main_arg20 : FVec F S32x1 .f32) (main_arg21 : FVec F S1 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32x32 .f32 := Host.absf main_arg10
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32x32 .f32 := Host.absf main_arg11
  let main_cst_18 : FVec F S_ .f32 := constant S_ .f32 0x7F800000#32
  let main_v50 : FVec F S32x32 .f32 := broadcastInDim S32x32 ![] bcast_S_S32x32 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S16x32 .f32) (main_arg6 : FVec F S32x32 .f32) (main_arg7 : FVec F S32x32 .f32) (main_arg8 : FVec F S32x32 .f32) (main_arg9 : FVec F S32x32 .f32) (main_arg10 : FVec F S32x32 .f32) (main_arg11 : FVec F S32x32 .f32) (main_arg12 : FVec F S32x32 .f32) (main_arg13 : FVec F S32x32 .f32) (main_arg14 : FVec F S1248x128 .f32) (main_arg15 : FVec F S128 .f32) (main_arg16 : FVec F S128x64 .f32) (main_arg17 : FVec F S64 .f32) (main_arg18 : FVec F S64x32 .f32) (main_arg19 : FVec F S32 .f32) (main_arg20 : FVec F S32x1 .f32) (main_arg21 : FVec F S1 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S16x32 .f32 := Host.absf main_arg5
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : IVec S16384x39 32) (main_arg1 : FVec F S390000x16 .f32) (main_arg2 : FVec F S16x32 .f32) (main_arg3 : FVec F S16x32 .f32) (main_arg4 : FVec F S16x32 .f32) (main_arg5 : FVec F S16x32 .f32) (main_arg6 : FVec F S32x32 .f32) (main_arg7 : FVec F S32x32 .f32) (main_arg8 : FVec F S32x32 .f32) (main_arg9 : FVec F S32x32 .f32) (main_arg10 : FVec F S32x32 .f32) (main_arg11 : FVec F S32x32 .f32) (main_arg12 : FVec F S32x32 .f32) (main_arg13 : FVec F S32x32 .f32) (main_arg14 : FVec F S1248x128 .f32) (main_arg15 : FVec F S128 .f32) (main_arg16 : FVec F S128x64 .f32) (main_arg17 : FVec F S64 .f32) (main_arg18 : FVec F S64x32 .f32) (main_arg19 : FVec F S32 .f32) (main_arg20 : FVec F S32x1 .f32) (main_arg21 : FVec F S1 .f32) : IVec S_ 1 :=
  let main_v0 : FVec F S390000x16 .f32 := Host.absf main_arg1
  let main_cst : FVec F S_ .f32 := constant S_ .f32 0x7F800000#32
  let main_v1 : FVec F S390000x16 .f32 := broadcastInDim S390000x16 ![] bcast_S_S390000x16 main_cst
  let main_v2 : IVec S390000x16 1 := cmpf .olt main_v0 main_v1
  let main_c : IVec S_ 1 := constantI S_ 1 1#1
  let main_v3 : IVec S_ 1 := (fun x v => Host.reduce IntOp.andi x v reducesTo_S390000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S16384x39 : Shape := ⟨2, ![16384, 39]⟩
abbrev S390000x16 : Shape := ⟨2, ![390000, 16]⟩
abbrev S16x32 : Shape := ⟨2, ![16, 32]⟩
abbrev S32x32 : Shape := ⟨2, ![32, 32]⟩
abbrev S1248x128 : Shape := ⟨2, ![1248, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S39 : Shape := ⟨1, ![39]⟩
abbrev S_ : Shape := ⟨0, ![]⟩
abbrev S1x39 : Shape := ⟨2, ![1, 39]⟩
abbrev S16384x39x1 : Shape := ⟨3, ![16384, 39, 1]⟩
abbrev S16384x39x16 : Shape := ⟨3, ![16384, 39, 16]⟩
abbrev S1x128 : Shape := ⟨2, ![1, 128]⟩
abbrev S1x64 : Shape := ⟨2, ![1, 64]⟩
abbrev S1x32 : Shape := ⟨2, ![1, 32]⟩
abbrev S1x1 : Shape := ⟨2, ![1, 1]⟩
abbrev S16384x1 : Shape := ⟨2, ![16384, 1]⟩
abbrev S64x39x16 : Shape := ⟨3, ![64, 39, 16]⟩
abbrev S64x1 : Shape := ⟨2, ![64, 1]⟩
abbrev S2496x16 : Shape := ⟨2, ![2496, 16]⟩
abbrev S2496x32 : Shape := ⟨2, ![2496, 32]⟩
abbrev S64x39x32 : Shape := ⟨3, ![64, 39, 32]⟩
abbrev S64x39x39 : Shape := ⟨3, ![64, 39, 39]⟩
abbrev S64x39 : Shape := ⟨2, ![64, 39]⟩
abbrev S64x39x1 : Shape := ⟨3, ![64, 39, 1]⟩
abbrev S64x1248 : Shape := ⟨2, ![64, 1248]⟩
abbrev S64x128 : Shape := ⟨2, ![64, 128]⟩
abbrev S64x64 : Shape := ⟨2, ![64, 64]⟩

abbrev nBuf : Space → Nat
  | .hbm => 44
  | .vmem => 24
  | .smem => 0
  | _ => 0

abbrev bufTy : (tb : Table) → Fin (tcTables nBuf tb) → BufTy
  | .hbm, ⟨0, _⟩ => ⟨S16384x39, .i32⟩
  | .hbm, ⟨1, _⟩ => ⟨S390000x16, .f32⟩
  | .hbm, ⟨2, _⟩ => ⟨S16x32, .f32⟩
  | .hbm, ⟨3, _⟩ => ⟨S16x32, .f32⟩
  | .hbm, ⟨4, _⟩ => ⟨S16x32, .f32⟩
  | .hbm, ⟨5, _⟩ => ⟨S16x32, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S32x32, .f32⟩
  | .hbm, ⟨14, _⟩ => ⟨S1248x128, .f32⟩
  | .hbm, ⟨15, _⟩ => ⟨S128, .f32⟩
  | .hbm, ⟨16, _⟩ => ⟨S128x64, .f32⟩
  | .hbm, ⟨17, _⟩ => ⟨S64, .f32⟩
  | .hbm, ⟨18, _⟩ => ⟨S64x32, .f32⟩
  | .hbm, ⟨19, _⟩ => ⟨S32, .f32⟩
  | .hbm, ⟨20, _⟩ => ⟨S32x1, .f32⟩
  | .hbm, ⟨21, _⟩ => ⟨S1, .f32⟩
  | .hbm, ⟨22, _⟩ => ⟨S39, .i32⟩
  | .hbm, ⟨23, _⟩ => ⟨S_, .i32⟩
  | .hbm, ⟨24, _⟩ => ⟨S39, .i32⟩
  | .hbm, ⟨25, _⟩ => ⟨S39, .i32⟩
  | .hbm, ⟨26, _⟩ => ⟨S1x39, .i32⟩
  | .hbm, ⟨27, _⟩ => ⟨S16384x39, .i32⟩
  | .hbm, ⟨28, _⟩ => ⟨S16384x39, .i32⟩
  | .hbm, ⟨29, _⟩ => ⟨S_, .i32⟩
  | .hbm, ⟨30, _⟩ => ⟨S16384x39, .i32⟩
  | .hbm, ⟨31, _⟩ => ⟨S16384x39, .i1⟩
  | .hbm, ⟨32, _⟩ => ⟨S_, .i32⟩
  | .hbm, ⟨33, _⟩ => ⟨S16384x39, .i32⟩
  | .hbm, ⟨34, _⟩ => ⟨S16384x39, .i32⟩
  | .hbm, ⟨35, _⟩ => ⟨S16384x39, .i32⟩
  | .hbm, ⟨36, _⟩ => ⟨S16384x39x1, .i32⟩
  | .hbm, ⟨37, _⟩ => ⟨S16384x39x16, .f32⟩
  | .hbm, ⟨38, _⟩ => ⟨S16384x39x16, .bf16⟩
  | .hbm, ⟨39, _⟩ => ⟨S1x128, .f32⟩
  | .hbm, ⟨40, _⟩ => ⟨S1x64, .f32⟩
  | .hbm, ⟨41, _⟩ => ⟨S1x32, .f32⟩
  | .hbm, ⟨42, _⟩ => ⟨S1x1, .f32⟩
  | .hbm, ⟨43, _⟩ => ⟨S16384x1, .f32⟩
  | .local _ .vmem, ⟨0, _⟩ => ⟨S64x39x16, .bf16⟩
  | .local _ .vmem, ⟨1, _⟩ => ⟨S64x39x16, .bf16⟩
  | .local _ .vmem, ⟨2, _⟩ => ⟨S16x32, .f32⟩
  | .local _ .vmem, ⟨3, _⟩ => ⟨S16x32, .f32⟩
  | .local _ .vmem, ⟨4, _⟩ => ⟨S16x32, .f32⟩
  | .local _ .vmem, ⟨5, _⟩ => ⟨S16x32, .f32⟩
  | .local _ .vmem, ⟨6, _⟩ => ⟨S32x32, .f32⟩
  | .local _ .vmem, ⟨7, _⟩ => ⟨S32x32, .f32⟩
  | .local _ .vmem, ⟨8, _⟩ => ⟨S32x32, .f32⟩
  | .local _ .vmem, ⟨9, _⟩ => ⟨S32x32, .f32⟩
  | .local _ .vmem, ⟨10, _⟩ => ⟨S32x32, .f32⟩
  | .local _ .vmem, ⟨11, _⟩ => ⟨S32x32, .f32⟩
  | .local _ .vmem, ⟨12, _⟩ => ⟨S32x32, .f32⟩
  | .local _ .vmem, ⟨13, _⟩ => ⟨S32x32, .f32⟩
  | .local _ .vmem, ⟨14, _⟩ => ⟨S1248x128, .f32⟩
  | .local _ .vmem, ⟨15, _⟩ => ⟨S1x128, .f32⟩
  | .local _ .vmem, ⟨16, _⟩ => ⟨S128x64, .f32⟩
  | .local _ .vmem, ⟨17, _⟩ => ⟨S1x64, .f32⟩
  | .local _ .vmem, ⟨18, _⟩ => ⟨S64x32, .f32⟩
  | .local _ .vmem, ⟨19, _⟩ => ⟨S1x32, .f32⟩
  | .local _ .vmem, ⟨20, _⟩ => ⟨S32x1, .f32⟩
  | .local _ .vmem, ⟨21, _⟩ => ⟨S1x1, .f32⟩
  | .local _ .vmem, ⟨22, _⟩ => ⟨S64x1, .f32⟩
  | .local _ .vmem, ⟨23, _⟩ => ⟨S64x1, .f32⟩
  | _, _ => ⟨S16384x39, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x39x16 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1248x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x32 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S32x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S64x1 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  bcast_S_S39 : S_.BroadcastsInDim S39 (![] : Fin 0 → Fin S39.rank)
  bcast_S39_S1x39_1 : S39.BroadcastsInDim S1x39 (![1] : Fin 1 → Fin S1x39.rank)
  bcast_S1x39_S16384x39_0_1 : S1x39.BroadcastsInDim S16384x39 (![0, 1] : Fin 2 → Fin S16384x39.rank)
  bcast_S_S16384x39 : S_.BroadcastsInDim S16384x39 (![] : Fin 0 → Fin S16384x39.rank)
  bcast_S16384x39_S16384x39x1_0_1 : S16384x39.BroadcastsInDim S16384x39x1 (![0, 1] : Fin 2 → Fin S16384x39x1.rank)
  bitsLt_bf16_f32 : FTy.bits .bf16 < FTy.bits .f32
  shapeCasts_S128_S1x128 : S128.ShapeCasts S1x128
  shapeCasts_S64_S1x64 : S64.ShapeCasts S1x64
  shapeCasts_S32_S1x32 : S32.ShapeCasts S1x32
  shapeCasts_S1_S1x1 : S1.ShapeCasts S1x1
  inb_S64x39x16_S64x39x16_0_0_0 : ∀ a, (![0, 0, 0] : Fin 3 → Nat) a + S64x39x16.size a ≤ S64x39x16.size a
  h_S64x39x16 : 0 < S64x39x16.numel
  shapeCasts_S64x39x16_S64x39x16 : S64x39x16.ShapeCasts S64x39x16
  shapeCasts_S64x39x16_S2496x16 : S64x39x16.ShapeCasts S2496x16
  inb_S16x32_S16x32_0_0 : ∀ a, (![0, 0] : Fin 2 → Nat) a + S16x32.size a ≤ S16x32.size a
  h_S16x32 : 0 < S16x32.numel
  shapeCasts_S2496x32_S64x39x32 : S2496x32.ShapeCasts S64x39x32
  reduces_S64x39x39_S64x39 : S64x39x39.Reduces [2] S64x39
  shapeCasts_S64x39_S64x39x1 : S64x39.ShapeCasts S64x39x1
  broadcasts_S64x39x1_S64x39x39 : S64x39x1.Broadcasts S64x39x39
  shapeCasts_S64x39x32_S2496x32 : S64x39x32.ShapeCasts S2496x32
  inb_S32x32_S32x32_0_0 : ∀ a, (![0, 0] : Fin 2 → Nat) a + S32x32.size a ≤ S32x32.size a
  h_S32x32 : 0 < S32x32.numel
  shapeCasts_S64x39x32_S64x1248 : S64x39x32.ShapeCasts S64x1248
  inb_S1248x128_S1248x128_0_0 : ∀ a, (![0, 0] : Fin 2 → Nat) a + S1248x128.size a ≤ S1248x128.size a
  h_S1248x128 : 0 < S1248x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  gather_S390000x16_S16384x39x1_S16384x39x16_2_0_n_n_0_2_116_wf : GatherDims.WF S390000x16 S16384x39x1 S16384x39x16 [2] [0] [] [0] [] 2 ![1, 16]
  dot_S2496x16_S16x32_S2496x32_1_0_0_1_n_n_wf : DotDims.WF S2496x16 S16x32 S2496x32 [1] [0] [0] [1] [] []
  dot_S64x39x32_S64x39x32_S64x39x39_2_2_1_1_0_0_wf : DotDims.WF S64x39x32 S64x39x32 S64x39x39 [2] [2] [1] [1] [0] [0]
  dot_S64x39x39_S64x39x32_S64x39x32_2_1_1_2_0_0_wf : DotDims.WF S64x39x39 S64x39x32 S64x39x32 [2] [1] [1] [2] [0] [0]
  dot_S2496x32_S32x32_S2496x32_1_0_0_1_n_n_wf : DotDims.WF S2496x32 S32x32 S2496x32 [1] [0] [0] [1] [] []
  dot_S64x1248_S1248x128_S64x128_1_0_0_1_n_n_wf : DotDims.WF S64x1248 S1248x128 S64x128 [1] [0] [0] [1] [] []
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x39x16.size a ≤ S16384x39x16.size a
  hwx0_0 : ∀ i : grid0.Coords, EltTy.bits .bf16 = 32 ∨ (Rect.block (s := S16384x39x16) S64x39x16.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S16x32.size a
  hwx0_4 : ∀ i : grid0.Coords, EltTy.bits .f32 = 32 ∨ (Rect.block (s := S16x32) S16x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .f32 = 32 ∨ (Rect.block (s := S32x32) S32x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x32.size a ≤ S32x32.size a
  hwx0_8 : ∀ i : grid0.Coords, EltTy.bits .f32 = 32 ∨ (Rect.block (s := S32x32) S32x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32x32.size a ≤ S32x32.size a
  hwx0_10 : ∀ i : grid0.Coords, EltTy.bits .f32 = 32 ∨ (Rect.block (s := S32x32) S32x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x32.size a ≤ S32x32.size a
  hwx0_11 : ∀ i : grid0.Coords, EltTy.bits .f32 = 32 ∨ (Rect.block (s := S32x32) S32x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x32.size a ≤ S32x32.size a
  hwx0_12 : ∀ i : grid0.Coords, EltTy.bits .f32 = 32 ∨ (Rect.block (s := S32x32) S32x32.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1248x128.size a ≤ S1248x128.size a
  hwx0_13 : ∀ i : grid0.Coords, EltTy.bits .f32 = 32 ∨ (Rect.block (s := S1248x128) S1248x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x64.size a ≤ S128x64.size a
  hwx0_15 : ∀ i : grid0.Coords, EltTy.bits .f32 = 32 ∨ (Rect.block (s := S128x64) S128x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x32.size a ≤ S64x32.size a
  hwx0_17 : ∀ i : grid0.Coords, EltTy.bits .f32 = 32 ∨ (Rect.block (s := S64x32) S64x32.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x32.size a ≤ S1x32.size a
  hwx0_18 : ∀ i : grid0.Coords, EltTy.bits .f32 = 32 ∨ (Rect.block (s := S1x32) S1x32.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S32x1.size a ≤ S32x1.size a
  hwx0_19 : ∀ i : grid0.Coords, EltTy.bits .f32 = 32 ∨ (Rect.block (s := S32x1) S32x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x1.size a ≤ S1x1.size a
  hwx0_20 : ∀ i : grid0.Coords, EltTy.bits .f32 = 32 ∨ (Rect.block (s := S1x1) S1x1.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S64x1.size a ≤ S16384x1.size a
  hwx0_21 : ∀ i : grid0.Coords, EltTy.bits .f32 = 32 ∨ (Rect.block (s := S16384x1) S64x1.size (cc0_transform_21 i) (hinb0_21 i)).WholeWords (EltTy.packing .f32)

variable [Facts₀]

def gather_S390000x16_S16384x39x1_S16384x39x16_2_0_n_n_0_2_116 : GatherDims S390000x16 S16384x39x1 S16384x39x16 where
  offsetDims := [2]
  collapsedSliceDims := [0]
  operandBatchingDims := []
  startIndicesBatchingDims := []
  startIndexMap := [0]
  indexVectorDim := 2
  sliceSizes := ![1, 16]
  wf := gather_S390000x16_S16384x39x1_S16384x39x16_2_0_n_n_0_2_116_wf
def dot_S2496x16_S16x32_S2496x32_1_0_0_1_n_n : DotDims S2496x16 S16x32 S2496x32 where
  lhsContracting := [1]
  rhsContracting := [0]
  lhsNonContracting := [0]
  rhsNonContracting := [1]
  lhsBatch := []
  rhsBatch := []
  wf := dot_S2496x16_S16x32_S2496x32_1_0_0_1_n_n_wf
def dot_S64x39x32_S64x39x32_S64x39x39_2_2_1_1_0_0 : DotDims S64x39x32 S64x39x32 S64x39x39 where
  lhsContracting := [2]
  rhsContracting := [2]
  lhsNonContracting := [1]
  rhsNonContracting := [1]
  lhsBatch := [0]
  rhsBatch := [0]
  wf := dot_S64x39x32_S64x39x32_S64x39x39_2_2_1_1_0_0_wf
def dot_S64x39x39_S64x39x32_S64x39x32_2_1_1_2_0_0 : DotDims S64x39x39 S64x39x32 S64x39x32 where
  lhsContracting := [2]
  rhsContracting := [1]
  lhsNonContracting := [1]
  rhsNonContracting := [2]
  lhsBatch := [0]
  rhsBatch := [0]
  wf := dot_S64x39x39_S64x39x32_S64x39x32_2_1_1_2_0_0_wf
def dot_S2496x32_S32x32_S2496x32_1_0_0_1_n_n : DotDims S2496x32 S32x32 S2496x32 where
  lhsContracting := [1]
  rhsContracting := [0]
  lhsNonContracting := [0]
  rhsNonContracting := [1]
  lhsBatch := []
  rhsBatch := []
  wf := dot_S2496x32_S32x32_S2496x32_1_0_0_1_n_n_wf
def dot_S64x1248_S1248x128_S64x128_1_0_0_1_n_n : DotDims S64x1248 S1248x128 S64x128 where
  lhsContracting := [1]
  rhsContracting := [0]
  lhsNonContracting := [0]
  rhsNonContracting := [1]
  lhsBatch := []
  rhsBatch := []
  wf := dot_S64x1248_S1248x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_v13) S64x39x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S32x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S32x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S32x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S32x32.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S1248x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v14) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg16) S128x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg18) S64x32.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v16) S1x32.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg20) S32x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v17) S1x1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v18) S64x1.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S16384x39 : Shape := ⟨2, ![16384, 39]⟩
abbrev S390000x16 : Shape := ⟨2, ![390000, 16]⟩
abbrev S16x32 : Shape := ⟨2, ![16, 32]⟩
abbrev S32x32 : Shape := ⟨2, ![32, 32]⟩
abbrev S1248x128 : Shape := ⟨2, ![1248, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S39 : Shape := ⟨1, ![39]⟩
abbrev S_ : Shape := ⟨0, ![]⟩
abbrev S1x39 : Shape := ⟨2, ![1, 39]⟩
abbrev S16384x39x1 : Shape := ⟨3, ![16384, 39, 1]⟩
abbrev S16384x39x16 : Shape := ⟨3, ![16384, 39, 16]⟩
abbrev S16384x39x32 : Shape := ⟨3, ![16384, 39, 32]⟩
abbrev S16384x39x39 : Shape := ⟨3, ![16384, 39, 39]⟩
abbrev S16384x1248 : Shape := ⟨2, ![16384, 1248]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S16384x1 : Shape := ⟨2, ![16384, 1]⟩
abbrev S1x1 : Shape := ⟨2, ![1, 1]⟩

abbrev nBuf : Space → Nat
  | .hbm => 144
  | .vmem => 0
  | .smem => 0
  | _ => 0

abbrev hbmTy0_0 (i : Nat) : BufTy := match i % 128 with
  | 0 => ⟨S16384x39, .i32⟩
  | 1 => ⟨S390000x16, .f32⟩
  | 2 => ⟨S16x32, .f32⟩
  | 3 => ⟨S16x32, .f32⟩
  | 4 => ⟨S16x32, .f32⟩
  | 5 => ⟨S16x32, .f32⟩
  | 6 => ⟨S32x32, .f32⟩
  | 7 => ⟨S32x32, .f32⟩
  | 8 => ⟨S32x32, .f32⟩
  | 9 => ⟨S32x32, .f32⟩
  | 10 => ⟨S32x32, .f32⟩
  | 11 => ⟨S32x32, .f32⟩
  | 12 => ⟨S32x32, .f32⟩
  | 13 => ⟨S32x32, .f32⟩
  | 14 => ⟨S1248x128, .f32⟩
  | 15 => ⟨S128, .f32⟩
  | 16 => ⟨S128x64, .f32⟩
  | 17 => ⟨S64, .f32⟩
  | 18 => ⟨S64x32, .f32⟩
  | 19 => ⟨S32, .f32⟩
  | 20 => ⟨S32x1, .f32⟩
  | 21 => ⟨S1, .f32⟩
  | 22 => ⟨S39, .i32⟩
  | 23 => ⟨S_, .i32⟩
  | 24 => ⟨S39, .i32⟩
  | 25 => ⟨S39, .i32⟩
  | 26 => ⟨S1x39, .i32⟩
  | 27 => ⟨S16384x39, .i32⟩
  | 28 => ⟨S16384x39, .i32⟩
  | 29 => ⟨S_, .i32⟩
  | 30 => ⟨S16384x39, .i32⟩
  | 31 => ⟨S16384x39, .i1⟩
  | 32 => ⟨S_, .i32⟩
  | 33 => ⟨S16384x39, .i32⟩
  | 34 => ⟨S16384x39, .i32⟩
  | 35 => ⟨S16384x39, .i32⟩
  | 36 => ⟨S16384x39x1, .i32⟩
  | 37 => ⟨S16384x39x16, .f32⟩
  | 38 => ⟨S16384x39x32, .f32⟩
  | 39 => ⟨S16384x39x32, .f32⟩
  | 40 => ⟨S16384x39x32, .f32⟩
  | 41 => ⟨S16384x39x39, .f32⟩
  | 42 => ⟨S_, .f32⟩
  | 43 => ⟨S16384x39, .f32⟩
  | 44 => ⟨S_, .f32⟩
  | 45 => ⟨S16384x39, .f32⟩
  | 46 => ⟨S16384x39, .f32⟩
  | 47 => ⟨S16384x39x1, .f32⟩
  | 48 => ⟨S16384x39x39, .f32⟩
  | 49 => ⟨S16384x39x39, .f32⟩
  | 50 => ⟨S16384x39x39, .f32⟩
  | 51 => ⟨S_, .f32⟩
  | 52 => ⟨S16384x39, .f32⟩
  | 53 => ⟨S16384x39x1, .f32⟩
  | 54 => ⟨S16384x39x39, .f32⟩
  | 55 => ⟨S16384x39x39, .f32⟩
  | 56 => ⟨S16384x39x32, .f32⟩
  | 57 => ⟨S16384x39x32, .f32⟩
  | 58 => ⟨S16384x39x32, .f32⟩
  | 59 => ⟨S_, .f32⟩
  | 60 => ⟨S16384x39x32, .f32⟩
  | 61 => ⟨S16384x39x32, .f32⟩
  | 62 => ⟨S16384x39x32, .f32⟩
  | 63 => ⟨S16384x39x32, .f32⟩
  | 64 => ⟨S16384x39x32, .f32⟩
  | 65 => ⟨S16384x39x39, .f32⟩
  | 66 => ⟨S_, .f32⟩
  | 67 => ⟨S16384x39, .f32⟩
  | 68 => ⟨S_, .f32⟩
  | 69 => ⟨S16384x39, .f32⟩
  | 70 => ⟨S16384x39, .f32⟩
  | 71 => ⟨S16384x39x1, .f32⟩
  | 72 => ⟨S16384x39x39, .f32⟩
  | 73 => ⟨S16384x39x39, .f32⟩
  | 74 => ⟨S16384x39x39, .f32⟩
  | 75 => ⟨S_, .f32⟩
  | 76 => ⟨S16384x39, .f32⟩
  | 77 => ⟨S16384x39x1, .f32⟩
  | 78 => ⟨S16384x39x39, .f32⟩
  | 79 => ⟨S16384x39x39, .f32⟩
  | 80 => ⟨S16384x39x32, .f32⟩
  | 81 => ⟨S16384x39x32, .f32⟩
  | 82 => ⟨S16384x39x32, .f32⟩
  | 83 => ⟨S_, .f32⟩
  | 84 => ⟨S16384x39x32, .f32⟩
  | 85 => ⟨S16384x39x32, .f32⟩
  | 86 => ⟨S16384x39x32, .f32⟩
  | 87 => ⟨S16384x39x32, .f32⟩
  | 88 => ⟨S16384x39x32, .f32⟩
  | 89 => ⟨S16384x39x39, .f32⟩
  | 90 => ⟨S_, .f32⟩
  | 91 => ⟨S16384x39, .f32⟩
  | 92 => ⟨S_, .f32⟩
  | 93 => ⟨S16384x39, .f32⟩
  | 94 => ⟨S16384x39, .f32⟩
  | 95 => ⟨S16384x39x1, .f32⟩
  | 96 => ⟨S16384x39x39, .f32⟩
  | 97 => ⟨S16384x39x39, .f32⟩
  | 98 => ⟨S16384x39x39, .f32⟩
  | 99 => ⟨S_, .f32⟩
  | 100 => ⟨S16384x39, .f32⟩
  | 101 => ⟨S16384x39x1, .f32⟩
  | 102 => ⟨S16384x39x39, .f32⟩
  | 103 => ⟨S16384x39x39, .f32⟩
  | 104 => ⟨S16384x39x32, .f32⟩
  | 105 => ⟨S16384x39x32, .f32⟩
  | 106 => ⟨S16384x39x32, .f32⟩
  | 107 => ⟨S_, .f32⟩
  | 108 => ⟨S16384x39x32, .f32⟩
  | 109 => ⟨S16384x39x32, .f32⟩
  | 110 => ⟨S16384x1248, .f32⟩
  | 111 => ⟨S16384x128, .f32⟩
  | 112 => ⟨S1x128, .f32⟩
  | 113 => ⟨S16384x128, .f32⟩
  | 114 => ⟨S16384x128, .f32⟩
  | 115 => ⟨S_, .f32⟩
  | 116 => ⟨S16384x128, .f32⟩
  | 117 => ⟨S16384x128, .f32⟩
  | 118 => ⟨S16384x64, .f32⟩
  | 119 => ⟨S1x64, .f32⟩
  | 120 => ⟨S16384x64, .f32⟩
  | 121 => ⟨S16384x64, .f32⟩
  | 122 => ⟨S_, .f32⟩
  | 123 => ⟨S16384x64, .f32⟩
  | 124 => ⟨S16384x64, .f32⟩
  | 125 => ⟨S16384x32, .f32⟩
  | 126 => ⟨S1x32, .f32⟩
  | 127 => ⟨S16384x32, .f32⟩
  | _ => ⟨S16384x39, .i32⟩

abbrev hbmTy0_1 (i : Nat) : BufTy := match i % 128 with
  | 0 => ⟨S16384x32, .f32⟩
  | 1 => ⟨S_, .f32⟩
  | 2 => ⟨S16384x32, .f32⟩
  | 3 => ⟨S16384x32, .f32⟩
  | 4 => ⟨S16384x1, .f32⟩
  | 5 => ⟨S1x1, .f32⟩
  | 6 => ⟨S16384x1, .f32⟩
  | 7 => ⟨S16384x1, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | _ => ⟨S16384x39, .i32⟩

abbrev hbmTy (i : Nat) : BufTy := match i / 128 with
  | 0 => hbmTy0_0 i
  | 1 => hbmTy0_1 i
  | _ => ⟨S16384x39, .i32⟩

abbrev bufTy : (tb : Table) → Fin (tcTables nBuf tb) → BufTy
  | .hbm, ⟨i, _⟩ => hbmTy i
  | _, _ => ⟨S16384x39, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call0_cst : Ref sig .tc := ⟨.hbm, 59, rfl⟩
abbrev main_call0_v0 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_cst_5 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_6 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_call1_cst : Ref sig .tc := ⟨.hbm, 83, rfl⟩
abbrev main_call1_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_7 : Ref sig .tc := ⟨.hbm, 90, rfl⟩
abbrev main_v55 : Ref sig .tc := ⟨.hbm, 91, rfl⟩
abbrev main_cst_8 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_9 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_call2_cst : Ref sig .tc := ⟨.hbm, 107, rfl⟩
abbrev main_call2_v0 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call3_cst : Ref sig .tc := ⟨.hbm, 115, rfl⟩
abbrev main_call3_v0 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_call4_cst : Ref sig .tc := ⟨.hbm, 122, rfl⟩
abbrev main_call4_v0 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_call5_cst : Ref sig .tc := ⟨.hbm, 129, rfl⟩
abbrev main_call5_v0 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_10 : Ref sig .tc := ⟨.hbm, 138, rfl⟩
abbrev main_v92 : Ref sig .tc := ⟨.hbm, 139, rfl⟩
abbrev main_v93 : Ref sig .tc := ⟨.hbm, 140, rfl⟩
abbrev main_cst_11 : Ref sig .tc := ⟨.hbm, 141, rfl⟩
abbrev main_v94 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  bcast_S_S39 : S_.BroadcastsInDim S39 (![] : Fin 0 → Fin S39.rank)
  bcast_S39_S1x39_1 : S39.BroadcastsInDim S1x39 (![1] : Fin 1 → Fin S1x39.rank)
  bcast_S1x39_S16384x39_0_1 : S1x39.BroadcastsInDim S16384x39 (![0, 1] : Fin 2 → Fin S16384x39.rank)
  bcast_S_S16384x39 : S_.BroadcastsInDim S16384x39 (![] : Fin 0 → Fin S16384x39.rank)
  bcast_S16384x39_S16384x39x1_0_1 : S16384x39.BroadcastsInDim S16384x39x1 (![0, 1] : Fin 2 → Fin S16384x39x1.rank)
  reducesTo_S16384x39x39_S16384x39_d2 : S16384x39x39.ReducesTo [2] S16384x39
  h_S_ : 0 < S_.numel
  bcast_S16384x39x1_S16384x39x39_0_1_2 : S16384x39x1.BroadcastsInDim S16384x39x39 (![0, 1, 2] : Fin 3 → Fin S16384x39x39.rank)
  bcast_S_S16384x39x32 : S_.BroadcastsInDim S16384x39x32 (![] : Fin 0 → Fin S16384x39x32.rank)
  shapeCasts_S16384x39x32_S16384x1248 : S16384x39x32.ShapeCasts S16384x1248
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S390000x16_S16384x39x1_S16384x39x16_2_0_n_n_0_2_116_wf : GatherDims.WF S390000x16 S16384x39x1 S16384x39x16 [2] [0] [] [0] [] 2 ![1, 16]
  dot_S16384x39x16_S16x32_S16384x39x32_2_0_01_1_n_n_wf : DotDims.WF S16384x39x16 S16x32 S16384x39x32 [2] [0] [0, 1] [1] [] []
  dot_S16384x39x32_S16384x39x32_S16384x39x39_2_2_1_1_0_0_wf : DotDims.WF S16384x39x32 S16384x39x32 S16384x39x39 [2] [2] [1] [1] [0] [0]
  dot_S16384x39x39_S16384x39x32_S16384x39x32_2_1_1_2_0_0_wf : DotDims.WF S16384x39x39 S16384x39x32 S16384x39x32 [2] [1] [1] [2] [0] [0]
  dot_S16384x39x32_S32x32_S16384x39x32_2_0_01_1_n_n_wf : DotDims.WF S16384x39x32 S32x32 S16384x39x32 [2] [0] [0, 1] [1] [] []
  dot_S16384x1248_S1248x128_S16384x128_1_0_0_1_n_n_wf : DotDims.WF S16384x1248 S1248x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def gather_S390000x16_S16384x39x1_S16384x39x16_2_0_n_n_0_2_116 : GatherDims S390000x16 S16384x39x1 S16384x39x16 where
  offsetDims := [2]
  collapsedSliceDims := [0]
  operandBatchingDims := []
  startIndicesBatchingDims := []
  startIndexMap := [0]
  indexVectorDim := 2
  sliceSizes := ![1, 16]
  wf := gather_S390000x16_S16384x39x1_S16384x39x16_2_0_n_n_0_2_116_wf
def dot_S16384x39x16_S16x32_S16384x39x32_2_0_01_1_n_n : DotDims S16384x39x16 S16x32 S16384x39x32 where
  lhsContracting := [2]
  rhsContracting := [0]
  lhsNonContracting := [0, 1]
  rhsNonContracting := [1]
  lhsBatch := []
  rhsBatch := []
  wf := dot_S16384x39x16_S16x32_S16384x39x32_2_0_01_1_n_n_wf
def dot_S16384x39x32_S16384x39x32_S16384x39x39_2_2_1_1_0_0 : DotDims S16384x39x32 S16384x39x32 S16384x39x39 where
  lhsContracting := [2]
  rhsContracting := [2]
  lhsNonContracting := [1]
  rhsNonContracting := [1]
  lhsBatch := [0]
  rhsBatch := [0]
  wf := dot_S16384x39x32_S16384x39x32_S16384x39x39_2_2_1_1_0_0_wf
def dot_S16384x39x39_S16384x39x32_S16384x39x32_2_1_1_2_0_0 : DotDims S16384x39x39 S16384x39x32 S16384x39x32 where
  lhsContracting := [2]
  rhsContracting := [1]
  lhsNonContracting := [1]
  rhsNonContracting := [2]
  lhsBatch := [0]
  rhsBatch := [0]
  wf := dot_S16384x39x39_S16384x39x32_S16384x39x32_2_1_1_2_0_0_wf
def dot_S16384x39x32_S32x32_S16384x39x32_2_0_01_1_n_n : DotDims S16384x39x32 S32x32 S16384x39x32 where
  lhsContracting := [2]
  rhsContracting := [0]
  lhsNonContracting := [0, 1]
  rhsNonContracting := [1]
  lhsBatch := []
  rhsBatch := []
  wf := dot_S16384x39x32_S32x32_S16384x39x32_2_0_01_1_n_n_wf
def dot_S16384x1248_S1248x128_S16384x128_1_0_0_1_n_n : DotDims S16384x1248 S1248x128 S16384x128 where
  lhsContracting := [1]
  rhsContracting := [0]
  lhsNonContracting := [0]
  rhsNonContracting := [1]
  lhsBatch := []
  rhsBatch := []
  wf := dot_S16384x1248_S1248x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.Spec.lean ====
/-
  The network of one example, on the extended reals.

  Both programs compute, for each of the 16384 examples independently, one number from that example's 39 embedding
  rows (39 × 16) and the weights:

  * three attention layers. A layer takes the 39 rows `e` (width 16 in the first layer, 32 afterwards), forms the
    four projections `e·Wq`, `e·Wk`, `e·Wv`, `e·Wr` (each 39 × 32), the 39 × 39 scores `q·kᵀ` (no scaling), the
    softmax of each score row — the row's entries minus the row's maximum, exponentiated, divided by their sum —,
    the weighted rows `softmax · v`, adds the residual projection and rectifies;
  * the 39 × 32 result flattened to 1248 numbers, row after row;
  * four dense layers 1248 → 128 → 64 → 32 → 1 (a product with the weight matrix plus the bias), the first three
    rectified, and the logistic function of the last.

  A sum is a `Finset` sum, so its order and grouping do not matter; a row's maximum is the fold of `max` from −∞ over
  the row, joined once more with −∞, as both programs spell it (the two −∞ are the same bit pattern on both sides and
  are never evaluated). Nothing here depends on how the examples are tiled.
-/
import Idealize.ShloMosaic.PureOps.Ideal

noncomputable section

namespace Cert.AutoInt

open Idealize.ShloMosaic

/-- −∞, as the bit pattern both programs write for it. -/
abbrev negInf : EReal := Ideal.ofBits .f32 0xFF800000#32

/-- Zero, as the bit pattern both programs write for it. -/
abbrev zero32 : EReal := Ideal.ofBits .f32 0x00000000#32

/-- The rectifier `max x 0`. -/
def relu (x : EReal) : EReal := max x zero32

/-- The product of `n` rows of width `a` with an `a × b` matrix. -/
def proj {n a b : Nat} (e : Fin n → Fin a → EReal) (w : Fin a → Fin b → EReal) (f : Fin n) (c : Fin b) : EReal :=
  ∑ d : Fin a, e f d * w d c

/-- The scores `q · kᵀ` of one example: entry `(f, g)` pairs query row `f` with key row `g`. -/
def scores (q k : Fin 39 → Fin 32 → EReal) (f g : Fin 39) : EReal :=
  ∑ c : Fin 32, q f c * k g c

/-- The maximum of score row `f`. -/
def rowMax (l : Fin 39 → Fin 39 → EReal) (f : Fin 39) : EReal :=
  max negInf ((Finset.univ : Finset (Fin 39)).fold max negInf (l f))

/-- The exponential of a score minus its row's maximum. -/
def expo (l : Fin 39 → Fin 39 → EReal) (f g : Fin 39) : EReal :=
  Ideal.exp (l f g - rowMax l f)

/-- The sum of a row's exponentials. -/
def denom (l : Fin 39 → Fin 39 → EReal) (f : Fin 39) : EReal :=
  ∑ g : Fin 39, expo l f g

/-- The softmax of each score row. -/
def softmax (l : Fin 39 → Fin 39 → EReal) (f g : Fin 39) : EReal :=
  Ideal.div (expo l f g) (denom l f)

/-- The attention core: from the three projected 39 × 32 arrays and the residual one to the layer's value before the
    rectifier, `softmax (q·kᵀ) · v + r`. -/
def attnCore (q k v r : Fin 39 → Fin 32 → EReal) (f : Fin 39) (c : Fin 32) : EReal :=
  (∑ g : Fin 39, softmax (scores q k) f g * v g c) + r f c

/-- One attention layer before the rectifier, from the layer's input rows and its four weight matrices. -/
def attnPre {a : Nat} (e : Fin 39 → Fin a → EReal) (wq wk wv wr : Fin a → Fin 32 → EReal) (f : Fin 39) (c : Fin 32) : EReal :=
  attnCore (proj e wq) (proj e wk) (proj e wv) (proj e wr) f c

/-- One attention layer. -/
def attn {a : Nat} (e : Fin 39 → Fin a → EReal) (wq wk wv wr : Fin a → Fin 32 → EReal) (f : Fin 39) (c : Fin 32) : EReal :=
  relu (attnPre e wq wk wv wr f c)

/-- A dense layer before its activation: `h · w + b`. -/
def dense {n k : Nat} (h : Fin n → EReal) (w : Fin n → Fin k → EReal) (b : Fin k → EReal) (j : Fin k) : EReal :=
  (∑ i : Fin n, h i * w i j) + b j

/-- The 39 × 32 rows laid out as 1248 numbers, row after row. -/
def flat (e : Fin 39 → Fin 32 → EReal) (i : Fin 1248) : EReal :=
  e ⟨i.val / 32, by have := i.isLt; omega⟩ ⟨i.val % 32, Nat.mod_lt _ (by decide)⟩

/-- The head: three rectified dense layers, a last dense layer to one number, and the logistic function of it. -/
def head (h0 : Fin 1248 → EReal)
    (w1 : Fin 1248 → Fin 128 → EReal) (b1 : Fin 128 → EReal) (w2 : Fin 128 → Fin 64 → EReal) (b2 : Fin 64 → EReal)
    (w3 : Fin 64 → Fin 32 → EReal) (b3 : Fin 32 → EReal) (w4 : Fin 32 → Fin 1 → EReal) (b4 : Fin 1 → EReal) : EReal :=
  Ideal.logistic
    (dense (fun i3 => relu (dense (fun i2 => relu (dense (fun i1 => relu (dense h0 w1 b1 i1)) w2 b2 i2)) w3 b3 i3)) w4 b4 0)

/-- The weights, as functions of their coordinates. -/
structure Params where
  wq0 : Fin 16 → Fin 32 → EReal
  wk0 : Fin 16 → Fin 32 → EReal
  wv0 : Fin 16 → Fin 32 → EReal
  wr0 : Fin 16 → Fin 32 → EReal
  wq1 : Fin 32 → Fin 32 → EReal
  wk1 : Fin 32 → Fin 32 → EReal
  wv1 : Fin 32 → Fin 32 → EReal
  wr1 : Fin 32 → Fin 32 → EReal
  wq2 : Fin 32 → Fin 32 → EReal
  wk2 : Fin 32 → Fin 32 → EReal
  wv2 : Fin 32 → Fin 32 → EReal
  wr2 : Fin 32 → Fin 32 → EReal
  w1 : Fin 1248 → Fin 128 → EReal
  b1 : Fin 128 → EReal
  w2 : Fin 128 → Fin 64 → EReal
  b2 : Fin 64 → EReal
  w3 : Fin 64 → Fin 32 → EReal
  b3 : Fin 32 → EReal
  w4 : Fin 32 → Fin 1 → EReal
  b4 : Fin 1 → EReal

/-- The three attention layers of one example. -/
def layers (P : Params) (e0 : Fin 39 → Fin 16 → EReal) : Fin 39 → Fin 32 → EReal :=
  attn (attn (attn e0 P.wq0 P.wk0 P.wv0 P.wr0) P.wq1 P.wk1 P.wv1 P.wr1) P.wq2 P.wk2 P.wv2 P.wr2

/-- The whole network of one example. -/
def net (P : Params) (e0 : Fin 39 → Fin 16 → EReal) : EReal :=
  head (flat (layers P e0)) P.w1 P.b1 P.w2 P.b2 P.w3 P.b3 P.w4 P.b4

end Cert.AutoInt

end
-- ==== Proof.KCore.lean ====
/-
  The kernel's attention core on one tile of 64 examples, read at an entry.

  Inside a tile the three projected arrays and the residual one are 2496 × 32: row `p * 39 + f` is row `f` of
  example `p`. The core regroups them as 64 × 39 × 32, forms each example's 39 × 39 scores (a product batched over
  the examples, contracting the width 32), subtracts each score row's maximum, exponentiates, divides by the row's
  sum, multiplies the 39 × 39 weights with the example's value rows (batched again, contracting the 39 rows) and adds
  the residual. Entry `(p, f, c)` of the result is therefore the one-example core `attnCore` of example `p`'s rows.
-/
import proofs.«130033_j76630806495343_1_alg».proof.Proof.Gen.KernelIdeal.Skeleton
import proofs.«130033_j76630806495343_1_alg».proof.Proof.Spec
import Idealize.ShloMosaic.Lib.ValueIdx
import Idealize.ShloMosaic.Lib.Pipeline.Value
import Idealize.ShloMosaic.PureOps.Ideal.Laws

noncomputable section

namespace Cert.AutoInt.K

open Cert.KernelIdeal Cert.KernelIdeal.Gen Idealize.ShloMosaic Idealize.ShloMosaic.ValueIdx Cert.AutoInt

/-- Row `f` of example `p` among the tile's 2496 rows. -/
abbrev rowOf (p : Fin 64) (f : Fin 39) : Fin 2496 := ⟨p.val * 39 + f.val, by have := p.isLt; have := f.isLt; omega⟩

/-- Column `c` of row `f` among an example's 1248 flattened numbers. -/
abbrev colOf (f : Fin 39) (c : Fin 32) : Fin 1248 := ⟨f.val * 32 + c.val, by have := f.isLt; have := c.isLt; omega⟩

/-! ## The regrouping cast -/

/-- The 2496 × 32 array regrouped as 64 × 39 × 32 reads, at `(p, f, c)`, row `p * 39 + f` at column `c`. -/
theorem cast3_apply {α : Type} (x : S2496x32.Idx → α) (p : Fin 64) (f : Fin 39) (c : Fin 32) :
    shapeCast S64x39x32 x shapeCasts_S2496x32_S64x39x32 (ix3 p f c) = x (ix2 (rowOf p f) c) :=
  shapeCast_apply x _ _ _ (by
    rw [Shape.rowMajor_val_two, Shape.rowMajor_val_three]
    rfl)

/-! ## The scores: a product batched over the examples, contracting the width -/

theorem lhsS_0 (i : S64x39x39.Idx) (q : dot_S64x39x32_S64x39x32_S64x39x39_2_2_1_1_0_0.contr.Idx) :
    (dot_S64x39x32_S64x39x32_S64x39x39_2_2_1_1_0_0.lhsIdx i q 0).val = (i 0).val := by
  unfold DotDims.lhsIdx
  rw [dif_pos (show (0 : Fin S64x39x32.rank) ∈ dot_S64x39x32_S64x39x32_S64x39x39_2_2_1_1_0_0.lhsBatch by decide)]
  rfl
theorem lhsS_1 (i : S64x39x39.Idx) (q : dot_S64x39x32_S64x39x32_S64x39x39_2_2_1_1_0_0.contr.Idx) :
    (dot_S64x39x32_S64x39x32_S64x39x39_2_2_1_1_0_0.lhsIdx i q 1).val = (i 1).val := by
  unfold DotDims.lhsIdx
  rw [dif_neg (show ¬(1 : Fin S64x39x32.rank) ∈ dot_S64x39x32_S64x39x32_S64x39x39_2_2_1_1_0_0.lhsBatch by decide), dif_pos (show (1 : Fin S64x39x32.rank) ∈ dot_S64x39x32_S64x39x32_S64x39x39_2_2_1_1_0_0.lhsNonContracting by decide)]
  rfl
theorem lhsS_2 (i : S64x39x39.Idx) (q : dot_S64x39x32_S64x39x32_S64x39x39_2_2_1_1_0_0.contr.Idx) :
    (dot_S64x39x32_S64x39x32_S64x39x39_2_2_1_1_0_0.lhsIdx i q 2).val = (q ⟨0, by decide⟩).val :=
  dot_S64x39x32_S64x39x32_S64x39x39_2_2_1_1_0_0.lhsIdx_val_of_single rfl i q
theorem rhsS_0 (i : S64x39x39.Idx) (q : dot_S64x39x32_S64x39x32_S64x39x39_2_2_1_1_0_0.contr.Idx) :
    (dot_S64x39x32_S64x39x32_S64x39x39_2_2_1_1_0_0.rhsIdx i q 0).val = (i 0).val := by
  unfold DotDims.rhsIdx
  rw [dif_pos (show (0 : Fin S64x39x32.rank) ∈ dot_S64x39x32_S64x39x32_S64x39x39_2_2_1_1_0_0.rhsBatch by decide)]
  rfl
theorem rhsS_1 (i : S64x39x39.Idx) (q : dot_S64x39x32_S64x39x32_S64x39x39_2_2_1_1_0_0.contr.Idx) :
    (dot_S64x39x32_S64x39x32_S64x39x39_2_2_1_1_0_0.rhsIdx i q 1).val = (i 2).val := by
  unfold DotDims.rhsIdx
  rw [dif_neg (show ¬(1 : Fin S64x39x32.rank) ∈ dot_S64x39x32_S64x39x32_S64x39x39_2_2_1_1_0_0.rhsBatch by decide), dif_pos (show (1 : Fin S64x39x32.rank) ∈ dot_S64x39x32_S64x39x32_S64x39x39_2_2_1_1_0_0.rhsNonContracting by decide)]
  rfl
theorem rhsS_2 (i : S64x39x39.Idx) (q : dot_S64x39x32_S64x39x32_S64x39x39_2_2_1_1_0_0.contr.Idx) :
    (dot_S64x39x32_S64x39x32_S64x39x39_2_2_1_1_0_0.rhsIdx i q 2).val = (q ⟨0, by decide⟩).val :=
  dot_S64x39x32_S64x39x32_S64x39x39_2_2_1_1_0_0.rhsIdx_val_of_single rfl i q

/-- Entry `(p, f, g)` of the batched scores: query row `f` with key row `g` of example `p`, summed over the width. -/
theorem scores_apply (a b : FVec Ideal S64x39x32 .bf16) (p : Fin 64) (f g : Fin 39) :
    matmul dot_S64x39x32_S64x39x32_S64x39x39_2_2_1_1_0_0 none a b (constant (F := Ideal) S64x39x39 .f32 0x00000000#32) (ix3 p f g)
      = ∑ c : Fin 32, a (ix3 p f c) * b (ix3 p g c) := by
  simp only [matmul]
  rw [Ideal.matmul_constant_zero_apply, ← Equiv.sum_comp (ValueIdx.contrEquiv1 dot_S64x39x32_S64x39x32_S64x39x39_2_2_1_1_0_0 32 rfl rfl).symm]
  refine Finset.sum_congr rfl fun k _ => ?_
  have hk := ValueIdx.contrEquiv1_symm_val dot_S64x39x32_S64x39x32_S64x39x39_2_2_1_1_0_0 32 rfl rfl k
  have el : dot_S64x39x32_S64x39x32_S64x39x39_2_2_1_1_0_0.lhsIdx (ix3 p f g) ((ValueIdx.contrEquiv1 dot_S64x39x32_S64x39x32_S64x39x39_2_2_1_1_0_0 32 rfl rfl).symm k) = ix3 p f k := funext fun a => Fin.ext (by
    match a with
    | ⟨0, _⟩ => exact lhsS_0 _ _
    | ⟨1, _⟩ => exact lhsS_1 _ _
    | ⟨2, _⟩ => exact (lhsS_2 _ _).trans hk)
  have er : dot_S64x39x32_S64x39x32_S64x39x39_2_2_1_1_0_0.rhsIdx (ix3 p f g) ((ValueIdx.contrEquiv1 dot_S64x39x32_S64x39x32_S64x39x39_2_2_1_1_0_0 32 rfl rfl).symm k) = ix3 p g k := funext fun a => Fin.ext (by
    match a with
    | ⟨0, _⟩ => exact rhsS_0 _ _
    | ⟨1, _⟩ => exact rhsS_1 _ _
    | ⟨2, _⟩ => exact (rhsS_2 _ _).trans hk)
  rw [el, er]

/-! ## The weighted rows: a product batched over the examples, contracting the 39 rows -/

theorem lhsW_0 (i : S64x39x32.Idx) (q : dot_S64x39x39_S64x39x32_S64x39x32_2_1_1_2_0_0.contr.Idx) :
    (dot_S64x39x39_S64x39x32_S64x39x32_2_1_1_2_0_0.lhsIdx i q 0).val = (i 0).val := by
  unfold DotDims.lhsIdx
  rw [dif_pos (show (0 : Fin S64x39x39.rank) ∈ dot_S64x39x39_S64x39x32_S64x39x32_2_1_1_2_0_0.lhsBatch by decide)]
  rfl
theorem lhsW_1 (i : S64x39x32.Idx) (q : dot_S64x39x39_S64x39x32_S64x39x32_2_1_1_2_0_0.contr.Idx) :
    (dot_S64x39x39_S64x39x32_S64x39x32_2_1_1_2_0_0.lhsIdx i q 1).val = (i 1).val := by
  unfold DotDims.lhsIdx
  rw [dif_neg (show ¬(1 : Fin S64x39x39.rank) ∈ dot_S64x39x39_S64x39x32_S64x39x32_2_1_1_2_0_0.lhsBatch by decide), dif_pos (show (1 : Fin S64x39x39.rank) ∈ dot_S64x39x39_S64x39x32_S64x39x32_2_1_1_2_0_0.lhsNonContracting by decide)]
  rfl
theorem lhsW_2 (i : S64x39x32.Idx) (q : dot_S64x39x39_S64x39x32_S64x39x32_2_1_1_2_0_0.contr.Idx) :
    (dot_S64x39x39_S64x39x32_S64x39x32_2_1_1_2_0_0.lhsIdx i q 2).val = (q ⟨0, by decide⟩).val :=
  dot_S64x39x39_S64x39x32_S64x39x32_2_1_1_2_0_0.lhsIdx_val_of_single rfl i q
theorem rhsW_0 (i : S64x39x32.Idx) (q : dot_S64x39x39_S64x39x32_S64x39x32_2_1_1_2_0_0.contr.Idx) :
    (dot_S64x39x39_S64x39x32_S64x39x32_2_1_1_2_0_0.rhsIdx i q 0).val = (i 0).val := by
  unfold DotDims.rhsIdx
  rw [dif_pos (show (0 : Fin S64x39x32.rank) ∈ dot_S64x39x39_S64x39x32_S64x39x32_2_1_1_2_0_0.rhsBatch by decide)]
  rfl
theorem rhsW_1 (i : S64x39x32.Idx) (q : dot_S64x39x39_S64x39x32_S64x39x32_2_1_1_2_0_0.contr.Idx) :
    (dot_S64x39x39_S64x39x32_S64x39x32_2_1_1_2_0_0.rhsIdx i q 1).val = (q ⟨0, by decide⟩).val :=
  dot_S64x39x39_S64x39x32_S64x39x32_2_1_1_2_0_0.rhsIdx_val_of_single rfl i q
theorem rhsW_2 (i : S64x39x32.Idx) (q : dot_S64x39x39_S64x39x32_S64x39x32_2_1_1_2_0_0.contr.Idx) :
    (dot_S64x39x39_S64x39x32_S64x39x32_2_1_1_2_0_0.rhsIdx i q 2).val = (i 2).val := by
  unfold DotDims.rhsIdx
  rw [dif_neg (show ¬(2 : Fin S64x39x32.rank) ∈ dot_S64x39x39_S64x39x32_S64x39x32_2_1_1_2_0_0.rhsBatch by decide), dif_pos (show (2 : Fin S64x39x32.rank) ∈ dot_S64x39x39_S64x39x32_S64x39x32_2_1_1_2_0_0.rhsNonContracting by decide)]
  rfl

/-- Entry `(p, f, c)` of the batched weighted rows: weight row `f` of example `p` against column `c` of its value rows. -/
theorem weighted_apply (w : FVec Ideal S64x39x39 .bf16) (b : FVec Ideal S64x39x32 .bf16) (p : Fin 64) (f : Fin 39) (c : Fin 32) :
    matmul dot_S64x39x39_S64x39x32_S64x39x32_2_1_1_2_0_0 none w b (constant (F := Ideal) S64x39x32 .f32 0x00000000#32) (ix3 p f c)
      = ∑ g : Fin 39, w (ix3 p f g) * b (ix3 p g c) := by
  simp only [matmul]
  rw [Ideal.matmul_constant_zero_apply, ← Equiv.sum_comp (ValueIdx.contrEquiv1 dot_S64x39x39_S64x39x32_S64x39x32_2_1_1_2_0_0 39 rfl rfl).symm]
  refine Finset.sum_congr rfl fun k _ => ?_
  have hk := ValueIdx.contrEquiv1_symm_val dot_S64x39x39_S64x39x32_S64x39x32_2_1_1_2_0_0 39 rfl rfl k
  have el : dot_S64x39x39_S64x39x32_S64x39x32_2_1_1_2_0_0.lhsIdx (ix3 p f c) ((ValueIdx.contrEquiv1 dot_S64x39x39_S64x39x32_S64x39x32_2_1_1_2_0_0 39 rfl rfl).symm k) = ix3 p f k := funext fun a => Fin.ext (by
    match a with
    | ⟨0, _⟩ => exact lhsW_0 _ _
    | ⟨1, _⟩ => exact lhsW_1 _ _
    | ⟨2, _⟩ => exact (lhsW_2 _ _).trans hk)
  have er : dot_S64x39x39_S64x39x32_S64x39x32_2_1_1_2_0_0.rhsIdx (ix3 p f c) ((ValueIdx.contrEquiv1 dot_S64x39x39_S64x39x32_S64x39x32_2_1_1_2_0_0 39 rfl rfl).symm k) = ix3 p k c := funext fun a => Fin.ext (by
    match a with
    | ⟨0, _⟩ => exact rhsW_0 _ _
    | ⟨1, _⟩ => exact (rhsW_1 _ _).trans hk
    | ⟨2, _⟩ => exact rhsW_2 _ _)
  rw [el, er]

/-! ## The two reductions over a score row -/

/-- The index a reduction over the last axis reads: the kept coordinates with the row's coordinate inserted. -/
theorem lift_ix (p : Fin 64) (f g : Fin 39) :
    reduces_S64x39x39_S64x39.lift (ix2 p f) g = ix3 p f g :=
  funext fun a => Fin.ext (by
    match a with
    | ⟨0, _⟩ => rfl
    | ⟨1, _⟩ => rfl
    | ⟨2, _⟩ => rfl)

/-- The maximum over the last axis at `(p, f)`: the fold of `max` from −∞ over row `f` of example `p`. -/
theorem rowMax_apply (x : FVec Ideal S64x39x39 .f32) (p : Fin 64) (f : Fin 39) :
    multiReduction (F := Ideal) .maximumf [2] S64x39 x 0xFF800000#32 reduces_S64x39x39_S64x39 (.inl rfl) rfl (ix2 p f)
      = (Finset.univ : Finset (Fin 39)).fold max negInf (fun g => x (ix3 p f g)) := by
  refine (Ideal.multiReduction_maximumf_single x _ reduces_S64x39x39_S64x39 _ _ (ix2 p f)).trans ?_
  have e : (x ∘ reduces_S64x39x39_S64x39.lift (ix2 p f)) = fun g : Fin 39 => x (ix3 p f g) :=
    funext fun g => congrArg x (lift_ix p f g)
  exact congrArg (fun h : Fin 39 → EReal => (Finset.univ : Finset (Fin 39)).fold max negInf h) e

/-- The sum over the last axis at `(p, f)`: the sum of row `f` of example `p`. -/
theorem rowSum_apply (x : FVec Ideal S64x39x39 .f32) (p : Fin 64) (f : Fin 39) :
    multiReduction (F := Ideal) .add [2] S64x39 x 0x00000000#32 reduces_S64x39x39_S64x39 (.inl rfl) rfl (ix2 p f)
      = ∑ g : Fin 39, x (ix3 p f g) := by
  refine (Ideal.multiReduction_add_single x _ reduces_S64x39x39_S64x39 _ _ (ix2 p f)).trans ?_
  exact Finset.sum_congr rfl fun g _ => congrArg x (lift_ix p f g)

/-! ## A per-row value spread back along the row -/

/-- A 64 × 39 array given a trailing unit axis and broadcast along it reads, at `(p, f, g)`, its entry `(p, f)`. -/
theorem keep_apply {α : Type} (x : S64x39.Idx → α) (p : Fin 64) (f g : Fin 39) :
    broadcastTo S64x39x39 (shapeCast S64x39x1 x shapeCasts_S64x39_S64x39x1) broadcasts_S64x39x1_S64x39x39 (ix3 p f g)
      = x (ix2 p f) := by
  refine (broadcastTo_apply _ _ _ (ix3 p f (0 : Fin 1)) ?_).trans ?_
  · intro a
    match a with
    | ⟨0, _⟩ => rfl
    | ⟨1, _⟩ => rfl
    | ⟨2, _⟩ => rfl
  · exact shapeCast_apply x _ _ _ (by
      rw [Shape.rowMajor_val_two, Shape.rowMajor_val_three]
      show p.val * 39 + f.val = (p.val * 39 + f.val) * 1 + 0
      omega)

/-- The core's operations on a tile, from the projected 2496 × 32 arrays to the 64 × 39 × 32 value before the
    rectifier. -/
def core (q2 k2 v2 : FVec Ideal S2496x32 .bf16) (r2 : FVec Ideal S2496x32 .f32) : FVec Ideal S64x39x32 .f32 :=
  have v18 : FVec Ideal S64x39x32 .bf16 := shapeCast S64x39x32 q2 shapeCasts_S2496x32_S64x39x32
  have v19 : FVec Ideal S64x39x32 .bf16 := shapeCast S64x39x32 k2 shapeCasts_S2496x32_S64x39x32
  have v20 : FVec Ideal S64x39x32 .bf16 := shapeCast S64x39x32 v2 shapeCasts_S2496x32_S64x39x32
  have v21 : FVec Ideal S64x39x32 .f32 := shapeCast S64x39x32 r2 shapeCasts_S2496x32_S64x39x32
  have cst_13 : FVec Ideal S64x39x39 .f32 := constant S64x39x39 .f32 0x00000000#32
  have v22 : FVec Ideal S64x39x39 .f32 := matmul dot_S64x39x32_S64x39x32_S64x39x39_2_2_1_1_0_0 none v18 v19 cst_13
  have v23 : FVec Ideal S64x39 .f32 := multiReduction .maximumf [2] S64x39 v22 0xFF800000#32 reduces_S64x39x39_S64x39 (.inl rfl) rfl
  have cst_15 : Ideal .f32 := Scalar.ofBits .f32 0xFF800000#32
  have v24 : FVec Ideal S64x39 .f32 := broadcast S64x39 cst_15
  have v25 : FVec Ideal S64x39 .f32 := maximumf v24 v23
  have v26 : FVec Ideal S64x39x1 .f32 := shapeCast S64x39x1 v25 shapeCasts_S64x39_S64x39x1
  have v27 : FVec Ideal S64x39x39 .f32 := broadcastTo S64x39x39 v26 broadcasts_S64x39x1_S64x39x39
  have v28 : FVec Ideal S64x39x39 .f32 := subf v22 v27
  have v29 : FVec Ideal S64x39x39 .f32 := exp v28
  have v30 : FVec Ideal S64x39 .f32 := multiReduction .add [2] S64x39 v29 0x00000000#32 reduces_S64x39x39_S64x39 (.inl rfl) rfl
  have v31 : FVec Ideal S64x39x1 .f32 := shapeCast S64x39x1 v30 shapeCasts_S64x39_S64x39x1
  have v32 : FVec Ideal S64x39x39 .f32 := broadcastTo S64x39x39 v31 broadcasts_S64x39x1_S64x39x39
  have v33 : FVec Ideal S64x39x39 .f32 := divf v29 v32
  have v34 : FVec Ideal S64x39x39 .bf16 := truncf .bf16 v33 bitsLt_bf16_f32
  have cst_17 : FVec Ideal S64x39x32 .f32 := constant S64x39x32 .f32 0x00000000#32
  have v35 : FVec Ideal S64x39x32 .f32 := matmul dot_S64x39x39_S64x39x32_S64x39x32_2_1_1_2_0_0 none v34 v20 cst_17
  addf v35 v21

/-! ## The tile's intermediate arrays, each read at an entry as the one-example quantity -/

/-- The tile's scores: the first batched product of the core. -/
def tScores (q2 k2 : FVec Ideal S2496x32 .bf16) : FVec Ideal S64x39x39 .f32 :=
  matmul dot_S64x39x32_S64x39x32_S64x39x39_2_2_1_1_0_0 none (shapeCast S64x39x32 q2 shapeCasts_S2496x32_S64x39x32)
    (shapeCast S64x39x32 k2 shapeCasts_S2496x32_S64x39x32) (constant S64x39x39 .f32 0x00000000#32)

theorem tScores_apply (q2 k2 : FVec Ideal S2496x32 .bf16) (p : Fin 64) (f g : Fin 39) :
    tScores q2 k2 (ix3 p f g) = scores (fun f c => q2 (ix2 (rowOf p f) c)) (fun g c => k2 (ix2 (rowOf p g) c)) f g := by
  unfold tScores scores
  refine (scores_apply _ _ p f g).trans (Finset.sum_congr rfl fun c _ => ?_)
  exact congrArg₂ (fun a b : EReal => a * b) (cast3_apply q2 p f c) (cast3_apply k2 p g c)

/-- The tile's row maxima, joined with −∞. -/
def tMax (q2 k2 : FVec Ideal S2496x32 .bf16) : FVec Ideal S64x39 .f32 :=
  maximumf (broadcast S64x39 (Scalar.ofBits .f32 0xFF800000#32 : Ideal .f32))
    (multiReduction .maximumf [2] S64x39 (tScores q2 k2) 0xFF800000#32 reduces_S64x39x39_S64x39 (.inl rfl) rfl)

theorem tMax_apply (q2 k2 : FVec Ideal S2496x32 .bf16) (p : Fin 64) (f : Fin 39) :
    tMax q2 k2 (ix2 p f) = rowMax (scores (fun f c => q2 (ix2 (rowOf p f) c)) (fun g c => k2 (ix2 (rowOf p g) c))) f := by
  unfold tMax rowMax
  show max negInf _ = max negInf _
  refine congrArg (max negInf) ((rowMax_apply _ p f).trans ?_)
  exact congrArg (fun h : Fin 39 → EReal => (Finset.univ : Finset (Fin 39)).fold max negInf h)
    (funext fun g => tScores_apply q2 k2 p f g)

/-- The tile's exponentials of the scores minus their row's maximum. -/
def tExp (q2 k2 : FVec Ideal S2496x32 .bf16) : FVec Ideal S64x39x39 .f32 :=
  exp (subf (tScores q2 k2)
    (broadcastTo S64x39x39 (shapeCast S64x39x1 (tMax q2 k2) shapeCasts_S64x39_S64x39x1) broadcasts_S64x39x1_S64x39x39))

theorem tExp_apply (q2 k2 : FVec Ideal S2496x32 .bf16) (p : Fin 64) (f g : Fin 39) :
    tExp q2 k2 (ix3 p f g) = expo (scores (fun f c => q2 (ix2 (rowOf p f) c)) (fun g c => k2 (ix2 (rowOf p g) c))) f g := by
  unfold tExp expo
  show Ideal.exp (_ - _) = Ideal.exp (_ - _)
  exact congrArg Ideal.exp (congrArg₂ (fun a b : EReal => a - b) (tScores_apply q2 k2 p f g)
    ((keep_apply _ p f g).trans (tMax_apply q2 k2 p f)))

/-- The tile's softmax weights: each exponential divided by its row's sum. -/
def tSoft (q2 k2 : FVec Ideal S2496x32 .bf16) : FVec Ideal S64x39x39 .f32 :=
  divf (tExp q2 k2)
    (broadcastTo S64x39x39
      (shapeCast S64x39x1 (multiReduction .add [2] S64x39 (tExp q2 k2) 0x00000000#32 reduces_S64x39x39_S64x39 (.inl rfl) rfl)
        shapeCasts_S64x39_S64x39x1)
      broadcasts_S64x39x1_S64x39x39)

theorem tSoft_apply (q2 k2 : FVec Ideal S2496x32 .bf16) (p : Fin 64) (f g : Fin 39) :
    tSoft q2 k2 (ix3 p f g) = softmax (scores (fun f c => q2 (ix2 (rowOf p f) c)) (fun g c => k2 (ix2 (rowOf p g) c))) f g := by
  unfold tSoft softmax denom
  show Ideal.div _ _ = Ideal.div _ _
  exact congrArg₂ Ideal.div (tExp_apply q2 k2 p f g)
    ((keep_apply _ p f g).trans ((rowSum_apply _ p f).trans
      (Finset.sum_congr rfl fun g' _ => tExp_apply q2 k2 p f g')))

/-- The core is the second batched product of the narrowed weights with the value rows, plus the residual rows. -/
theorem core_eq (q2 k2 v2 : FVec Ideal S2496x32 .bf16) (r2 : FVec Ideal S2496x32 .f32) :
    core q2 k2 v2 r2
      = addf (matmul dot_S64x39x39_S64x39x32_S64x39x32_2_1_1_2_0_0 none (truncf .bf16 (tSoft q2 k2) bitsLt_bf16_f32)
          (shapeCast S64x39x32 v2 shapeCasts_S2496x32_S64x39x32) (constant S64x39x32 .f32 0x00000000#32))
        (shapeCast S64x39x32 r2 shapeCasts_S2496x32_S64x39x32) := rfl

/-- Entry `(p, f, c)` of the tile's core is the one-example core of example `p`'s rows. -/
theorem core_apply (q2 k2 v2 : FVec Ideal S2496x32 .bf16) (r2 : FVec Ideal S2496x32 .f32) (p : Fin 64) (f : Fin 39) (c : Fin 32) :
    core q2 k2 v2 r2 (ix3 p f c)
      = attnCore (fun f c => q2 (ix2 (rowOf p f) c)) (fun g c => k2 (ix2 (rowOf p g) c))
          (fun g c => v2 (ix2 (rowOf p g) c)) (fun f c => r2 (ix2 (rowOf p f) c)) f c := by
  rw [core_eq]
  unfold attnCore
  show _ + _ = _ + _
  refine congrArg₂ (fun a b : EReal => a + b)
    ((weighted_apply _ _ p f c).trans (Finset.sum_congr rfl fun g _ => ?_)) (cast3_apply r2 p f c)
  exact congrArg₂ (fun a b : EReal => a * b) (tSoft_apply q2 k2 p f g) (cast3_apply v2 p g c)

end Cert.AutoInt.K

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.KLayers.lean ====
/-
  The kernel's three attention layers on one tile, read at an entry.

  Each layer's payload flattens the tile's 64 × 39 rows to 2496 rows, multiplies them with the layer's four weight
  matrices (plain 2496 × a by a × 32 products, a = 16 in the first layer and 32 afterwards), and hands the four
  products to the attention core. A change of float format is the identity on the extended reals.
-/
import proofs.«130033_j76630806495343_1_alg».proof.Proof.KCore
import proofs.«130033_j76630806495343_1_alg».proof.Proof.LibPlainDot

noncomputable section

namespace Cert.AutoInt.K

open Cert.KernelIdeal Cert.KernelIdeal.Gen Idealize.ShloMosaic Idealize.ShloMosaic.ValueIdx Cert.AutoInt

/-! ## The first layer: rows of width 16 -/

/-- The tile's 64 × 39 rows of width 16 as 2496 rows. -/
def rows16 (x0 : Vec Ideal S64x39x16 .bf16) : FVec Ideal S2496x16 .bf16 :=
  shapeCast S2496x16 (shapeCast S64x39x16 x0 shapeCasts_S64x39x16_S64x39x16) shapeCasts_S64x39x16_S2496x16

/-- Row `p * 39 + f` of the flattened tile is row `f` of example `p`. -/
theorem rows16_apply (x0 : Vec Ideal S64x39x16 .bf16) (p : Fin 64) (f : Fin 39) (d : Fin 16) :
    rows16 x0 (ix2 (rowOf p f) d) = x0 (ix3 p f d) := by
  unfold rows16
  refine (shapeCast_apply _ _ (ix2 (rowOf p f) d) (ix3 p f d) ?_).trans ?_
  · rw [Shape.rowMajor_val_three, Shape.rowMajor_val_two]
    show (p.val * 39 + f.val) * 16 + d.val = (p.val * 39 + f.val) * 16 + d.val
    rfl
  · exact congrFun (shapeCast_self x0 _) _

/-- The product of the 2496 rows of width 16 with a 16 × 32 weight matrix. -/
def prod16 (x2 : FVec Ideal S2496x16 .bf16) (w : Vec Ideal S16x32 .f32) : FVec Ideal S2496x32 .f32 :=
  matmul dot_S2496x16_S16x32_S2496x32_1_0_0_1_n_n none x2 (truncf .bf16 w bitsLt_bf16_f32)
    (constant S2496x32 .f32 0x00000000#32)

/-- Its entry `(r, c)` is the sum over the width. -/
theorem prod16_apply (x2 : FVec Ideal S2496x16 .bf16) (w : Vec Ideal S16x32 .f32) (r : Fin 2496) (c : Fin 32) :
    prod16 x2 w (ix2 r c) = ∑ d : Fin 16, x2 (ix2 r d) * w (ix2 d c) :=
  Cert.Lib.PlainDot.matmul_zero_apply (M := 2496) (K := 16) (N := 32) none x2 (truncf .bf16 w bitsLt_bf16_f32) r c

/-- Example `p`'s 39 rows of a first-layer product are the projection of its 39 input rows. -/
theorem proj16 (x0 : Vec Ideal S64x39x16 .bf16) (w : Vec Ideal S16x32 .f32) (p : Fin 64) :
    (fun (f : Fin 39) (c : Fin 32) => prod16 (rows16 x0) w (ix2 (rowOf p f) c))
      = proj (fun f d => x0 (ix3 p f d)) (fun d c => w (ix2 d c)) := by
  funext f c
  rw [prod16_apply]
  unfold proj
  exact Finset.sum_congr rfl fun d _ => by rw [rows16_apply]

/-- The first layer's payload is the core of its four products. -/
theorem pay1_eq_core (x0 : Vec Ideal S64x39x16 .bf16) (wq wk wv wr : Vec Ideal S16x32 .f32) :
    k0_pay1 (F := Ideal) x0 wq wk wv wr
      = core (truncf .bf16 (prod16 (rows16 x0) wq) bitsLt_bf16_f32) (truncf .bf16 (prod16 (rows16 x0) wk) bitsLt_bf16_f32)
          (truncf .bf16 (prod16 (rows16 x0) wv) bitsLt_bf16_f32) (prod16 (rows16 x0) wr) := rfl

/-- The first layer before its rectifier: entry `(p, f, c)` is `attnPre` of example `p`'s 39 × 16 rows. -/
theorem pay1_apply (x0 : Vec Ideal S64x39x16 .bf16) (wq wk wv wr : Vec Ideal S16x32 .f32) (p : Fin 64) (f : Fin 39) (c : Fin 32) :
    k0_pay1 (F := Ideal) x0 wq wk wv wr (ix3 p f c)
      = attnPre (fun f d => x0 (ix3 p f d)) (fun d c => wq (ix2 d c)) (fun d c => wk (ix2 d c))
          (fun d c => wv (ix2 d c)) (fun d c => wr (ix2 d c)) f c := by
  rw [pay1_eq_core, core_apply]
  unfold attnPre
  rw [← proj16 x0 wq p, ← proj16 x0 wk p, ← proj16 x0 wv p, ← proj16 x0 wr p]
  rfl

/-! ## The later layers: rows of width 32 -/

/-- The product of the 2496 rows of width 32 with a 32 × 32 weight matrix. -/
def prod32 (x2 : FVec Ideal S2496x32 .bf16) (w : Vec Ideal S32x32 .f32) : FVec Ideal S2496x32 .f32 :=
  matmul dot_S2496x32_S32x32_S2496x32_1_0_0_1_n_n none x2 (truncf .bf16 w bitsLt_bf16_f32)
    (constant S2496x32 .f32 0x00000000#32)

/-- Its entry `(r, c)` is the sum over the width. -/
theorem prod32_apply (x2 : FVec Ideal S2496x32 .bf16) (w : Vec Ideal S32x32 .f32) (r : Fin 2496) (c : Fin 32) :
    prod32 x2 w (ix2 r c) = ∑ d : Fin 32, x2 (ix2 r d) * w (ix2 d c) :=
  Cert.Lib.PlainDot.matmul_zero_apply (M := 2496) (K := 32) (N := 32) none x2 (truncf .bf16 w bitsLt_bf16_f32) r c

/-- Example `p`'s 39 rows of a later layer's product are the projection of its 39 input rows. -/
theorem proj32 (x2 : FVec Ideal S2496x32 .bf16) (w : Vec Ideal S32x32 .f32) (p : Fin 64) :
    (fun (f : Fin 39) (c : Fin 32) => prod32 x2 w (ix2 (rowOf p f) c))
      = proj (fun f d => x2 (ix2 (rowOf p f) d)) (fun d c => w (ix2 d c)) := by
  funext f c
  rw [prod32_apply]
  rfl

/-- A later layer on the flattened rows: the core of the four products, rectified, as 64 × 39 × 32. -/
def layer32 (x2 : FVec Ideal S2496x32 .bf16) (wq wk wv wr : Vec Ideal S32x32 .f32) : FVec Ideal S64x39x32 .bf16 :=
  truncf .bf16
    (maximumf
      (core (truncf .bf16 (prod32 x2 wq) bitsLt_bf16_f32) (truncf .bf16 (prod32 x2 wk) bitsLt_bf16_f32)
        (truncf .bf16 (prod32 x2 wv) bitsLt_bf16_f32) (prod32 x2 wr))
      (broadcast S64x39x32 (Scalar.ofBits .f32 0x00000000#32)))
    bitsLt_bf16_f32

/-- Entry `(p, f, c)` of a later layer is the one-example layer of example `p`'s rows. -/
theorem layer32_apply (x2 : FVec Ideal S2496x32 .bf16) (wq wk wv wr : Vec Ideal S32x32 .f32) (p : Fin 64) (f : Fin 39) (c : Fin 32) :
    layer32 x2 wq wk wv wr (ix3 p f c)
      = attn (fun f d => x2 (ix2 (rowOf p f) d)) (fun d c => wq (ix2 d c)) (fun d c => wk (ix2 d c))
          (fun d c => wv (ix2 d c)) (fun d c => wr (ix2 d c)) f c := by
  show max (core (truncf .bf16 (prod32 x2 wq) bitsLt_bf16_f32) (truncf .bf16 (prod32 x2 wk) bitsLt_bf16_f32)
        (truncf .bf16 (prod32 x2 wv) bitsLt_bf16_f32) (prod32 x2 wr) (ix3 p f c)) zero32 = _
  rw [core_apply]
  unfold attn relu attnPre
  rw [← proj32 x2 wq p, ← proj32 x2 wk p, ← proj32 x2 wv p, ← proj32 x2 wr p]
  rfl

/-- The tile's rectified 64 × 39 rows of width 32 as 2496 rows. -/
def rows32 (v36 v37 : FVec Ideal S64x39x32 .f32) : FVec Ideal S2496x32 .bf16 :=
  shapeCast S2496x32 (truncf .bf16 (maximumf v36 v37) bitsLt_bf16_f32) shapeCasts_S64x39x32_S2496x32

/-- Row `p * 39 + f` of the flattened rectified tile is the rectified row `f` of example `p`. -/
theorem rows32_apply (v36 : FVec Ideal S64x39x32 .f32) (p : Fin 64) (f : Fin 39) (d : Fin 32) :
    rows32 v36 (k0_pay2 (F := Ideal)) (ix2 (rowOf p f) d) = relu (v36 (ix3 p f d)) := by
  unfold rows32
  refine (shapeCast_apply _ _ (ix2 (rowOf p f) d) (ix3 p f d) ?_).trans ?_
  · rw [Shape.rowMajor_val_three, Shape.rowMajor_val_two]
    show (p.val * 39 + f.val) * 32 + d.val = (p.val * 39 + f.val) * 32 + d.val
    rfl
  · rfl

/-- The second layer's payload: the layer on the rectified rows, flattened to 2496 × 32. -/
theorem pay3_eq (v36 v37 : FVec Ideal S64x39x32 .f32) (wq wk wv wr : Vec Ideal S32x32 .f32) :
    k0_pay3 (F := Ideal) v36 v37 wq wk wv wr
      = shapeCast S2496x32 (layer32 (rows32 v36 v37) wq wk wv wr) shapeCasts_S64x39x32_S2496x32 := rfl

/-- The third layer's payload: the layer on the 2496 rows, each example's 39 × 32 result flattened to 1248. -/
theorem pay4_eq (v78 : FVec Ideal S2496x32 .bf16) (wq wk wv wr : Vec Ideal S32x32 .f32) :
    k0_pay4 (F := Ideal) v78 wq wk wv wr
      = shapeCast S64x1248 (layer32 v78 wq wk wv wr) shapeCasts_S64x39x32_S64x1248 := rfl

/-- The second layer, from the first layer's value before its rectifier: the result is laid out 2496 × 32, and row
    `p * 39 + f` is row `f` of example `p`. -/
theorem pay3_apply (v36 : FVec Ideal S64x39x32 .f32) (wq wk wv wr : Vec Ideal S32x32 .f32) (p : Fin 64) (f : Fin 39) (c : Fin 32) :
    k0_pay3 (F := Ideal) v36 (k0_pay2 (F := Ideal)) wq wk wv wr (ix2 (rowOf p f) c)
      = attn (fun f d => relu (v36 (ix3 p f d))) (fun d c => wq (ix2 d c)) (fun d c => wk (ix2 d c))
          (fun d c => wv (ix2 d c)) (fun d c => wr (ix2 d c)) f c := by
  rw [pay3_eq]
  refine (shapeCast_apply _ _ (ix2 (rowOf p f) c) (ix3 p f c) ?_).trans ?_
  · rw [Shape.rowMajor_val_three, Shape.rowMajor_val_two]
    show (p.val * 39 + f.val) * 32 + c.val = (p.val * 39 + f.val) * 32 + c.val
    rfl
  rw [layer32_apply]
  have e : (fun (f : Fin 39) (d : Fin 32) => rows32 v36 (k0_pay2 (F := Ideal)) (ix2 (rowOf p f) d))
      = fun f d => relu (v36 (ix3 p f d)) := funext fun f => funext fun d => rows32_apply v36 p f d
  exact congrArg (fun e => attn e (fun d c => wq (ix2 d c)) (fun d c => wk (ix2 d c))
    (fun d c => wv (ix2 d c)) (fun d c => wr (ix2 d c)) f c) e

/-- The third layer, from the second layer's 2496 × 32 result: the result is laid out 64 × 1248, and column
    `f * 32 + c` of row `p` is entry `(f, c)` of example `p`. -/
theorem pay4_apply (v78 : FVec Ideal S2496x32 .bf16) (wq wk wv wr : Vec Ideal S32x32 .f32) (p : Fin 64) (f : Fin 39) (c : Fin 32) :
    k0_pay4 (F := Ideal) v78 wq wk wv wr (ix2 p (colOf f c))
      = attn (fun f d => v78 (ix2 (rowOf p f) d)) (fun d c => wq (ix2 d c)) (fun d c => wk (ix2 d c))
          (fun d c => wv (ix2 d c)) (fun d c => wr (ix2 d c)) f c := by
  rw [pay4_eq]
  refine (shapeCast_apply _ _ (ix2 p (colOf f c)) (ix3 p f c) ?_).trans ?_
  · rw [Shape.rowMajor_val_three, Shape.rowMajor_val_two]
    show (p.val * 39 + f.val) * 32 + c.val = p.val * 1248 + (f.val * 32 + c.val)
    omega
  exact layer32_apply v78 wq wk wv wr p f c

end Cert.AutoInt.K

end
-- ==== Proof.KHead.lean ====
/-
  The kernel's head on one tile, read at an entry.

  Row `p` of the tile's 64 × 1248 array goes through four plain products with the dense layers' weight matrices, each
  followed by the bias (a 1 × k row repeated down the 64 rows), the first three rectified; the logistic function of
  the last product is the tile's 64 × 1 result.
-/
import proofs.«130033_j76630806495343_1_alg».proof.Proof.Gen.KernelIdeal.Skeleton
import proofs.«130033_j76630806495343_1_alg».proof.Proof.Spec
import proofs.«130033_j76630806495343_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.AutoInt.K

open Cert.KernelIdeal Cert.KernelIdeal.Gen Idealize.ShloMosaic Idealize.ShloMosaic.ValueIdx Cert.AutoInt

/-- The first dense layer's weights after their change of format: unchanged. -/
theorem pay5_apply (w : Vec Ideal S1248x128 .f32) (i : S1248x128.Idx) : k0_pay5 (F := Ideal) w i = w i := rfl

/-- A dense layer before its activation, at entry `(p, j)`: the plain product of the `M × K` input with the `K × N`
    weights into the zero accumulator, plus the `1 × N` bias repeated down the `M` rows. Row `p` of the input is
    given as a function `h` of the column. -/
theorem denseLayer_apply {M K N : Nat} {φ₁ φ₂ : FTy} (x : FVec Ideal ⟨2, ![M, K]⟩ φ₁) (w : FVec Ideal ⟨2, ![K, N]⟩ φ₂)
    (b : FVec Ideal ⟨2, ![1, N]⟩ .f32) (hs : (⟨2, ![1, N]⟩ : Shape).ShapeCasts ⟨2, ![1, N]⟩)
    (hb : (⟨2, ![1, N]⟩ : Shape).Broadcasts ⟨2, ![M, N]⟩) (p : Fin M) (j : Fin N)
    (h : Fin K → EReal) (hx : ∀ i, x (ix2 p i) = h i) :
    addf (F := Ideal) (FloatOps.matmul (DotDims.plain M K N) none x w (constant ⟨2, ![M, N]⟩ .f32 0x00000000#32))
        (broadcastTo ⟨2, ![M, N]⟩ (shapeCast ⟨2, ![1, N]⟩ b hs) hb) (ix2 p j)
      = dense h (fun i j => w (ix2 i j)) (fun j => b (ix2 0 j)) j := by
  show FloatOps.matmul (DotDims.plain M K N) none x w (constant ⟨2, ![M, N]⟩ .f32 0x00000000#32) (ix2 p j)
        + broadcastTo ⟨2, ![M, N]⟩ (shapeCast ⟨2, ![1, N]⟩ b hs) hb (ix2 p j) = _
  rw [Cert.Lib.PlainDot.matmul_zero_apply, broadcastTo_1b_ab_apply, shapeCast_self]
  unfold dense
  refine congrArg (· + b (ix2 0 j)) (Finset.sum_congr rfl fun k _ => ?_)
  rw [hx]

/-- A rectified dense layer, at entry `(p, j)`: the maximum of the dense layer with the zero splat; the change of
    format afterwards keeps the value. -/
theorem reluLayer_apply {M K N : Nat} {φ₁ φ₂ : FTy} (x : FVec Ideal ⟨2, ![M, K]⟩ φ₁) (w : FVec Ideal ⟨2, ![K, N]⟩ φ₂)
    (b : FVec Ideal ⟨2, ![1, N]⟩ .f32) (hs : (⟨2, ![1, N]⟩ : Shape).ShapeCasts ⟨2, ![1, N]⟩)
    (hb : (⟨2, ![1, N]⟩ : Shape).Broadcasts ⟨2, ![M, N]⟩) (ht : FTy.bits .bf16 < FTy.bits .f32) (p : Fin M) (j : Fin N)
    (h : Fin K → EReal) (hx : ∀ i, x (ix2 p i) = h i) :
    truncf (F := Ideal) .bf16
        (maximumf
          (addf (FloatOps.matmul (DotDims.plain M K N) none x w (constant ⟨2, ![M, N]⟩ .f32 0x00000000#32))
            (broadcastTo ⟨2, ![M, N]⟩ (shapeCast ⟨2, ![1, N]⟩ b hs) hb))
          (broadcast ⟨2, ![M, N]⟩ (FloatOps.ofBits .f32 0x00000000#32))) ht (ix2 p j)
      = relu (dense h (fun i j => w (ix2 i j)) (fun j => b (ix2 0 j)) j) :=
  congrArg (fun t => max t zero32) (denseLayer_apply x w b hs hb p j h hx)

/-- Entry `(p, 0)` of the tile's result is the head of row `p`. -/
theorem pay6_apply (v116 : FVec Ideal S64x1248 .bf16) (v118 : FVec Ideal S1248x128 .bf16) (b1 : Vec Ideal S1x128 .f32)
    (w2 : Vec Ideal S128x64 .f32) (b2 : Vec Ideal S1x64 .f32) (w3 : Vec Ideal S64x32 .f32) (b3 : Vec Ideal S1x32 .f32)
    (w4 : Vec Ideal S32x1 .f32) (b4 : Vec Ideal S1x1 .f32) (p : Fin 64) :
    k0_pay6 (F := Ideal) v116 v118 b1 w2 b2 w3 b3 w4 b4 (ix2 p 0)
      = head (fun i => v116 (ix2 p i)) (fun i j => v118 (ix2 i j)) (fun j => b1 (ix2 0 j))
          (fun i j => w2 (ix2 i j)) (fun j => b2 (ix2 0 j)) (fun i j => w3 (ix2 i j)) (fun j => b3 (ix2 0 j))
          (fun i j => w4 (ix2 i j)) (fun j => b4 (ix2 0 j)) := by
  unfold k0_pay6 head
  refine congrArg Ideal.logistic ?_
  refine denseLayer_apply (M := 64) (K := 32) (N := 1) _ _ _ _ _ p 0 _ fun i3 => ?_
  refine reluLayer_apply (M := 64) (K := 64) (N := 32) _ _ _ _ _ _ p i3 _ fun i2 => ?_
  refine reluLayer_apply (M := 64) (K := 128) (N := 64) _ _ _ _ _ _ p i2 _ fun i1 => ?_
  exact reluLayer_apply (M := 64) (K := 1248) (N := 128) _ _ _ _ _ _ p i1 _ fun _ => rfl

end Cert.AutoInt.K

end
-- ==== Proof.KTile.lean ====
/-
  The kernel's whole body on one tile: entry `(p, 0)` of the tile's 64 × 1 result is the network of example `p`.

  The body is the composition of its stages: the first layer before its rectifier, the second layer (which starts with
  that rectifier), the third layer, the head. Each stage reads, of its input, the rows of example `p` only, so the
  stages compose example by example. Row `p * 39 + f` of a 2496-row array is row `f` of example `p`, and column
  `f * 32 + c` of the 1248 flattened numbers is entry `(f, c)`; every number below 1248 is `(i / 32) * 32 + i % 32`.
-/
import proofs.«130033_j76630806495343_1_alg».proof.Proof.KLayers
import proofs.«130033_j76630806495343_1_alg».proof.Proof.KHead

noncomputable section

namespace Cert.AutoInt.K

open Cert.KernelIdeal Cert.KernelIdeal.Gen Idealize.ShloMosaic Idealize.ShloMosaic.ValueIdx Cert.AutoInt

/-- The weights a tile's body loads, as functions of their coordinates: the matrices entry by entry, each bias from
    its one row. -/
def paramsOf (x1 x2 x3 x4 : Vec Ideal S16x32 .f32) (x5 x6 x7 x8 x9 x10 x11 x12 : Vec Ideal S32x32 .f32)
    (x13 : Vec Ideal S1248x128 .f32) (x14 : Vec Ideal S1x128 .f32) (x15 : Vec Ideal S128x64 .f32) (x16 : Vec Ideal S1x64 .f32)
    (x17 : Vec Ideal S64x32 .f32) (x18 : Vec Ideal S1x32 .f32) (x19 : Vec Ideal S32x1 .f32) (x20 : Vec Ideal S1x1 .f32) : Params where
  wq0 := fun d c => x1 (ix2 d c)
  wk0 := fun d c => x2 (ix2 d c)
  wv0 := fun d c => x3 (ix2 d c)
  wr0 := fun d c => x4 (ix2 d c)
  wq1 := fun d c => x5 (ix2 d c)
  wk1 := fun d c => x6 (ix2 d c)
  wv1 := fun d c => x7 (ix2 d c)
  wr1 := fun d c => x8 (ix2 d c)
  wq2 := fun d c => x9 (ix2 d c)
  wk2 := fun d c => x10 (ix2 d c)
  wv2 := fun d c => x11 (ix2 d c)
  wr2 := fun d c => x12 (ix2 d c)
  w1 := fun i j => x13 (ix2 i j)
  b1 := fun j => x14 (ix2 0 j)
  w2 := fun i j => x15 (ix2 i j)
  b2 := fun j => x16 (ix2 0 j)
  w3 := fun i j => x17 (ix2 i j)
  b3 := fun j => x18 (ix2 0 j)
  w4 := fun i j => x19 (ix2 i j)
  b4 := fun j => x20 (ix2 0 j)

/-- Every flattened position is column `c` of row `f` for `f = i / 32`, `c = i % 32`. -/
theorem eq_colOf (i : Fin 1248) :
    i = colOf ⟨i.val / 32, by have := i.isLt; omega⟩ ⟨i.val % 32, Nat.mod_lt _ (by decide)⟩ :=
  Fin.ext (by show i.val = i.val / 32 * 32 + i.val % 32; omega)

/-- The body's result at `(p, 0)`, from the tile's 64 × 39 × 16 rows and the loaded weights. -/
theorem tile_apply (x0 : Vec Ideal S64x39x16 .bf16) (x1 x2 x3 x4 : Vec Ideal S16x32 .f32)
    (x5 x6 x7 x8 x9 x10 x11 x12 : Vec Ideal S32x32 .f32)
    (x13 : Vec Ideal S1248x128 .f32) (x14 : Vec Ideal S1x128 .f32) (x15 : Vec Ideal S128x64 .f32) (x16 : Vec Ideal S1x64 .f32)
    (x17 : Vec Ideal S64x32 .f32) (x18 : Vec Ideal S1x32 .f32) (x19 : Vec Ideal S32x1 .f32) (x20 : Vec Ideal S1x1 .f32) (p : Fin 64) :
    k0_pay6 (F := Ideal)
        (k0_pay4 (k0_pay3 (k0_pay1 x0 x1 x2 x3 x4) (k0_pay2 (F := Ideal)) x5 x6 x7 x8) x9 x10 x11 x12)
        (k0_pay5 x13) x14 x15 x16 x17 x18 x19 x20 (ix2 p 0)
      = net (paramsOf x1 x2 x3 x4 x5 x6 x7 x8 x9 x10 x11 x12 x13 x14 x15 x16 x17 x18 x19 x20) (fun f d => x0 (ix3 p f d)) := by
  rw [pay6_apply]
  -- the first layer, rectified, is what the second layer starts from
  have h1 : (fun (f : Fin 39) (d : Fin 32) => relu (k0_pay1 (F := Ideal) x0 x1 x2 x3 x4 (ix3 p f d)))
      = attn (fun f d => x0 (ix3 p f d)) (fun d c => x1 (ix2 d c)) (fun d c => x2 (ix2 d c)) (fun d c => x3 (ix2 d c))
          (fun d c => x4 (ix2 d c)) := by
    funext f d
    rw [pay1_apply]
    rfl
  -- the second layer's rows of example `p`
  have h2 : (fun (f : Fin 39) (d : Fin 32) =>
        k0_pay3 (F := Ideal) (k0_pay1 x0 x1 x2 x3 x4) (k0_pay2 (F := Ideal)) x5 x6 x7 x8 (ix2 (rowOf p f) d))
      = attn (attn (fun f d => x0 (ix3 p f d)) (fun d c => x1 (ix2 d c)) (fun d c => x2 (ix2 d c)) (fun d c => x3 (ix2 d c))
          (fun d c => x4 (ix2 d c))) (fun d c => x5 (ix2 d c)) (fun d c => x6 (ix2 d c)) (fun d c => x7 (ix2 d c))
          (fun d c => x8 (ix2 d c)) := by
    funext f d
    rw [pay3_apply, h1]
  -- the third layer's flattened numbers of example `p`
  have h3 : (fun i : Fin 1248 =>
        k0_pay4 (F := Ideal) (k0_pay3 (k0_pay1 x0 x1 x2 x3 x4) (k0_pay2 (F := Ideal)) x5 x6 x7 x8) x9 x10 x11 x12 (ix2 p i))
      = flat (layers (paramsOf x1 x2 x3 x4 x5 x6 x7 x8 x9 x10 x11 x12 x13 x14 x15 x16 x17 x18 x19 x20)
          (fun f d => x0 (ix3 p f d))) := by
    funext i
    conv_lhs => rw [eq_colOf i]
    rw [pay4_apply, h2]
    rfl
  have h5 : (fun (i : Fin 1248) (j : Fin 128) => k0_pay5 (F := Ideal) x13 (ix2 i j)) = fun i j => x13 (ix2 i j) := by
    funext i j
    rw [pay5_apply]
  rw [h3, h5]
  rfl

end Cert.AutoInt.K

end
-- ==== Proof.KWBlocks.lean ====
/-
  The weight windows of the pallas_call. Each of the twenty weight operands is staged whole: its index map is
  constantly zero and its block is the whole array, so at every grid point the window's block IS the array as the
  region finds it. One decided fact about the index map and one lemma per window.
-/
import proofs.«130033_j76630806495343_1_alg».proof.Proof.Gen.KernelIdeal.Frame
import Idealize.ShloMosaic.PureOps.Ideal

noncomputable section

namespace Cert.AutoInt.KV

open Cert.KernelIdeal Cert.KernelIdeal.Gen Idealize.ShloMosaic Idealize.ShloMosaic.TcCoe Idealize.SL.Sem

variable (m : (ℓ : Loc nD τ sig) → Buf (Elt Ideal) ℓ)

/-- Window 1's index map is zero on both axes at every grid point. -/
theorem idx_w1 : ∀ t : Fin cfg0.N, win0_1.index t (0 : Fin 2) = 0 ∧ win0_1.index t (1 : Fin 2) = 0 :=
  (by decide +kernel : ∀ t : Fin grid0.N, _)

/-- Window 1's block at any grid point is its whole array. -/
theorem iblk1_eq (c : Dev nD) (t : Fin cfg0.N) : (iblk m c 1 t : Vec Ideal S16x32 .f32) = V m c main_arg2 := by
  funext y
  show V m c main_arg2 (((cfg0.win 1).blk t).view.emb y) = V m c main_arg2 y
  refine congrArg (V m c main_arg2) (funext fun a => Fin.ext ?_)
  obtain ⟨e0, e1⟩ := idx_w1 t
  match a with
  | ⟨0, _⟩ => show win0_1.index t (0 : Fin 2) * 16 + 1 * (y 0).val = (y 0).val; omega
  | ⟨1, _⟩ => show win0_1.index t (1 : Fin 2) * 32 + 1 * (y 1).val = (y 1).val; omega

/-- Window 2's index map is zero on both axes at every grid point. -/
theorem idx_w2 : ∀ t : Fin cfg0.N, win0_2.index t (0 : Fin 2) = 0 ∧ win0_2.index t (1 : Fin 2) = 0 :=
  (by decide +kernel : ∀ t : Fin grid0.N, _)

/-- Window 2's block at any grid point is its whole array. -/
theorem iblk2_eq (c : Dev nD) (t : Fin cfg0.N) : (iblk m c 2 t : Vec Ideal S16x32 .f32) = V m c main_arg3 := by
  funext y
  show V m c main_arg3 (((cfg0.win 2).blk t).view.emb y) = V m c main_arg3 y
  refine congrArg (V m c main_arg3) (funext fun a => Fin.ext ?_)
  obtain ⟨e0, e1⟩ := idx_w2 t
  match a with
  | ⟨0, _⟩ => show win0_2.index t (0 : Fin 2) * 16 + 1 * (y 0).val = (y 0).val; omega
  | ⟨1, _⟩ => show win0_2.index t (1 : Fin 2) * 32 + 1 * (y 1).val = (y 1).val; omega

/-- Window 3's index map is zero on both axes at every grid point. -/
theorem idx_w3 : ∀ t : Fin cfg0.N, win0_3.index t (0 : Fin 2) = 0 ∧ win0_3.index t (1 : Fin 2) = 0 :=
  (by decide +kernel : ∀ t : Fin grid0.N, _)

/-- Window 3's block at any grid point is its whole array. -/
theorem iblk3_eq (c : Dev nD) (t : Fin cfg0.N) : (iblk m c 3 t : Vec Ideal S16x32 .f32) = V m c main_arg4 := by
  funext y
  show V m c main_arg4 (((cfg0.win 3).blk t).view.emb y) = V m c main_arg4 y
  refine congrArg (V m c main_arg4) (funext fun a => Fin.ext ?_)
  obtain ⟨e0, e1⟩ := idx_w3 t
  match a with
  | ⟨0, _⟩ => show win0_3.index t (0 : Fin 2) * 16 + 1 * (y 0).val = (y 0).val; omega
  | ⟨1, _⟩ => show win0_3.index t (1 : Fin 2) * 32 + 1 * (y 1).val = (y 1).val; omega

/-- Window 4's index map is zero on both axes at every grid point. -/
theorem idx_w4 : ∀ t : Fin cfg0.N, win0_4.index t (0 : Fin 2) = 0 ∧ win0_4.index t (1 : Fin 2) = 0 :=
  (by decide +kernel : ∀ t : Fin grid0.N, _)

/-- Window 4's block at any grid point is its whole array. -/
theorem iblk4_eq (c : Dev nD) (t : Fin cfg0.N) : (iblk m c 4 t : Vec Ideal S16x32 .f32) = V m c main_arg5 := by
  funext y
  show V m c main_arg5 (((cfg0.win 4).blk t).view.emb y) = V m c main_arg5 y
  refine congrArg (V m c main_arg5) (funext fun a => Fin.ext ?_)
  obtain ⟨e0, e1⟩ := idx_w4 t
  match a with
  | ⟨0, _⟩ => show win0_4.index t (0 : Fin 2) * 16 + 1 * (y 0).val = (y 0).val; omega
  | ⟨1, _⟩ => show win0_4.index t (1 : Fin 2) * 32 + 1 * (y 1).val = (y 1).val; omega

/-- Window 5's index map is zero on both axes at every grid point. -/
theorem idx_w5 : ∀ t : Fin cfg0.N, win0_5.index t (0 : Fin 2) = 0 ∧ win0_5.index t (1 : Fin 2) = 0 :=
  (by decide +kernel : ∀ t : Fin grid0.N, _)

/-- Window 5's block at any grid point is its whole array. -/
theorem iblk5_eq (c : Dev nD) (t : Fin cfg0.N) : (iblk m c 5 t : Vec Ideal S32x32 .f32) = V m c main_arg6 := by
  funext y
  show V m c main_arg6 (((cfg0.win 5).blk t).view.emb y) = V m c main_arg6 y
  refine congrArg (V m c main_arg6) (funext fun a => Fin.ext ?_)
  obtain ⟨e0, e1⟩ := idx_w5 t
  match a with
  | ⟨0, _⟩ => show win0_5.index t (0 : Fin 2) * 32 + 1 * (y 0).val = (y 0).val; omega
  | ⟨1, _⟩ => show win0_5.index t (1 : Fin 2) * 32 + 1 * (y 1).val = (y 1).val; omega

/-- Window 6's index map is zero on both axes at every grid point. -/
theorem idx_w6 : ∀ t : Fin cfg0.N, win0_6.index t (0 : Fin 2) = 0 ∧ win0_6.index t (1 : Fin 2) = 0 :=
  (by decide +kernel : ∀ t : Fin grid0.N, _)

/-- Window 6's block at any grid point is its whole array. -/
theorem iblk6_eq (c : Dev nD) (t : Fin cfg0.N) : (iblk m c 6 t : Vec Ideal S32x32 .f32) = V m c main_arg7 := by
  funext y
  show V m c main_arg7 (((cfg0.win 6).blk t).view.emb y) = V m c main_arg7 y
  refine congrArg (V m c main_arg7) (funext fun a => Fin.ext ?_)
  obtain ⟨e0, e1⟩ := idx_w6 t
  match a with
  | ⟨0, _⟩ => show win0_6.index t (0 : Fin 2) * 32 + 1 * (y 0).val = (y 0).val; omega
  | ⟨1, _⟩ => show win0_6.index t (1 : Fin 2) * 32 + 1 * (y 1).val = (y 1).val; omega

/-- Window 7's index map is zero on both axes at every grid point. -/
theorem idx_w7 : ∀ t : Fin cfg0.N, win0_7.index t (0 : Fin 2) = 0 ∧ win0_7.index t (1 : Fin 2) = 0 :=
  (by decide +kernel : ∀ t : Fin grid0.N, _)

/-- Window 7's block at any grid point is its whole array. -/
theorem iblk7_eq (c : Dev nD) (t : Fin cfg0.N) : (iblk m c 7 t : Vec Ideal S32x32 .f32) = V m c main_arg8 := by
  funext y
  show V m c main_arg8 (((cfg0.win 7).blk t).view.emb y) = V m c main_arg8 y
  refine congrArg (V m c main_arg8) (funext fun a => Fin.ext ?_)
  obtain ⟨e0, e1⟩ := idx_w7 t
  match a with
  | ⟨0, _⟩ => show win0_7.index t (0 : Fin 2) * 32 + 1 * (y 0).val = (y 0).val; omega
  | ⟨1, _⟩ => show win0_7.index t (1 : Fin 2) * 32 + 1 * (y 1).val = (y 1).val; omega

/-- Window 8's index map is zero on both axes at every grid point. -/
theorem idx_w8 : ∀ t : Fin cfg0.N, win0_8.index t (0 : Fin 2) = 0 ∧ win0_8.index t (1 : Fin 2) = 0 :=
  (by decide +kernel : ∀ t : Fin grid0.N, _)

/-- Window 8's block at any grid point is its whole array. -/
theorem iblk8_eq (c : Dev nD) (t : Fin cfg0.N) : (iblk m c 8 t : Vec Ideal S32x32 .f32) = V m c main_arg9 := by
  funext y
  show V m c main_arg9 (((cfg0.win 8).blk t).view.emb y) = V m c main_arg9 y
  refine congrArg (V m c main_arg9) (funext fun a => Fin.ext ?_)
  obtain ⟨e0, e1⟩ := idx_w8 t
  match a with
  | ⟨0, _⟩ => show win0_8.index t (0 : Fin 2) * 32 + 1 * (y 0).val = (y 0).val; omega
  | ⟨1, _⟩ => show win0_8.index t (1 : Fin 2) * 32 + 1 * (y 1).val = (y 1).val; omega

/-- Window 9's index map is zero on both axes at every grid point. -/
theorem idx_w9 : ∀ t : Fin cfg0.N, win0_9.index t (0 : Fin 2) = 0 ∧ win0_9.index t (1 : Fin 2) = 0 :=
  (by decide +kernel : ∀ t : Fin grid0.N, _)

/-- Window 9's block at any grid point is its whole array. -/
theorem iblk9_eq (c : Dev nD) (t : Fin cfg0.N) : (iblk m c 9 t : Vec Ideal S32x32 .f32) = V m c main_arg10 := by
  funext y
  show V m c main_arg10 (((cfg0.win 9).blk t).view.emb y) = V m c main_arg10 y
  refine congrArg (V m c main_arg10) (funext fun a => Fin.ext ?_)
  obtain ⟨e0, e1⟩ := idx_w9 t
  match a with
  | ⟨0, _⟩ => show win0_9.index t (0 : Fin 2) * 32 + 1 * (y 0).val = (y 0).val; omega
  | ⟨1, _⟩ => show win0_9.index t (1 : Fin 2) * 32 + 1 * (y 1).val = (y 1).val; omega

/-- Window 10's index map is zero on both axes at every grid point. -/
theorem idx_w10 : ∀ t : Fin cfg0.N, win0_10.index t (0 : Fin 2) = 0 ∧ win0_10.index t (1 : Fin 2) = 0 :=
  (by decide +kernel : ∀ t : Fin grid0.N, _)

/-- Window 10's block at any grid point is its whole array. -/
theorem iblk10_eq (c : Dev nD) (t : Fin cfg0.N) : (iblk m c 10 t : Vec Ideal S32x32 .f32) = V m c main_arg11 := by
  funext y
  show V m c main_arg11 (((cfg0.win 10).blk t).view.emb y) = V m c main_arg11 y
  refine congrArg (V m c main_arg11) (funext fun a => Fin.ext ?_)
  obtain ⟨e0, e1⟩ := idx_w10 t
  match a with
  | ⟨0, _⟩ => show win0_10.index t (0 : Fin 2) * 32 + 1 * (y 0).val = (y 0).val; omega
  | ⟨1, _⟩ => show win0_10.index t (1 : Fin 2) * 32 + 1 * (y 1).val = (y 1).val; omega

/-- Window 11's index map is zero on both axes at every grid point. -/
theorem idx_w11 : ∀ t : Fin cfg0.N, win0_11.index t (0 : Fin 2) = 0 ∧ win0_11.index t (1 : Fin 2) = 0 :=
  (by decide +kernel : ∀ t : Fin grid0.N, _)

/-- Window 11's block at any grid point is its whole array. -/
theorem iblk11_eq (c : Dev nD) (t : Fin cfg0.N) : (iblk m c 11 t : Vec Ideal S32x32 .f32) = V m c main_arg12 := by
  funext y
  show V m c main_arg12 (((cfg0.win 11).blk t).view.emb y) = V m c main_arg12 y
  refine congrArg (V m c main_arg12) (funext fun a => Fin.ext ?_)
  obtain ⟨e0, e1⟩ := idx_w11 t
  match a with
  | ⟨0, _⟩ => show win0_11.index t (0 : Fin 2) * 32 + 1 * (y 0).val = (y 0).val; omega
  | ⟨1, _⟩ => show win0_11.index t (1 : Fin 2) * 32 + 1 * (y 1).val = (y 1).val; omega

/-- Window 12's index map is zero on both axes at every grid point. -/
theorem idx_w12 : ∀ t : Fin cfg0.N, win0_12.index t (0 : Fin 2) = 0 ∧ win0_12.index t (1 : Fin 2) = 0 :=
  (by decide +kernel : ∀ t : Fin grid0.N, _)

/-- Window 12's block at any grid point is its whole array. -/
theorem iblk12_eq (c : Dev nD) (t : Fin cfg0.N) : (iblk m c 12 t : Vec Ideal S32x32 .f32) = V m c main_arg13 := by
  funext y
  show V m c main_arg13 (((cfg0.win 12).blk t).view.emb y) = V m c main_arg13 y
  refine congrArg (V m c main_arg13) (funext fun a => Fin.ext ?_)
  obtain ⟨e0, e1⟩ := idx_w12 t
  match a with
  | ⟨0, _⟩ => show win0_12.index t (0 : Fin 2) * 32 + 1 * (y 0).val = (y 0).val; omega
  | ⟨1, _⟩ => show win0_12.index t (1 : Fin 2) * 32 + 1 * (y 1).val = (y 1).val; omega

/-- Window 13's index map is zero on both axes at every grid point. -/
theorem idx_w13 : ∀ t : Fin cfg0.N, win0_13.index t (0 : Fin 2) = 0 ∧ win0_13.index t (1 : Fin 2) = 0 :=
  (by decide +kernel : ∀ t : Fin grid0.N, _)

/-- Window 13's block at any grid point is its whole array. -/
theorem iblk13_eq (c : Dev nD) (t : Fin cfg0.N) : (iblk m c 13 t : Vec Ideal S1248x128 .f32) = V m c main_arg14 := by
  funext y
  show V m c main_arg14 (((cfg0.win 13).blk t).view.emb y) = V m c main_arg14 y
  refine congrArg (V m c main_arg14) (funext fun a => Fin.ext ?_)
  obtain ⟨e0, e1⟩ := idx_w13 t
  match a with
  | ⟨0, _⟩ => show win0_13.index t (0 : Fin 2) * 1248 + 1 * (y 0).val = (y 0).val; omega
  | ⟨1, _⟩ => show win0_13.index t (1 : Fin 2) * 128 + 1 * (y 1).val = (y 1).val; omega

/-- Window 14's index map is zero on both axes at every grid point. -/
theorem idx_w14 : ∀ t : Fin cfg0.N, win0_14.index t (0 : Fin 2) = 0 ∧ win0_14.index t (1 : Fin 2) = 0 :=
  (by decide +kernel : ∀ t : Fin grid0.N, _)

/-- Window 14's block at any grid point is its whole array. -/
theorem iblk14_eq (c : Dev nD) (t : Fin cfg0.N) : (iblk m c 14 t : Vec Ideal S1x128 .f32) = V m c main_v14 := by
  funext y
  show V m c main_v14 (((cfg0.win 14).blk t).view.emb y) = V m c main_v14 y
  refine congrArg (V m c main_v14) (funext fun a => Fin.ext ?_)
  obtain ⟨e0, e1⟩ := idx_w14 t
  match a with
  | ⟨0, _⟩ => show win0_14.index t (0 : Fin 2) * 1 + 1 * (y 0).val = (y 0).val; omega
  | ⟨1, _⟩ => show win0_14.index t (1 : Fin 2) * 128 + 1 * (y 1).val = (y 1).val; omega

/-- Window 15's index map is zero on both axes at every grid point. -/
theorem idx_w15 : ∀ t : Fin cfg0.N, win0_15.index t (0 : Fin 2) = 0 ∧ win0_15.index t (1 : Fin 2) = 0 :=
  (by decide +kernel : ∀ t : Fin grid0.N, _)

/-- Window 15's block at any grid point is its whole array. -/
theorem iblk15_eq (c : Dev nD) (t : Fin cfg0.N) : (iblk m c 15 t : Vec Ideal S128x64 .f32) = V m c main_arg16 := by
  funext y
  show V m c main_arg16 (((cfg0.win 15).blk t).view.emb y) = V m c main_arg16 y
  refine congrArg (V m c main_arg16) (funext fun a => Fin.ext ?_)
  obtain ⟨e0, e1⟩ := idx_w15 t
  match a with
  | ⟨0, _⟩ => show win0_15.index t (0 : Fin 2) * 128 + 1 * (y 0).val = (y 0).val; omega
  | ⟨1, _⟩ => show win0_15.index t (1 : Fin 2) * 64 + 1 * (y 1).val = (y 1).val; omega

/-- Window 16's index map is zero on both axes at every grid point. -/
theorem idx_w16 : ∀ t : Fin cfg0.N, win0_16.index t (0 : Fin 2) = 0 ∧ win0_16.index t (1 : Fin 2) = 0 :=
  (by decide +kernel : ∀ t : Fin grid0.N, _)

/-- Window 16's block at any grid point is its whole array. -/
theorem iblk16_eq (c : Dev nD) (t : Fin cfg0.N) : (iblk m c 16 t : Vec Ideal S1x64 .f32) = V m c main_v15 := by
  funext y
  show V m c main_v15 (((cfg0.win 16).blk t).view.emb y) = V m c main_v15 y
  refine congrArg (V m c main_v15) (funext fun a => Fin.ext ?_)
  obtain ⟨e0, e1⟩ := idx_w16 t
  match a with
  | ⟨0, _⟩ => show win0_16.index t (0 : Fin 2) * 1 + 1 * (y 0).val = (y 0).val; omega
  | ⟨1, _⟩ => show win0_16.index t (1 : Fin 2) * 64 + 1 * (y 1).val = (y 1).val; omega

/-- Window 17's index map is zero on both axes at every grid point. -/
theorem idx_w17 : ∀ t : Fin cfg0.N, win0_17.index t (0 : Fin 2) = 0 ∧ win0_17.index t (1 : Fin 2) = 0 :=
  (by decide +kernel : ∀ t : Fin grid0.N, _)

/-- Window 17's block at any grid point is its whole array. -/
theorem iblk17_eq (c : Dev nD) (t : Fin cfg0.N) : (iblk m c 17 t : Vec Ideal S64x32 .f32) = V m c main_arg18 := by
  funext y
  show V m c main_arg18 (((cfg0.win 17).blk t).view.emb y) = V m c main_arg18 y
  refine congrArg (V m c main_arg18) (funext fun a => Fin.ext ?_)
  obtain ⟨e0, e1⟩ := idx_w17 t
  match a with
  | ⟨0, _⟩ => show win0_17.index t (0 : Fin 2) * 64 + 1 * (y 0).val = (y 0).val; omega
  | ⟨1, _⟩ => show win0_17.index t (1 : Fin 2) * 32 + 1 * (y 1).val = (y 1).val; omega

/-- Window 18's index map is zero on both axes at every grid point. -/
theorem idx_w18 : ∀ t : Fin cfg0.N, win0_18.index t (0 : Fin 2) = 0 ∧ win0_18.index t (1 : Fin 2) = 0 :=
  (by decide +kernel : ∀ t : Fin grid0.N, _)

/-- Window 18's block at any grid point is its whole array. -/
theorem iblk18_eq (c : Dev nD) (t : Fin cfg0.N) : (iblk m c 18 t : Vec Ideal S1x32 .f32) = V m c main_v16 := by
  funext y
  show V m c main_v16 (((cfg0.win 18).blk t).view.emb y) = V m c main_v16 y
  refine congrArg (V m c main_v16) (funext fun a => Fin.ext ?_)
  obtain ⟨e0, e1⟩ := idx_w18 t
  match a with
  | ⟨0, _⟩ => show win0_18.index t (0 : Fin 2) * 1 + 1 * (y 0).val = (y 0).val; omega
  | ⟨1, _⟩ => show win0_18.index t (1 : Fin 2) * 32 + 1 * (y 1).val = (y 1).val; omega

/-- Window 19's index map is zero on both axes at every grid point. -/
theorem idx_w19 : ∀ t : Fin cfg0.N, win0_19.index t (0 : Fin 2) = 0 ∧ win0_19.index t (1 : Fin 2) = 0 :=
  (by decide +kernel : ∀ t : Fin grid0.N, _)

/-- Window 19's block at any grid point is its whole array. -/
theorem iblk19_eq (c : Dev nD) (t : Fin cfg0.N) : (iblk m c 19 t : Vec Ideal S32x1 .f32) = V m c main_arg20 := by
  funext y
  show V m c main_arg20 (((cfg0.win 19).blk t).view.emb y) = V m c main_arg20 y
  refine congrArg (V m c main_arg20) (funext fun a => Fin.ext ?_)
  obtain ⟨e0, e1⟩ := idx_w19 t
  match a with
  | ⟨0, _⟩ => show win0_19.index t (0 : Fin 2) * 32 + 1 * (y 0).val = (y 0).val; omega
  | ⟨1, _⟩ => show win0_19.index t (1 : Fin 2) * 1 + 1 * (y 1).val = (y 1).val; omega

/-- Window 20's index map is zero on both axes at every grid point. -/
theorem idx_w20 : ∀ t : Fin cfg0.N, win0_20.index t (0 : Fin 2) = 0 ∧ win0_20.index t (1 : Fin 2) = 0 :=
  (by decide +kernel : ∀ t : Fin grid0.N, _)

/-- Window 20's block at any grid point is its whole array. -/
theorem iblk20_eq (c : Dev nD) (t : Fin cfg0.N) : (iblk m c 20 t : Vec Ideal S1x1 .f32) = V m c main_v17 := by
  funext y
  show V m c main_v17 (((cfg0.win 20).blk t).view.emb y) = V m c main_v17 y
  refine congrArg (V m c main_v17) (funext fun a => Fin.ext ?_)
  obtain ⟨e0, e1⟩ := idx_w20 t
  match a with
  | ⟨0, _⟩ => show win0_20.index t (0 : Fin 2) * 1 + 1 * (y 0).val = (y 0).val; omega
  | ⟨1, _⟩ => show win0_20.index t (1 : Fin 2) * 1 + 1 * (y 1).val = (y 1).val; omega

end Cert.AutoInt.KV

end
-- ==== Proof.KValue.lean ====
/-
  The kernel's result array after the run.

  The grid has 256 points; point `t` stages rows `64 t … 64 t + 63` of the gathered 16384 × 39 × 16 array (window 0),
  every weight array whole, and writes back rows `64 t … 64 t + 63` of the 16384 × 1 result (window 21). By the tile
  lemma, entry `(p, 0)` of what point `t` writes is the network of the tile's example `p`, which is example
  `64 t + p` of the whole array. So what every point writes is its block of ONE array `G`: at `(b, 0)` the network
  of example `b`'s gathered rows. The 256 blocks cover the 16384 rows (row `b` lies in block `b / 64`), hence the
  result array ends holding `G`.
-/
import proofs.«130033_j76630806495343_1_alg».proof.Proof.Gen.KernelIdeal.Value
import proofs.«130033_j76630806495343_1_alg».proof.Proof.KTile
import proofs.«130033_j76630806495343_1_alg».proof.Proof.KWBlocks

noncomputable section

namespace Cert.AutoInt.KV

open Cert.KernelIdeal Cert.KernelIdeal.Gen Idealize.ShloMosaic Idealize.ShloMosaic.TcCoe Idealize.SL.Sem Idealize.ShloMosaic.ValueIdx Cert.AutoInt
open Idealize.ShloMosaic.Pipeline (Dat)

variable (m : (ℓ : Loc nD τ sig) → Buf (Elt Ideal) ℓ) (ρ : Dev nD → PrngReg)

/-- The weights as the region finds them: the twelve attention matrices and four dense matrices are arguments of
    the program, the four biases their 1 × k reshapes. -/
def P (c : Dev nD) : Params :=
  K.paramsOf (V m c main_arg2) (V m c main_arg3) (V m c main_arg4) (V m c main_arg5) (V m c main_arg6) (V m c main_arg7)
    (V m c main_arg8) (V m c main_arg9) (V m c main_arg10) (V m c main_arg11) (V m c main_arg12) (V m c main_arg13)
    (V m c main_arg14) (V m c main_v14) (V m c main_arg16) (V m c main_v15) (V m c main_arg18) (V m c main_v16)
    (V m c main_arg20) (V m c main_v17)

/-- The result array: at `(b, 0)` the network of example `b`'s gathered rows. -/
def G (c : Dev nD) : Buf (Elt Ideal) ((c : Thread nD τ).loc main_v18) :=
  fun i => net (P m c) (fun f d => V m c main_v13 (ix3 (i 0) f d))

theorem zero2 : (![0, 0] : Fin 2 → Nat) = fun _ => 0 := funext fun a => by fin_cases a <;> rfl
theorem zero3 : (![0, 0, 0] : Fin 3 → Nat) = fun _ => 0 := funext fun a => by fin_cases a <;> rfl

/-- Window 0's index map follows the grid point on the example axis and is zero on the other two. -/
theorem idx_w0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The output window's index map: the grid point on the example axis, zero on the other. -/
theorem idx_w21 : ∀ t : Fin cfg0.N, win0_21.index t (0 : Fin 2) = t.val ∧ win0_21.index t (1 : Fin 2) = 0 :=
  (by decide +kernel : ∀ t : Fin grid0.N, _)

/-- Example `p` of tile `t` is example `64 t + p` of the whole array. -/
abbrev exOf (t : Fin cfg0.N) (p : Fin 64) : Fin 16384 :=
  ⟨t.val * 64 + p.val, by have ht : t.val < 256 := t.isLt; have := p.isLt; omega⟩

/-- Window 0's block at point `t`: its example `p` holds the gathered rows of example `64 t + p`. -/
theorem iblk0_apply (c : Dev nD) (t : Fin cfg0.N) (p : Fin 64) (f : Fin 39) (d : Fin 16) :
    (iblk m c 0 t : Vec Ideal S64x39x16 .bf16) (ix3 p f d) = V m c main_v13 (ix3 (exOf t p) f d) := by
  show V m c main_v13 (((cfg0.win 0).blk t).view.emb (ix3 p f d)) = _
  refine congrArg (V m c main_v13) (funext fun a => Fin.ext ?_)
  obtain ⟨e0, e1, e2⟩ := idx_w0 t
  match a with
  | ⟨0, _⟩ => show win0_0.index t (0 : Fin 3) * 64 + 1 * p.val = t.val * 64 + p.val; omega
  | ⟨1, _⟩ => show win0_0.index t (1 : Fin 3) * 39 + 1 * f.val = f.val; omega
  | ⟨2, _⟩ => show win0_0.index t (2 : Fin 3) * 16 + 1 * d.val = d.val; omega

set_option maxHeartbeats 4000000 in
/-- WHAT POINT `t` WRITES BACK is block `t` of `G`. -/
theorem flushed_eq (c : Dev nD) (t : Fin cfg0.N) :
    (dats m 0 c).flushed 21 t = ((cfg0.win 21).blk t).view.read (Elt Ideal) (G m c) := by
  rw [Cert.KernelIdeal.Value.flushed21]
  unfold out0_21
  rw [View.canon_unit_zero zero2]
  simp only [View.ld_unit_zero (S := S64x39x16) zero3, View.ld_unit_zero (S := S16x32) zero2, View.ld_unit_zero (S := S32x32) zero2,
    View.ld_unit_zero (S := S1248x128) zero2, View.ld_unit_zero (S := S1x128) zero2, View.ld_unit_zero (S := S128x64) zero2,
    View.ld_unit_zero (S := S1x64) zero2, View.ld_unit_zero (S := S64x32) zero2, View.ld_unit_zero (S := S1x32) zero2,
    View.ld_unit_zero (S := S32x1) zero2, View.ld_unit_zero (S := S1x1) zero2]
  funext j
  obtain ⟨p, q, rfl⟩ : ∃ (p : Fin 64) (q : Fin 1), j = ix2 p q := ⟨j 0, j 1, eq_ix2 j⟩
  obtain rfl : q = 0 := Subsingleton.elim _ _
  refine (K.tile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p).trans ?_
  -- the weight blocks are the arrays; the tile's example `p` is example `64 t + p`
  have hrows : (fun (f : Fin 39) (d : Fin 16) => (iblk m c 0 t : Vec Ideal S64x39x16 .bf16) (ix3 p f d))
      = fun f d => V m c main_v13 (ix3 (exOf t p) f d) := by
    funext f d
    exact iblk0_apply m c t p f d
  rw [hrows, iblk1_eq m c t, iblk2_eq m c t, iblk3_eq m c t, iblk4_eq m c t, iblk5_eq m c t, iblk6_eq m c t, iblk7_eq m c t, iblk8_eq m c t, iblk9_eq m c t, iblk10_eq m c t, iblk11_eq m c t, iblk12_eq m c t, iblk13_eq m c t, iblk14_eq m c t, iblk15_eq m c t, iblk16_eq m c t, iblk17_eq m c t, iblk18_eq m c t, iblk19_eq m c t, iblk20_eq m c t]
  show net (P m c) (fun f d => V m c main_v13 (ix3 (exOf t p) f d))
      = net (P m c) (fun f d => V m c main_v13 (ix3 ((((cfg0.win 21).blk t).view.emb (ix2 p 0)) 0) f d))
  have hrow : exOf t p = (((cfg0.win 21).blk t).view.emb (ix2 p 0)) 0 := by
    apply Fin.ext
    obtain ⟨e0, e1⟩ := idx_w21 t
    show t.val * 64 + p.val = win0_21.index t (0 : Fin 2) * 64 + 1 * p.val
    omega
  rw [hrow]

/-- An index of the result array is in point `t`'s block iff each coordinate is in the block's range on its axis. -/
theorem mem_blk (t : Fin cfg0.N) (i : S16384x1.Idx) :
    i ∈ ((cfg0.win 21).blk t).view.set ↔ ∀ a : Fin 2, win0_21.index t a * S64x1.size a ≤ (i a).val ∧ (i a).val < win0_21.index t a * S64x1.size a + S64x1.size a := by
  show i ∈ ((View.whole main_v18).slice (win0_21.rect t)).set ↔ _
  rw [View.set_slice_whole, Rect.mem_set_unit]
  exact Iff.rfl

/-- Every row of the result array lies in some point's block: row `b` in block `b / 64`. -/
theorem cover (i : S16384x1.Idx) :
    ∃ t : Fin cfg0.N, (cfg0.win 21).flush t = true ∧ i ∈ ((cfg0.win 21).blk t).view.set := by
  have hi0 : (i 0).val < 16384 := (i 0).isLt
  have hi1 : (i 1).val < 1 := (i 1).isLt
  have hN : (cfg0.N : Nat) = 256 := rfl
  let t : Fin cfg0.N := ⟨(i 0).val / 64, by rw [hN]; omega⟩
  refine ⟨t, flush0_21 t, ?_⟩
  rw [mem_blk]
  obtain ⟨e0, e1⟩ := idx_w21 t
  have ht : t.val = (i 0).val / 64 := rfl
  intro a
  match a with
  | ⟨0, _⟩ => show win0_21.index t (0 : Fin 2) * 64 ≤ (i 0).val ∧ (i 0).val < win0_21.index t (0 : Fin 2) * 64 + 64; omega
  | ⟨1, _⟩ => show win0_21.index t (1 : Fin 2) * 1 ≤ (i 1).val ∧ (i 1).val < win0_21.index t (1 : Fin 2) * 1 + 1; omega

/-- THE ARRAY after the run is `G`. -/
theorem final (c : Dev nD) : (dats m 0 c).arrAt 21 cfg0.N = G m c :=
  (dats m 0 c).arrAt_eq_of_cover 21 (G m c) (fun t _ => flushed_eq m c t) (cover)

end Cert.AutoInt.KV

end
-- ==== Proof.KPrefix.lean ====
/-
  What the kernel's program does before the pallas_call, read against the reference.

  Both programs start with the same integer arithmetic and the same gather: to each input index the field's offset
  (field number × 10000) is added, a negative sum is wrapped once by the table's length 390000, and the 16-wide row
  of the embedding table at that (clamped) position is taken. The kernel's program then changes the rows' float
  format, which is the identity on the extended reals. So the 16384 × 39 × 16 array the region finds is the
  reference's gathered array, as one function of the two arguments; the gather itself is never opened. The four
  biases reach the region as their 1 × k reshapes.
-/
import proofs.«130033_j76630806495343_1_alg».proof.Proof.Gen.KernelIdeal.Frame
import proofs.«130033_j76630806495343_1_alg».proof.Proof.ReadP
import Idealize.ShloMosaic.Lib.StableHlo.Run
import Idealize.ShloMosaic.Lib.Pipeline.Value
import Idealize.ShloMosaic.Lib.ValueIdx

noncomputable section

namespace Cert.AutoInt.KV

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The row numbers the gather reads: the field's offset added to the input index, a negative sum wrapped once by
    the table's length. -/
def rowIdx (x0 : (⟨S16384x39, .i32⟩ : BufTy).Contents (Elt Ideal)) : (⟨S16384x39x1, .i32⟩ : BufTy).Contents (Elt Ideal) :=
  let v5 : (⟨S16384x39, .i32⟩ : BufTy).Contents (Elt Ideal) :=
    addi x0 (broadcastInDim S16384x39 ![0, 1] bcast_S1x39_S16384x39_0_1 (broadcastInDim S1x39 ![1] bcast_S39_S1x39_1
      (muli (iotaInDim S39 32 0) (broadcastInDim S39 ![] bcast_S_S39 (constantI S_ 32 10000#32)))))
  broadcastInDim S16384x39x1 ![0, 1] bcast_S16384x39_S16384x39x1_0_1
    (select (cmpi .slt v5 (broadcastInDim S16384x39 ![] bcast_S_S16384x39 (constantI S_ 32 0#32)))
      (addi v5 (broadcastInDim S16384x39 ![] bcast_S_S16384x39 (constantI S_ 32 390000#32))) v5)

/-- The array the region's first window stages: the gathered rows, after a change of format. -/
theorem gathered_kernel (c : Dev nD) :
    (V m c main_v13 : S16384x39x16.Idx → EReal)
      = (truncf (F := Ideal) .bf16 ((Host.gather gather_S390000x16_S16384x39x1_S16384x39x16_2_0_n_n_0_2_116
          (m ((c : Thread nD τ).loc main_arg1)) (rowIdx (m ((c : Thread nD τ).loc main_arg0)))) : FVec Ideal S16384x39x16 .f32)
          bitsLt_bf16_f32 : FVec Ideal S16384x39x16 .bf16) := by
  show StableHlo.after hostOps0 (fun b => m (c, b)) (Proc.devRef .tc main_v13) = _
  after_results_simp
  rfl

/-- The two programs' gathers have the same dimension numbers. -/
theorem gatherDims_eq : gather_S390000x16_S16384x39x1_S16384x39x16_2_0_n_n_0_2_116
    = Cert.ReferenceIdeal.gather_S390000x16_S16384x39x1_S16384x39x16_2_0_n_n_0_2_116 := rfl

/-- The two programs compute the row numbers by the same integer operations. -/
theorem rowIdx_eq (x0 : (⟨S16384x39, .i32⟩ : BufTy).Contents (Elt Ideal)) :
    rowIdx x0 = Cert.ReferenceIdeal.ReadP.val_main_v11 (F := Ideal) x0 := rfl

/-- The reference's gathered array is the gather at those row numbers. -/
theorem gathered_reference (x0 : (⟨S16384x39, .i32⟩ : BufTy).Contents (Elt Ideal)) (x1 : (⟨S390000x16, .f32⟩ : BufTy).Contents (Elt Ideal)) :
    Cert.ReferenceIdeal.ReadP.val_main_v12 (F := Ideal) x0 x1
      = Host.gather Cert.ReferenceIdeal.gather_S390000x16_S16384x39x1_S16384x39x16_2_0_n_n_0_2_116 x1
          (Cert.ReferenceIdeal.ReadP.val_main_v11 (F := Ideal) x0) := rfl

/-- The array the region's first window stages IS the reference's gathered array of the same two arguments. -/
theorem rows_eq (c : Dev nD) :
    (V m c main_v13 : S16384x39x16.Idx → EReal)
      = Cert.ReferenceIdeal.ReadP.val_main_v12 (F := Ideal) (m ((c : Thread nD τ).loc main_arg0)) (m ((c : Thread nD τ).loc main_arg1)) := by
  rw [gathered_kernel, gathered_reference, ← rowIdx_eq, ← gatherDims_eq]
  rfl

/-- The 128-entry bias as the region finds it: its 1 × 128 reshape, entry `(0, j)` of which is entry `j` of the argument. -/
theorem bias1_apply (c : Dev nD) (j : Fin 128) :
    (V m c main_v14 : S1x128.Idx → EReal) (ix2 0 j) = m ((c : Thread nD τ).loc main_arg15) (ix1 j) := by
  have e : (V m c main_v14 : S1x128.Idx → EReal)
      = shapeCast S1x128 (m ((c : Thread nD τ).loc main_arg15)) shapeCasts_S128_S1x128 := by
    show StableHlo.after hostOps0 (fun b => m (c, b)) (Proc.devRef .tc main_v14) = _
    after_results_simp
    rfl
  rw [e]
  refine shapeCast_apply _ _ (ix2 0 j) (ix1 j) ?_
  rw [Shape.rowMajor_val_two, Shape.rowMajor_val_one]
  show j.val = 0 * 128 + j.val
  omega

/-- The 64-entry bias as the region finds it: its 1 × 64 reshape, entry `(0, j)` of which is entry `j` of the argument. -/
theorem bias2_apply (c : Dev nD) (j : Fin 64) :
    (V m c main_v15 : S1x64.Idx → EReal) (ix2 0 j) = m ((c : Thread nD τ).loc main_arg17) (ix1 j) := by
  have e : (V m c main_v15 : S1x64.Idx → EReal)
      = shapeCast S1x64 (m ((c : Thread nD τ).loc main_arg17)) shapeCasts_S64_S1x64 := by
    show StableHlo.after hostOps0 (fun b => m (c, b)) (Proc.devRef .tc main_v15) = _
    after_results_simp
    rfl
  rw [e]
  refine shapeCast_apply _ _ (ix2 0 j) (ix1 j) ?_
  rw [Shape.rowMajor_val_two, Shape.rowMajor_val_one]
  show j.val = 0 * 64 + j.val
  omega

/-- The 32-entry bias as the region finds it: its 1 × 32 reshape, entry `(0, j)` of which is entry `j` of the argument. -/
theorem bias3_apply (c : Dev nD) (j : Fin 32) :
    (V m c main_v16 : S1x32.Idx → EReal) (ix2 0 j) = m ((c : Thread nD τ).loc main_arg19) (ix1 j) := by
  have e : (V m c main_v16 : S1x32.Idx → EReal)
      = shapeCast S1x32 (m ((c : Thread nD τ).loc main_arg19)) shapeCasts_S32_S1x32 := by
    show StableHlo.after hostOps0 (fun b => m (c, b)) (Proc.devRef .tc main_v16) = _
    after_results_simp
    rfl
  rw [e]
  refine shapeCast_apply _ _ (ix2 0 j) (ix1 j) ?_
  rw [Shape.rowMajor_val_two, Shape.rowMajor_val_one]
  show j.val = 0 * 32 + j.val
  omega

/-- The 1-entry bias as the region finds it: its 1 × 1 reshape, entry `(0, j)` of which is entry `j` of the argument. -/
theorem bias4_apply (c : Dev nD) (j : Fin 1) :
    (V m c main_v17 : S1x1.Idx → EReal) (ix2 0 j) = m ((c : Thread nD τ).loc main_arg21) (ix1 j) := by
  have e : (V m c main_v17 : S1x1.Idx → EReal)
      = shapeCast S1x1 (m ((c : Thread nD τ).loc main_arg21)) shapeCasts_S1_S1x1 := by
    show StableHlo.after hostOps0 (fun b => m (c, b)) (Proc.devRef .tc main_v17) = _
    after_results_simp
    rfl
  rw [e]
  refine shapeCast_apply _ _ (ix2 0 j) (ix1 j) ?_
  rw [Shape.rowMajor_val_two, Shape.rowMajor_val_one]
  show j.val = 0 * 1 + j.val
  omega

end Cert.AutoInt.KV

end
-- ==== Proof.RLayer0.lean ====
/-
  The reference's first attention layer, read at an entry.

  The reference works on all 16384 examples at once: 16384 × 39 × 16 gathered rows, products with the four 16 × 32
  weight matrices contracting the width, scores batched over the examples, the softmax of each score row, the
  weighted value rows, the residual, the rectifier. Entry `(b, f, c)` of the layer's result depends on example `b`'s
  rows only, and is the one-example layer `attn` of them.
-/
import proofs.«130033_j76630806495343_1_alg».proof.Proof.ReadP
import proofs.«130033_j76630806495343_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.AutoInt.R

open Cert.ReferenceIdeal Cert.ReferenceIdeal.ReadP Idealize.ShloMosaic Idealize.ShloMosaic.ValueIdx Cert.AutoInt

variable (x0 : (⟨S16384x39, .i32⟩ : BufTy).Contents (Elt Ideal)) (x1 : (⟨S390000x16, .f32⟩ : BufTy).Contents (Elt Ideal))
  (x2 x3 x4 x5 : (⟨S16x32, .f32⟩ : BufTy).Contents (Elt Ideal))
  (x6 x7 x8 x9 x10 x11 x12 x13 : (⟨S32x32, .f32⟩ : BufTy).Contents (Elt Ideal))

/-! ## The layer's inputs by coordinates -/

/-- Example `b`'s 39 gathered rows of width 16. -/
abbrev layer0Rows (b : Fin 16384) : Fin 39 → Fin 16 → EReal := fun f d => val_main_v12 (F := Ideal) x0 x1 (ix3 b f d)

/-- A 16 × 32 weight matrix by its two coordinates. -/
abbrev layer0Mat (w : (⟨S16x32, .f32⟩ : BufTy).Contents (Elt Ideal)) : Fin 16 → Fin 32 → EReal := fun d c => w (ix2 d c)

/-! ## The four projections: a product contracting the width of the gathered rows -/

/-- The query projection at `(b, f, c)` is row `f` of example `b` times column `c` of `Wq`. -/
theorem layer0_q (b : Fin 16384) (f : Fin 39) (c : Fin 32) :
    val_main_v13 (F := Ideal) x0 x1 x2 (ix3 b f c) = proj (layer0Rows x0 x1 b) (layer0Mat x2) f c := by
  rw [val_main_v13_apply]
  refine Finset.sum_congr rfl fun k _ => ?_
  have el : lidx_main_v13 (ix3 b f c) k = ix3 b f k := funext fun a => by
    match a with | ⟨0, _⟩ => rfl | ⟨1, _⟩ => rfl | ⟨2, _⟩ => rfl
  have er : ridx_main_v13 (ix3 b f c) k = ix2 k c := funext fun a => by
    match a with | ⟨0, _⟩ => rfl | ⟨1, _⟩ => rfl
  rw [el, er]

/-- The key projection. -/
theorem layer0_k (b : Fin 16384) (f : Fin 39) (c : Fin 32) :
    val_main_v14 (F := Ideal) x0 x1 x3 (ix3 b f c) = proj (layer0Rows x0 x1 b) (layer0Mat x3) f c := by
  rw [val_main_v14_apply]
  refine Finset.sum_congr rfl fun k _ => ?_
  have el : lidx_main_v14 (ix3 b f c) k = ix3 b f k := funext fun a => by
    match a with | ⟨0, _⟩ => rfl | ⟨1, _⟩ => rfl | ⟨2, _⟩ => rfl
  have er : ridx_main_v14 (ix3 b f c) k = ix2 k c := funext fun a => by
    match a with | ⟨0, _⟩ => rfl | ⟨1, _⟩ => rfl
  rw [el, er]

/-- The value projection. -/
theorem layer0_v (b : Fin 16384) (f : Fin 39) (c : Fin 32) :
    val_main_v15 (F := Ideal) x0 x1 x4 (ix3 b f c) = proj (layer0Rows x0 x1 b) (layer0Mat x4) f c := by
  rw [val_main_v15_apply]
  refine Finset.sum_congr rfl fun k _ => ?_
  have el : lidx_main_v15 (ix3 b f c) k = ix3 b f k := funext fun a => by
    match a with | ⟨0, _⟩ => rfl | ⟨1, _⟩ => rfl | ⟨2, _⟩ => rfl
  have er : ridx_main_v15 (ix3 b f c) k = ix2 k c := funext fun a => by
    match a with | ⟨0, _⟩ => rfl | ⟨1, _⟩ => rfl
  rw [el, er]

/-- The residual projection. -/
theorem layer0_r (b : Fin 16384) (f : Fin 39) (c : Fin 32) :
    val_main_v29 (F := Ideal) x0 x1 x5 (ix3 b f c) = proj (layer0Rows x0 x1 b) (layer0Mat x5) f c := by
  rw [val_main_v29_apply]
  refine Finset.sum_congr rfl fun k _ => ?_
  have el : lidx_main_v29 (ix3 b f c) k = ix3 b f k := funext fun a => by
    match a with | ⟨0, _⟩ => rfl | ⟨1, _⟩ => rfl | ⟨2, _⟩ => rfl
  have er : ridx_main_v29 (ix3 b f c) k = ix2 k c := funext fun a => by
    match a with | ⟨0, _⟩ => rfl | ⟨1, _⟩ => rfl
  rw [el, er]

/-! ## The scores: queries against keys, batched over the examples -/

/-- The score at `(b, f, g)` pairs example `b`'s query row `f` with its key row `g`. -/
theorem layer0_scores (b : Fin 16384) (f g : Fin 39) :
    val_main_v16 (F := Ideal) x0 x1 x2 x3 (ix3 b f g)
      = scores (proj (layer0Rows x0 x1 b) (layer0Mat x2)) (proj (layer0Rows x0 x1 b) (layer0Mat x3)) f g := by
  rw [val_main_v16_apply]
  refine Finset.sum_congr rfl fun k _ => ?_
  have el : lidx_main_v16 (ix3 b f g) k = ix3 b f k := funext fun a => by
    match a with | ⟨0, _⟩ => rfl | ⟨1, _⟩ => rfl | ⟨2, _⟩ => rfl
  have er : ridx_main_v16 (ix3 b f g) k = ix3 b g k := funext fun a => by
    match a with | ⟨0, _⟩ => rfl | ⟨1, _⟩ => rfl | ⟨2, _⟩ => rfl
  rw [el, er, layer0_q, layer0_k]

/-! ## A row's maximum: the fold of the maximum over the last axis, joined once more with −∞ -/

/-- Dropping the last axis of the scores' shape leaves the examples-by-rows shape. -/
theorem layer0_reduces : S16384x39x39.Reduces [2] S16384x39 := by decide

/-- The reduced index `(b, f)` with coordinate `g` put back on the last axis is `(b, f, g)`. -/
theorem layer0_lift (b : Fin 16384) (f : Fin 39) (g : Fin (S16384x39x39.size 2)) :
    layer0_reduces.lift (ix2 b f) g = ix3 b f (⟨g.val, g.isLt⟩ : Fin 39) := by
  funext c; apply Fin.ext
  fin_cases c <;> rfl

/-- The reduce with a maximum body at `(b, f)` is the fold of `max` from −∞ over score row `f` of example `b`. -/
theorem layer0_fold (b : Fin 16384) (f : Fin 39) :
    val_main_v17 (F := Ideal) x0 x1 x2 x3 (ix2 b f)
      = (Finset.univ : Finset (Fin 39)).fold max negInf
          (scores (proj (layer0Rows x0 x1 b) (layer0Mat x2)) (proj (layer0Rows x0 x1 b) (layer0Mat x3)) f) := by
  unfold val_main_v17
  refine (Host.reduce_eq_fold_single FloatOps.maximumf _ _ _ layer0_reduces _ (ix2 b f)).trans ?_
  have hf : (val_main_v16 (F := Ideal) x0 x1 x2 x3 ∘ layer0_reduces.lift (ix2 b f))
      = scores (proj (layer0Rows x0 x1 b) (layer0Mat x2)) (proj (layer0Rows x0 x1 b) (layer0Mat x3)) f :=
    funext fun g => (congrArg (val_main_v16 (F := Ideal) x0 x1 x2 x3) (layer0_lift b f g)).trans
      (layer0_scores x0 x1 x2 x3 b f ⟨g.val, g.isLt⟩)
  exact congrArg (fun φ => Finset.fold max negInf φ (Finset.univ : Finset (Fin 39))) hf

/-- The row maximum at `(b, f)`. -/
theorem layer0_rowMax (b : Fin 16384) (f : Fin 39) :
    val_main_v19 (F := Ideal) x0 x1 x2 x3 (ix2 b f)
      = rowMax (scores (proj (layer0Rows x0 x1 b) (layer0Mat x2)) (proj (layer0Rows x0 x1 b) (layer0Mat x3))) f := by
  rw [val_main_v19_apply, val_main_v18_apply, val_main_cst_2_apply, layer0_fold]
  rfl

/-! ## The exponentials, their row sums, the softmax -/

/-- The exponential of a score minus its row's maximum (the maximum broadcast back along the row). -/
theorem layer0_expo (b : Fin 16384) (f g : Fin 39) :
    val_main_v23 (F := Ideal) x0 x1 x2 x3 (ix3 b f g)
      = expo (scores (proj (layer0Rows x0 x1 b) (layer0Mat x2)) (proj (layer0Rows x0 x1 b) (layer0Mat x3))) f g := by
  rw [val_main_v23_apply, val_main_v22_apply, val_main_v21_apply, val_main_v20_apply]
  have e : idx_main_v20 (idx_main_v21 (ix3 b f g)) = ix2 b f := funext fun a => by
    match a with | ⟨0, _⟩ => rfl | ⟨1, _⟩ => rfl
  rw [e, layer0_rowMax, layer0_scores]
  rfl

/-- The sum of a row's exponentials; the sum starts from zero. -/
theorem layer0_denom (b : Fin 16384) (f : Fin 39) :
    val_main_v24 (F := Ideal) x0 x1 x2 x3 (ix2 b f)
      = denom (scores (proj (layer0Rows x0 x1 b) (layer0Mat x2)) (proj (layer0Rows x0 x1 b) (layer0Mat x3))) f := by
  rw [val_main_v24_apply, val_main_cst_3_apply, Ideal.ofBits_def, Ideal.ofBits_zero_f32, zero_add]
  refine Finset.sum_congr rfl fun k _ => ?_
  have e : idx_main_v24 (ix2 b f) k = ix3 b f k := funext fun a => by
    match a with | ⟨0, _⟩ => rfl | ⟨1, _⟩ => rfl | ⟨2, _⟩ => rfl
  rw [e, layer0_expo]

/-- The softmax: an exponential over its row's sum (the sum broadcast back along the row). -/
theorem layer0_softmax (b : Fin 16384) (f g : Fin 39) :
    val_main_v27 (F := Ideal) x0 x1 x2 x3 (ix3 b f g)
      = softmax (scores (proj (layer0Rows x0 x1 b) (layer0Mat x2)) (proj (layer0Rows x0 x1 b) (layer0Mat x3))) f g := by
  rw [val_main_v27_apply, val_main_v26_apply, val_main_v25_apply]
  have e : idx_main_v25 (idx_main_v26 (ix3 b f g)) = ix2 b f := funext fun a => by
    match a with | ⟨0, _⟩ => rfl | ⟨1, _⟩ => rfl
  rw [e, layer0_denom, layer0_expo]
  rfl

/-! ## The weighted value rows, the residual, the rectifier -/

/-- The weighted value rows at `(b, f, c)`: softmax row `f` of example `b` against column `c` of its values. -/
theorem layer0_weighted (b : Fin 16384) (f : Fin 39) (c : Fin 32) :
    val_main_v28 (F := Ideal) x0 x1 x2 x3 x4 (ix3 b f c)
      = ∑ g : Fin 39,
          softmax (scores (proj (layer0Rows x0 x1 b) (layer0Mat x2)) (proj (layer0Rows x0 x1 b) (layer0Mat x3))) f g
            * proj (layer0Rows x0 x1 b) (layer0Mat x4) g c := by
  rw [val_main_v28_apply]
  refine Finset.sum_congr rfl fun k _ => ?_
  have el : lidx_main_v28 (ix3 b f c) k = ix3 b f k := funext fun a => by
    match a with | ⟨0, _⟩ => rfl | ⟨1, _⟩ => rfl | ⟨2, _⟩ => rfl
  have er : ridx_main_v28 (ix3 b f c) k = ix3 b k c := funext fun a => by
    match a with | ⟨0, _⟩ => rfl | ⟨1, _⟩ => rfl | ⟨2, _⟩ => rfl
  rw [el, er, layer0_softmax, layer0_v]

/-- Entry `(b, f, c)` of the first layer's result is `attn` of example `b`'s gathered 39 × 16 rows. -/
theorem layer0_apply (b : Fin 16384) (f : Fin 39) (c : Fin 32) :
    val_main_v31 (F := Ideal) x0 x1 x2 x3 x4 x5 (ix3 b f c)
      = attn (fun f d => val_main_v12 (F := Ideal) x0 x1 (ix3 b f d)) (fun d c => x2 (ix2 d c)) (fun d c => x3 (ix2 d c))
          (fun d c => x4 (ix2 d c)) (fun d c => x5 (ix2 d c)) f c := by
  rw [val_main_v31_apply, val_main_v30_apply, layer0_weighted, layer0_r, val_main_call0_v0_apply,
    val_main_call0_cst_apply]
  rfl

end Cert.AutoInt.R

end
-- ==== Proof.RLayer1.lean ====
/-
  The reference's second attention layer, read at an entry: the same operations as the first layer on the first
  layer's 16384 × 39 × 32 result, with the four 32 × 32 weight matrices of the second layer.
-/
import proofs.«130033_j76630806495343_1_alg».proof.Proof.ReadP
import proofs.«130033_j76630806495343_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.AutoInt.R

open Cert.ReferenceIdeal Cert.ReferenceIdeal.ReadP Idealize.ShloMosaic Idealize.ShloMosaic.ValueIdx Cert.AutoInt

variable (x0 : (⟨S16384x39, .i32⟩ : BufTy).Contents (Elt Ideal)) (x1 : (⟨S390000x16, .f32⟩ : BufTy).Contents (Elt Ideal))
  (x2 x3 x4 x5 : (⟨S16x32, .f32⟩ : BufTy).Contents (Elt Ideal))
  (x6 x7 x8 x9 x10 x11 x12 x13 : (⟨S32x32, .f32⟩ : BufTy).Contents (Elt Ideal))

section Stages

/-! ## The stages of one example `b`, one operation at a time

Throughout, `rowsIn` is example `b`'s 39 × 32 rows of the first layer's result, `wQ`, `wK`, `wV`, `wR` the four weight
matrices as functions of their coordinates, `pQ`, `pK`, `pV`, `pR` the four projections of the rows and `sc` the scores. -/

variable (b : Fin 16384)

local notation "rowsIn" => (fun (f : Fin 39) (d : Fin 32) => val_main_v31 (F := Ideal) x0 x1 x2 x3 x4 x5 (ix3 b f d))
local notation "wQ" => (fun (d c : Fin 32) => x6 (ix2 d c))
local notation "wK" => (fun (d c : Fin 32) => x7 (ix2 d c))
local notation "wV" => (fun (d c : Fin 32) => x8 (ix2 d c))
local notation "wR" => (fun (d c : Fin 32) => x9 (ix2 d c))
local notation "pQ" => proj rowsIn wQ
local notation "pK" => proj rowsIn wK
local notation "pV" => proj rowsIn wV
local notation "pR" => proj rowsIn wR
local notation "sc" => scores pQ pK

/-- Closes an equation between two rank-3 indices whose coordinates agree by computation. -/
local macro "idx3" : tactic =>
  `(tactic| (funext a; match a with | ⟨0, _⟩ => rfl | ⟨1, _⟩ => rfl | ⟨2, _⟩ => rfl))
/-- The same for rank-2 indices. -/
local macro "idx2" : tactic =>
  `(tactic| (funext a; match a with | ⟨0, _⟩ => rfl | ⟨1, _⟩ => rfl))

/-- The query projection: entry `(b, f, c)` is row `f` of the input times column `c` of the first matrix. -/
private theorem stage32 (f : Fin 39) (c : Fin 32) :
    val_main_v32 (F := Ideal) x0 x1 x2 x3 x4 x5 x6 (ix3 b f c) = pQ f c := by
  refine (val_main_v32_apply x0 x1 x2 x3 x4 x5 x6 _).trans (Finset.sum_congr rfl fun j _ => ?_)
  have hl : lidx_main_v32 (ix3 b f c) j = ix3 b f j := by idx3
  have hr : ridx_main_v32 (ix3 b f c) j = ix2 j c := by idx2
  rw [hl, hr]

/-- The key projection. -/
private theorem stage33 (f : Fin 39) (c : Fin 32) :
    val_main_v33 (F := Ideal) x0 x1 x2 x3 x4 x5 x7 (ix3 b f c) = pK f c := by
  refine (val_main_v33_apply x0 x1 x2 x3 x4 x5 x7 _).trans (Finset.sum_congr rfl fun j _ => ?_)
  have hl : lidx_main_v33 (ix3 b f c) j = ix3 b f j := by idx3
  have hr : ridx_main_v33 (ix3 b f c) j = ix2 j c := by idx2
  rw [hl, hr]

/-- The value projection. -/
private theorem stage34 (f : Fin 39) (c : Fin 32) :
    val_main_v34 (F := Ideal) x0 x1 x2 x3 x4 x5 x8 (ix3 b f c) = pV f c := by
  refine (val_main_v34_apply x0 x1 x2 x3 x4 x5 x8 _).trans (Finset.sum_congr rfl fun j _ => ?_)
  have hl : lidx_main_v34 (ix3 b f c) j = ix3 b f j := by idx3
  have hr : ridx_main_v34 (ix3 b f c) j = ix2 j c := by idx2
  rw [hl, hr]

/-- The residual projection. -/
private theorem stage48 (f : Fin 39) (c : Fin 32) :
    val_main_v48 (F := Ideal) x0 x1 x2 x3 x4 x5 x9 (ix3 b f c) = pR f c := by
  refine (val_main_v48_apply x0 x1 x2 x3 x4 x5 x9 _).trans (Finset.sum_congr rfl fun j _ => ?_)
  have hl : lidx_main_v48 (ix3 b f c) j = ix3 b f j := by idx3
  have hr : ridx_main_v48 (ix3 b f c) j = ix2 j c := by idx2
  rw [hl, hr]

/-- The scores: entry `(b, f, g)` pairs query row `f` with key row `g`. -/
private theorem stage35 (f g : Fin 39) :
    val_main_v35 (F := Ideal) x0 x1 x2 x3 x4 x5 x6 x7 (ix3 b f g) = sc f g := by
  refine (val_main_v35_apply x0 x1 x2 x3 x4 x5 x6 x7 _).trans (Finset.sum_congr rfl fun j _ => ?_)
  have hl : lidx_main_v35 (ix3 b f g) j = ix3 b f j := by idx3
  have hr : ridx_main_v35 (ix3 b f g) j = ix3 b g j := by idx3
  rw [hl, hr, stage32, stage33]

/-- The fold of `max` from −∞ over score row `f`: the reduction over the last axis, read at `(b, f)`. -/
private theorem stage36 (f : Fin 39) :
    val_main_v36 (F := Ideal) x0 x1 x2 x3 x4 x5 x6 x7 (ix2 b f)
      = (Finset.univ : Finset (Fin 39)).fold max negInf (sc f) := by
  have h : S16384x39x39.Reduces [2] S16384x39 := by decide
  have hf : (val_main_v35 (F := Ideal) x0 x1 x2 x3 x4 x5 x6 x7 ∘ h.lift (ix2 b f)) = sc f := by
    refine funext fun (g : Fin 39) => ?_
    have hg : h.lift (ix2 b f) g = ix3 b f g := by
      funext a; apply Fin.ext; fin_cases a <;> rfl
    show val_main_v35 (F := Ideal) x0 x1 x2 x3 x4 x5 x6 x7 (h.lift (ix2 b f) g) = _
    rw [hg, stage35]
  refine (Host.reduce_eq_fold_single (FloatOps.maximumf (F := Ideal) (φ := .f32))
    (val_main_v35 (F := Ideal) x0 x1 x2 x3 x4 x5 x6 x7) (val_main_cst_4 (F := Ideal))
    Gen.reducesTo_S16384x39x39_S16384x39_d2 h Gen.h_S_ (ix2 b f)).trans ?_
  exact congrArg (fun y => Finset.fold max negInf y (Finset.univ : Finset (Fin 39))) hf

/-- The row maximum, joined once more with −∞. -/
private theorem stage38 (f : Fin 39) :
    val_main_v38 (F := Ideal) x0 x1 x2 x3 x4 x5 x6 x7 (ix2 b f) = rowMax sc f := by
  rw [val_main_v38_apply, stage36, val_main_v37_apply]
  rfl

/-- The row maximum spread over the row. -/
private theorem stage40 (f g : Fin 39) :
    val_main_v40 (F := Ideal) x0 x1 x2 x3 x4 x5 x6 x7 (ix3 b f g) = rowMax sc f := by
  rw [val_main_v40_apply, val_main_v39_apply]
  have h : idx_main_v39 (idx_main_v40 (ix3 b f g)) = ix2 b f := by idx2
  rw [h, stage38]

/-- The exponential of a score minus its row's maximum. -/
private theorem stage42 (f g : Fin 39) :
    val_main_v42 (F := Ideal) x0 x1 x2 x3 x4 x5 x6 x7 (ix3 b f g) = expo sc f g := by
  rw [val_main_v42_apply, val_main_v41_apply, stage35, stage40, Ideal.hostUnary_exp_def, Ideal.subf_def]
  rfl

/-- The sum of a row's exponentials: the host's sum starts from zero. -/
private theorem stage43 (f : Fin 39) :
    val_main_v43 (F := Ideal) x0 x1 x2 x3 x4 x5 x6 x7 (ix2 b f) = denom sc f := by
  refine (val_main_v43_apply x0 x1 x2 x3 x4 x5 x6 x7 _).trans ?_
  have h0 : val_main_cst_6 (F := Ideal) (Shape.Idx.first Gen.h_S_) = 0 := Ideal.ofBits_zero_f32
  rw [h0, zero_add]
  refine Finset.sum_congr rfl fun g _ => ?_
  have h : idx_main_v43 (ix2 b f) g = ix3 b f g := by idx3
  rw [h, stage42]

/-- The row's sum spread over the row. -/
private theorem stage45 (f g : Fin 39) :
    val_main_v45 (F := Ideal) x0 x1 x2 x3 x4 x5 x6 x7 (ix3 b f g) = denom sc f := by
  rw [val_main_v45_apply, val_main_v44_apply]
  have h : idx_main_v44 (idx_main_v45 (ix3 b f g)) = ix2 b f := by idx2
  rw [h, stage43]

/-- The softmax of the score rows. -/
private theorem stage46 (f g : Fin 39) :
    val_main_v46 (F := Ideal) x0 x1 x2 x3 x4 x5 x6 x7 (ix3 b f g) = softmax sc f g := by
  rw [val_main_v46_apply, stage42, stage45]
  rfl

/-- The weighted rows `softmax · v`. -/
private theorem stage47 (f : Fin 39) (c : Fin 32) :
    val_main_v47 (F := Ideal) x0 x1 x2 x3 x4 x5 x6 x7 x8 (ix3 b f c) = ∑ g : Fin 39, softmax sc f g * pV g c := by
  refine (val_main_v47_apply x0 x1 x2 x3 x4 x5 x6 x7 x8 _).trans (Finset.sum_congr rfl fun g _ => ?_)
  have hl : lidx_main_v47 (ix3 b f c) g = ix3 b f g := by idx3
  have hr : ridx_main_v47 (ix3 b f c) g = ix3 b g c := by idx3
  rw [hl, hr, stage46, stage34]

/-- The layer before the rectifier. -/
private theorem stage49 (f : Fin 39) (c : Fin 32) :
    val_main_v49 (F := Ideal) x0 x1 x2 x3 x4 x5 x6 x7 x8 x9 (ix3 b f c) = attnPre rowsIn wQ wK wV wR f c := by
  rw [val_main_v49_apply, stage47, stage48]
  rfl

/-- The layer: the rectifier joins the entry with zero. -/
private theorem stage50 (f : Fin 39) (c : Fin 32) :
    val_main_v50 (F := Ideal) x0 x1 x2 x3 x4 x5 x6 x7 x8 x9 (ix3 b f c) = attn rowsIn wQ wK wV wR f c := by
  rw [val_main_v50_apply, stage49, val_main_call1_v0_apply]
  rfl

end Stages

/-- Entry `(b, f, c)` of the second layer's result is `attn` of example `b`'s rows of the first layer's result. -/
theorem layer1_apply (b : Fin 16384) (f : Fin 39) (c : Fin 32) :
    val_main_v50 (F := Ideal) x0 x1 x2 x3 x4 x5 x6 x7 x8 x9 (ix3 b f c)
      = attn (fun f d => val_main_v31 (F := Ideal) x0 x1 x2 x3 x4 x5 (ix3 b f d)) (fun d c => x6 (ix2 d c)) (fun d c => x7 (ix2 d c))
          (fun d c => x8 (ix2 d c)) (fun d c => x9 (ix2 d c)) f c :=
  stage50 x0 x1 x2 x3 x4 x5 x6 x7 x8 x9 b f c

end Cert.AutoInt.R

end
-- ==== Proof.RLayer2.lean ====
/-
  The reference's third attention layer, read at an entry: the same operations on the second layer's
  16384 × 39 × 32 result, with the four 32 × 32 weight matrices of the third layer.
-/
import proofs.«130033_j76630806495343_1_alg».proof.Proof.ReadP
import proofs.«130033_j76630806495343_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.AutoInt.R

open Cert.ReferenceIdeal Cert.ReferenceIdeal.ReadP Idealize.ShloMosaic Idealize.ShloMosaic.ValueIdx Cert.AutoInt

variable (x0 : (⟨S16384x39, .i32⟩ : BufTy).Contents (Elt Ideal)) (x1 : (⟨S390000x16, .f32⟩ : BufTy).Contents (Elt Ideal))
  (x2 x3 x4 x5 : (⟨S16x32, .f32⟩ : BufTy).Contents (Elt Ideal))
  (x6 x7 x8 x9 x10 x11 x12 x13 : (⟨S32x32, .f32⟩ : BufTy).Contents (Elt Ideal))

namespace Layer2

/-- Example `b`'s 39 rows of the second layer's result. -/
abbrev rows2 (b : Fin 16384) : Fin 39 → Fin 32 → EReal :=
  fun f d => val_main_v50 (F := Ideal) x0 x1 x2 x3 x4 x5 x6 x7 x8 x9 (ix3 b f d)

/-- A 32 × 32 weight array as a function of its two coordinates. -/
abbrev mat (w : (⟨S32x32, .f32⟩ : BufTy).Contents (Elt Ideal)) : Fin 32 → Fin 32 → EReal :=
  fun d c => w (ix2 d c)

/-- Entry `(b, f, c)` of the product of the second layer's result with a 32 × 32 matrix `w` is the product of
    example `b`'s row `f` with column `c` of `w`. -/
theorem proj2_entry (w : (⟨S32x32, .f32⟩ : BufTy).Contents (Elt Ideal)) (b : Fin 16384) (f : Fin 39) (c : Fin 32) :
    val_main_v51 (F := Ideal) x0 x1 x2 x3 x4 x5 x6 x7 x8 x9 w (ix3 b f c)
      = proj (rows2 x0 x1 x2 x3 x4 x5 x6 x7 x8 x9 b) (mat w) f c := by
  rw [val_main_v51_apply]
  unfold proj
  refine Finset.sum_congr rfl fun k _ => ?_
  have el : lidx_main_v51 (ix3 b f c) k = ix3 b f k :=
    funext fun a => by match a with | ⟨0, _⟩ => rfl | ⟨1, _⟩ => rfl | ⟨2, _⟩ => rfl
  have er : ridx_main_v51 (ix3 b f c) k = ix2 k c :=
    funext fun a => by match a with | ⟨0, _⟩ => rfl | ⟨1, _⟩ => rfl
  rw [el, er]

/-- The key, value and residual projections are the same operation with the other three matrices. -/
theorem v52_entry (b : Fin 16384) (f : Fin 39) (c : Fin 32) :
    val_main_v52 (F := Ideal) x0 x1 x2 x3 x4 x5 x6 x7 x8 x9 x11 (ix3 b f c)
      = proj (rows2 x0 x1 x2 x3 x4 x5 x6 x7 x8 x9 b) (mat x11) f c :=
  proj2_entry x0 x1 x2 x3 x4 x5 x6 x7 x8 x9 x11 b f c

theorem v53_entry (b : Fin 16384) (f : Fin 39) (c : Fin 32) :
    val_main_v53 (F := Ideal) x0 x1 x2 x3 x4 x5 x6 x7 x8 x9 x12 (ix3 b f c)
      = proj (rows2 x0 x1 x2 x3 x4 x5 x6 x7 x8 x9 b) (mat x12) f c :=
  proj2_entry x0 x1 x2 x3 x4 x5 x6 x7 x8 x9 x12 b f c

theorem v67_entry (b : Fin 16384) (f : Fin 39) (c : Fin 32) :
    val_main_v67 (F := Ideal) x0 x1 x2 x3 x4 x5 x6 x7 x8 x9 x13 (ix3 b f c)
      = proj (rows2 x0 x1 x2 x3 x4 x5 x6 x7 x8 x9 b) (mat x13) f c :=
  proj2_entry x0 x1 x2 x3 x4 x5 x6 x7 x8 x9 x13 b f c

/-- The scores of example `b`. -/
abbrev sc2 (b : Fin 16384) : Fin 39 → Fin 39 → EReal :=
  scores (proj (rows2 x0 x1 x2 x3 x4 x5 x6 x7 x8 x9 b) (mat x10)) (proj (rows2 x0 x1 x2 x3 x4 x5 x6 x7 x8 x9 b) (mat x11))

/-- Entry `(b, f, g)` of the batched product `q · kᵀ` is the score of query row `f` against key row `g`. -/
theorem v54_entry (b : Fin 16384) (f g : Fin 39) :
    val_main_v54 (F := Ideal) x0 x1 x2 x3 x4 x5 x6 x7 x8 x9 x10 x11 (ix3 b f g)
      = sc2 x0 x1 x2 x3 x4 x5 x6 x7 x8 x9 x10 x11 b f g := by
  rw [val_main_v54_apply]
  unfold sc2 scores
  refine Finset.sum_congr rfl fun k _ => ?_
  have el : lidx_main_v54 (ix3 b f g) k = ix3 b f k :=
    funext fun a => by match a with | ⟨0, _⟩ => rfl | ⟨1, _⟩ => rfl | ⟨2, _⟩ => rfl
  have er : ridx_main_v54 (ix3 b f g) k = ix3 b g k :=
    funext fun a => by match a with | ⟨0, _⟩ => rfl | ⟨1, _⟩ => rfl | ⟨2, _⟩ => rfl
  rw [el, er, proj2_entry, v52_entry]

/-- A reduced index `(b, f)` with the coordinate `g` put back on the last axis is `(b, f, g)`. -/
theorem lift_last (h : S16384x39x39.Reduces [2] S16384x39) (b : Fin 16384) (f : Fin 39) (g : Fin (S16384x39x39.size 2)) :
    h.lift (ix2 b f) g = ix3 b f (⟨g.val, g.isLt⟩ : Fin 39) :=
  funext fun c => Fin.ext (by match c with | ⟨0, _⟩ => rfl | ⟨1, _⟩ => rfl | ⟨2, _⟩ => rfl)

/-- The reduction with a maximum body over the last axis, from −∞, is at `(b, f)` the fold of `max` from −∞ over score row `f`. -/
theorem v55_entry (b : Fin 16384) (f : Fin 39) :
    val_main_v55 (F := Ideal) x0 x1 x2 x3 x4 x5 x6 x7 x8 x9 x10 x11 (ix2 b f)
      = (Finset.univ : Finset (Fin 39)).fold max negInf (sc2 x0 x1 x2 x3 x4 x5 x6 x7 x8 x9 x10 x11 b f) := by
  have h : S16384x39x39.Reduces [2] S16384x39 := by decide
  unfold val_main_v55
  refine (Host.reduce_eq_fold_single FloatOps.maximumf _ _ _ h _ (ix2 b f)).trans ?_
  have hf : (val_main_v54 (F := Ideal) x0 x1 x2 x3 x4 x5 x6 x7 x8 x9 x10 x11 ∘ h.lift (ix2 b f))
      = sc2 x0 x1 x2 x3 x4 x5 x6 x7 x8 x9 x10 x11 b f := funext fun g => by
    show val_main_v54 (F := Ideal) x0 x1 x2 x3 x4 x5 x6 x7 x8 x9 x10 x11 (h.lift (ix2 b f) g) = _
    rw [lift_last h b f g, v54_entry]
    rfl
  exact congrArg (fun r => Finset.fold max negInf r (Finset.univ : Finset (Fin 39))) hf

/-- Joined once more with −∞ it is the row's maximum. -/
theorem v57_entry (b : Fin 16384) (f : Fin 39) :
    val_main_v57 (F := Ideal) x0 x1 x2 x3 x4 x5 x6 x7 x8 x9 x10 x11 (ix2 b f) = rowMax (sc2 x0 x1 x2 x3 x4 x5 x6 x7 x8 x9 x10 x11 b) f := by
  rw [val_main_v57_apply, v55_entry, val_main_v56_apply, val_main_cst_8_apply]
  rfl

/-- The row's maximum spread back over the row. -/
theorem v59_entry (b : Fin 16384) (f g : Fin 39) :
    val_main_v59 (F := Ideal) x0 x1 x2 x3 x4 x5 x6 x7 x8 x9 x10 x11 (ix3 b f g) = rowMax (sc2 x0 x1 x2 x3 x4 x5 x6 x7 x8 x9 x10 x11 b) f := by
  rw [val_main_v59_apply, val_main_v58_apply]
  have e : idx_main_v58 (idx_main_v59 (ix3 b f g)) = ix2 b f :=
    funext fun a => by match a with | ⟨0, _⟩ => rfl | ⟨1, _⟩ => rfl
  rw [e, v57_entry]

/-- The exponential of a score minus its row's maximum. -/
theorem v61_entry (b : Fin 16384) (f g : Fin 39) :
    val_main_v61 (F := Ideal) x0 x1 x2 x3 x4 x5 x6 x7 x8 x9 x10 x11 (ix3 b f g) = expo (sc2 x0 x1 x2 x3 x4 x5 x6 x7 x8 x9 x10 x11 b) f g := by
  rw [val_main_v61_apply, val_main_v60_apply, v54_entry, v59_entry]
  unfold expo
  rw [Ideal.hostUnary_exp_def, Ideal.subf_def]

/-- The sum of a row's exponentials (the sum starts from zero). -/
theorem v62_entry (b : Fin 16384) (f : Fin 39) :
    val_main_v62 (F := Ideal) x0 x1 x2 x3 x4 x5 x6 x7 x8 x9 x10 x11 (ix2 b f) = denom (sc2 x0 x1 x2 x3 x4 x5 x6 x7 x8 x9 x10 x11 b) f := by
  rw [val_main_v62_apply, val_main_cst_9_apply]
  show Ideal.ofBits .f32 0x00000000#32 + _ = _
  rw [Ideal.ofBits_zero_f32, zero_add]
  unfold denom
  refine Finset.sum_congr rfl fun k _ => ?_
  have e : idx_main_v62 (ix2 b f) k = ix3 b f k :=
    funext fun a => by match a with | ⟨0, _⟩ => rfl | ⟨1, _⟩ => rfl | ⟨2, _⟩ => rfl
  rw [e, v61_entry]

/-- The row's sum spread back over the row. -/
theorem v64_entry (b : Fin 16384) (f g : Fin 39) :
    val_main_v64 (F := Ideal) x0 x1 x2 x3 x4 x5 x6 x7 x8 x9 x10 x11 (ix3 b f g) = denom (sc2 x0 x1 x2 x3 x4 x5 x6 x7 x8 x9 x10 x11 b) f := by
  rw [val_main_v64_apply, val_main_v63_apply]
  have e : idx_main_v63 (idx_main_v64 (ix3 b f g)) = ix2 b f :=
    funext fun a => by match a with | ⟨0, _⟩ => rfl | ⟨1, _⟩ => rfl
  rw [e, v62_entry]

/-- The softmax of a score row. -/
theorem v65_entry (b : Fin 16384) (f g : Fin 39) :
    val_main_v65 (F := Ideal) x0 x1 x2 x3 x4 x5 x6 x7 x8 x9 x10 x11 (ix3 b f g) = softmax (sc2 x0 x1 x2 x3 x4 x5 x6 x7 x8 x9 x10 x11 b) f g := by
  rw [val_main_v65_apply, v61_entry, v64_entry]
  rfl

/-- The softmax rows times the value projection. -/
theorem v66_entry (b : Fin 16384) (f : Fin 39) (c : Fin 32) :
    val_main_v66 (F := Ideal) x0 x1 x2 x3 x4 x5 x6 x7 x8 x9 x10 x11 x12 (ix3 b f c)
      = ∑ g : Fin 39, softmax (sc2 x0 x1 x2 x3 x4 x5 x6 x7 x8 x9 x10 x11 b) f g * proj (rows2 x0 x1 x2 x3 x4 x5 x6 x7 x8 x9 b) (mat x12) g c := by
  rw [val_main_v66_apply]
  refine Finset.sum_congr rfl fun k _ => ?_
  have el : lidx_main_v66 (ix3 b f c) k = ix3 b f k :=
    funext fun a => by match a with | ⟨0, _⟩ => rfl | ⟨1, _⟩ => rfl | ⟨2, _⟩ => rfl
  have er : ridx_main_v66 (ix3 b f c) k = ix3 b k c :=
    funext fun a => by match a with | ⟨0, _⟩ => rfl | ⟨1, _⟩ => rfl | ⟨2, _⟩ => rfl
  rw [el, er, v65_entry, v53_entry]

end Layer2

/-- Entry `(b, f, c)` of the third layer's result is `attn` of example `b`'s rows of the second layer's result. -/
theorem layer2_apply (b : Fin 16384) (f : Fin 39) (c : Fin 32) :
    val_main_v69 (F := Ideal) x0 x1 x2 x3 x4 x5 x6 x7 x8 x9 x10 x11 x12 x13 (ix3 b f c)
      = attn (fun f d => val_main_v50 (F := Ideal) x0 x1 x2 x3 x4 x5 x6 x7 x8 x9 (ix3 b f d)) (fun d c => x10 (ix2 d c)) (fun d c => x11 (ix2 d c))
          (fun d c => x12 (ix2 d c)) (fun d c => x13 (ix2 d c)) f c := by
  rw [val_main_v69_apply, val_main_v68_apply, Layer2.v66_entry, Layer2.v67_entry, val_main_call2_v0_apply, val_main_call2_cst_apply]
  rfl

end Cert.AutoInt.R

end
-- ==== Proof.RHead.lean ====
/-
  The reference's head, read at an entry.

  The third layer's 16384 × 39 × 32 result is reshaped to 16384 × 1248 (an example's rows one after the other), goes
  through four products with the dense layers' weight matrices, each followed by the bias broadcast down the
  examples, the first three rectified, and the last through `1 / (1 + exp (−x))`, which on the extended reals is the
  logistic function. Entry `(b, 0)` of the result is the head of example `b`'s flattened rows.
-/
import proofs.«130033_j76630806495343_1_alg».proof.Proof.ReadP
import proofs.«130033_j76630806495343_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.AutoInt.R

open Cert.ReferenceIdeal Cert.ReferenceIdeal.ReadP Idealize.ShloMosaic Idealize.ShloMosaic.ValueIdx Cert.AutoInt

variable (x0 : (⟨S16384x39, .i32⟩ : BufTy).Contents (Elt Ideal)) (x1 : (⟨S390000x16, .f32⟩ : BufTy).Contents (Elt Ideal))
  (x2 x3 x4 x5 : (⟨S16x32, .f32⟩ : BufTy).Contents (Elt Ideal))
  (x6 x7 x8 x9 x10 x11 x12 x13 : (⟨S32x32, .f32⟩ : BufTy).Contents (Elt Ideal))

variable (x14 : (⟨S1248x128, .f32⟩ : BufTy).Contents (Elt Ideal)) (x15 : (⟨S128, .f32⟩ : BufTy).Contents (Elt Ideal))
  (x16 : (⟨S128x64, .f32⟩ : BufTy).Contents (Elt Ideal)) (x17 : (⟨S64, .f32⟩ : BufTy).Contents (Elt Ideal))
  (x18 : (⟨S64x32, .f32⟩ : BufTy).Contents (Elt Ideal)) (x19 : (⟨S32, .f32⟩ : BufTy).Contents (Elt Ideal))
  (x20 : (⟨S32x1, .f32⟩ : BufTy).Contents (Elt Ideal)) (x21 : (⟨S1, .f32⟩ : BufTy).Contents (Elt Ideal))

/-- The word both programs write for one denotes the extended real `1`. -/
theorem head_ofBits_one : Ideal.ofBits .f32 0x3F800000#32 = 1 := by
  simp [Ideal.ofBits, Ideal.ieee, -EReal.coe_mul]; norm_num

/-- Example `b`'s third-layer rows, laid out one after the other. -/
abbrev headRows (b : Fin 16384) : Fin 1248 → EReal :=
  flat (fun f c => val_main_v69 (F := Ideal) x0 x1 x2 x3 x4 x5 x6 x7 x8 x9 x10 x11 x12 x13 (ix3 b f c))

/-- Example `b`'s first rectified dense layer. -/
abbrev headHid1 (b : Fin 16384) : Fin 128 → EReal :=
  fun i1 => relu (dense (headRows x0 x1 x2 x3 x4 x5 x6 x7 x8 x9 x10 x11 x12 x13 b) (fun i j => x14 (ix2 i j)) (fun j => x15 (ix1 j)) i1)

/-- Example `b`'s second rectified dense layer. -/
abbrev headHid2 (b : Fin 16384) : Fin 64 → EReal :=
  fun i2 => relu (dense (headHid1 x0 x1 x2 x3 x4 x5 x6 x7 x8 x9 x10 x11 x12 x13 x14 x15 b) (fun i j => x16 (ix2 i j)) (fun j => x17 (ix1 j)) i2)

/-- Example `b`'s third rectified dense layer. -/
abbrev headHid3 (b : Fin 16384) : Fin 32 → EReal :=
  fun i3 => relu (dense (headHid2 x0 x1 x2 x3 x4 x5 x6 x7 x8 x9 x10 x11 x12 x13 x14 x15 x16 x17 b) (fun i j => x18 (ix2 i j)) (fun j => x19 (ix1 j)) i3)

/-- The reshape reads entry `(b, i)` at row `i / 32`, column `i % 32` of example `b`. -/
theorem head_v70 (b : Fin 16384) (i : Fin 1248) :
    val_main_v70 (F := Ideal) x0 x1 x2 x3 x4 x5 x6 x7 x8 x9 x10 x11 x12 x13 (ix2 b i) = (headRows x0 x1 x2 x3 x4 x5 x6 x7 x8 x9 x10 x11 x12 x13 b) i := by
  rw [val_main_v70_apply]
  refine congrArg (val_main_v69 (F := Ideal) x0 x1 x2 x3 x4 x5 x6 x7 x8 x9 x10 x11 x12 x13) (funext fun a => ?_)
  have hb : b.val < 16384 := b.isLt
  have hi : i.val < 1248 := i.isLt
  match a with
  | ⟨0, _⟩ => exact Fin.ext (by show (b.val * 1248 + i.val) / 1248 = b.val; omega)
  | ⟨1, _⟩ => exact Fin.ext (by show (b.val * 1248 + i.val) / 32 % 39 = i.val / 32; omega)
  | ⟨2, _⟩ => exact Fin.ext (by show (b.val * 1248 + i.val) % 32 = i.val % 32; omega)

/-- The bias of the product into width 128, broadcast down the examples, at an entry. -/
theorem head_v73 (b : Fin 16384) (j : Fin 128) : val_main_v73 (F := Ideal) x15 (ix2 b j) = x15 (ix1 j) := by
  rw [val_main_v73_apply, val_main_v72_apply]
  exact congrArg x15 (funext fun a => by match a with | ⟨0, _⟩ => rfl)

/-- The product into width 128 plus its bias, at an entry: the dense layer of the example's previous values. -/
theorem head_v74 (b : Fin 16384) (j : Fin 128) :
    val_main_v74 (F := Ideal) x0 x1 x2 x3 x4 x5 x6 x7 x8 x9 x10 x11 x12 x13 x14 x15 (ix2 b j) = dense (headRows x0 x1 x2 x3 x4 x5 x6 x7 x8 x9 x10 x11 x12 x13 b) (fun i j => x14 (ix2 i j)) (fun j => x15 (ix1 j)) j := by
  rw [val_main_v74_apply, val_main_v71_apply, head_v73]
  unfold dense
  refine congrArg₂ (· + ·) (Finset.sum_congr rfl fun k _ => ?_) rfl
  have el : lidx_main_v71 (ix2 b j) k = ix2 b k := funext fun a => by match a with | ⟨0, _⟩ => rfl | ⟨1, _⟩ => rfl
  have er : ridx_main_v71 (ix2 b j) k = ix2 k j := funext fun a => by match a with | ⟨0, _⟩ => rfl | ⟨1, _⟩ => rfl
  rw [el, er, head_v70]

/-- The rectified layer of width 128, at an entry. -/
theorem head_v75 (b : Fin 16384) (j : Fin 128) :
    val_main_v75 (F := Ideal) x0 x1 x2 x3 x4 x5 x6 x7 x8 x9 x10 x11 x12 x13 x14 x15 (ix2 b j) = (headHid1 x0 x1 x2 x3 x4 x5 x6 x7 x8 x9 x10 x11 x12 x13 x14 x15 b) j := by
  rw [val_main_v75_apply, val_main_call3_v0_apply, val_main_call3_cst_apply, head_v74]
  rfl

/-- The bias of the product into width 64, broadcast down the examples, at an entry. -/
theorem head_v78 (b : Fin 16384) (j : Fin 64) : val_main_v78 (F := Ideal) x17 (ix2 b j) = x17 (ix1 j) := by
  rw [val_main_v78_apply, val_main_v77_apply]
  exact congrArg x17 (funext fun a => by match a with | ⟨0, _⟩ => rfl)

/-- The product into width 64 plus its bias, at an entry: the dense layer of the example's previous values. -/
theorem head_v79 (b : Fin 16384) (j : Fin 64) :
    val_main_v79 (F := Ideal) x0 x1 x2 x3 x4 x5 x6 x7 x8 x9 x10 x11 x12 x13 x14 x15 x16 x17 (ix2 b j) = dense (headHid1 x0 x1 x2 x3 x4 x5 x6 x7 x8 x9 x10 x11 x12 x13 x14 x15 b) (fun i j => x16 (ix2 i j)) (fun j => x17 (ix1 j)) j := by
  rw [val_main_v79_apply, val_main_v76_apply, head_v78]
  unfold dense
  refine congrArg₂ (· + ·) (Finset.sum_congr rfl fun k _ => ?_) rfl
  have el : lidx_main_v76 (ix2 b j) k = ix2 b k := funext fun a => by match a with | ⟨0, _⟩ => rfl | ⟨1, _⟩ => rfl
  have er : ridx_main_v76 (ix2 b j) k = ix2 k j := funext fun a => by match a with | ⟨0, _⟩ => rfl | ⟨1, _⟩ => rfl
  rw [el, er, head_v75]

/-- The rectified layer of width 64, at an entry. -/
theorem head_v80 (b : Fin 16384) (j : Fin 64) :
    val_main_v80 (F := Ideal) x0 x1 x2 x3 x4 x5 x6 x7 x8 x9 x10 x11 x12 x13 x14 x15 x16 x17 (ix2 b j) = (headHid2 x0 x1 x2 x3 x4 x5 x6 x7 x8 x9 x10 x11 x12 x13 x14 x15 x16 x17 b) j := by
  rw [val_main_v80_apply, val_main_call4_v0_apply, val_main_call4_cst_apply, head_v79]
  rfl

/-- The bias of the product into width 32, broadcast down the examples, at an entry. -/
theorem head_v83 (b : Fin 16384) (j : Fin 32) : val_main_v83 (F := Ideal) x19 (ix2 b j) = x19 (ix1 j) := by
  rw [val_main_v83_apply, val_main_v82_apply]
  exact congrArg x19 (funext fun a => by match a with | ⟨0, _⟩ => rfl)

/-- The product into width 32 plus its bias, at an entry: the dense layer of the example's previous values. -/
theorem head_v84 (b : Fin 16384) (j : Fin 32) :
    val_main_v84 (F := Ideal) x0 x1 x2 x3 x4 x5 x6 x7 x8 x9 x10 x11 x12 x13 x14 x15 x16 x17 x18 x19 (ix2 b j) = dense (headHid2 x0 x1 x2 x3 x4 x5 x6 x7 x8 x9 x10 x11 x12 x13 x14 x15 x16 x17 b) (fun i j => x18 (ix2 i j)) (fun j => x19 (ix1 j)) j := by
  rw [val_main_v84_apply, val_main_v81_apply, head_v83]
  unfold dense
  refine congrArg₂ (· + ·) (Finset.sum_congr rfl fun k _ => ?_) rfl
  have el : lidx_main_v81 (ix2 b j) k = ix2 b k := funext fun a => by match a with | ⟨0, _⟩ => rfl | ⟨1, _⟩ => rfl
  have er : ridx_main_v81 (ix2 b j) k = ix2 k j := funext fun a => by match a with | ⟨0, _⟩ => rfl | ⟨1, _⟩ => rfl
  rw [el, er, head_v80]

/-- The rectified layer of width 32, at an entry. -/
theorem head_v85 (b : Fin 16384) (j : Fin 32) :
    val_main_v85 (F := Ideal) x0 x1 x2 x3 x4 x5 x6 x7 x8 x9 x10 x11 x12 x13 x14 x15 x16 x17 x18 x19 (ix2 b j) = (headHid3 x0 x1 x2 x3 x4 x5 x6 x7 x8 x9 x10 x11 x12 x13 x14 x15 x16 x17 x18 x19 b) j := by
  rw [val_main_v85_apply, val_main_call5_v0_apply, val_main_call5_cst_apply, head_v84]
  rfl

/-- The bias of the product into width 1, broadcast down the examples, at an entry. -/
theorem head_v88 (b : Fin 16384) (j : Fin 1) : val_main_v88 (F := Ideal) x21 (ix2 b j) = x21 (ix1 j) := by
  rw [val_main_v88_apply, val_main_v87_apply]
  exact congrArg x21 (funext fun a => by match a with | ⟨0, _⟩ => exact Fin.ext (by have := j.isLt; show 0 = j.val; omega))

/-- The product into width 1 plus its bias, at an entry: the dense layer of the example's previous values. -/
theorem head_v89 (b : Fin 16384) (j : Fin 1) :
    val_main_v89 (F := Ideal) x0 x1 x2 x3 x4 x5 x6 x7 x8 x9 x10 x11 x12 x13 x14 x15 x16 x17 x18 x19 x20 x21 (ix2 b j) = dense (headHid3 x0 x1 x2 x3 x4 x5 x6 x7 x8 x9 x10 x11 x12 x13 x14 x15 x16 x17 x18 x19 b) (fun i j => x20 (ix2 i j)) (fun j => x21 (ix1 j)) j := by
  rw [val_main_v89_apply, val_main_v86_apply, head_v88]
  unfold dense
  refine congrArg₂ (· + ·) (Finset.sum_congr rfl fun k _ => ?_) rfl
  have el : lidx_main_v86 (ix2 b j) k = ix2 b k := funext fun a => by match a with | ⟨0, _⟩ => rfl | ⟨1, _⟩ => rfl
  have er : ridx_main_v86 (ix2 b j) k = ix2 k j := funext fun a => by match a with | ⟨0, _⟩ => rfl | ⟨1, _⟩ => rfl
  rw [el, er, head_v85]

/-- Entry `(b, 0)` of the reference's result is the head of example `b`'s flattened third-layer rows. -/
theorem head_apply (b : Fin 16384) :
    val_main_v95 (F := Ideal) x0 x1 x2 x3 x4 x5 x6 x7 x8 x9 x10 x11 x12 x13 x14 x15 x16 x17 x18 x19 x20 x21 (ix2 b 0)
      = head (flat (fun f c => val_main_v69 (F := Ideal) x0 x1 x2 x3 x4 x5 x6 x7 x8 x9 x10 x11 x12 x13 (ix3 b f c)))
          (fun i j => x14 (ix2 i j)) (fun j => x15 (ix1 j)) (fun i j => x16 (ix2 i j)) (fun j => x17 (ix1 j))
          (fun i j => x18 (ix2 i j)) (fun j => x19 (ix1 j)) (fun i j => x20 (ix2 i j)) (fun j => x21 (ix1 j)) := by
  rw [val_main_v95_apply, val_main_v94_apply, val_main_cst_11_apply, val_main_v93_apply, val_main_v92_apply,
    val_main_cst_10_apply, val_main_v91_apply, val_main_v90_apply, head_v89]
  rw [Ideal.hostDivf_def, Ideal.ofBits_def, Ideal.addf_def, Ideal.hostUnary_exp_def, Ideal.hostNegf_def, Ideal.negf_def,
    head_ofBits_one]
  rfl

end Cert.AutoInt.R

end
-- ==== Proof.RAll.lean ====
/-
  The reference's whole program after the gather: entry `(b, 0)` of its 16384 × 1 result is the network of example `b`.

  The three layers and the head each read, of their input, example `b`'s rows only; composing them gives the result
  at `(b, 0)` as the one-example network of the gathered rows of example `b`.
-/
import proofs.«130033_j76630806495343_1_alg».proof.Proof.RLayer0
import proofs.«130033_j76630806495343_1_alg».proof.Proof.RLayer1
import proofs.«130033_j76630806495343_1_alg».proof.Proof.RLayer2
import proofs.«130033_j76630806495343_1_alg».proof.Proof.RHead

noncomputable section

namespace Cert.AutoInt.R

open Cert.ReferenceIdeal Cert.ReferenceIdeal.ReadP Idealize.ShloMosaic Idealize.ShloMosaic.ValueIdx Cert.AutoInt

variable (x0 : (⟨S16384x39, .i32⟩ : BufTy).Contents (Elt Ideal)) (x1 : (⟨S390000x16, .f32⟩ : BufTy).Contents (Elt Ideal))
  (x2 x3 x4 x5 : (⟨S16x32, .f32⟩ : BufTy).Contents (Elt Ideal))
  (x6 x7 x8 x9 x10 x11 x12 x13 : (⟨S32x32, .f32⟩ : BufTy).Contents (Elt Ideal))
  (x14 : (⟨S1248x128, .f32⟩ : BufTy).Contents (Elt Ideal)) (x15 : (⟨S128, .f32⟩ : BufTy).Contents (Elt Ideal))
  (x16 : (⟨S128x64, .f32⟩ : BufTy).Contents (Elt Ideal)) (x17 : (⟨S64, .f32⟩ : BufTy).Contents (Elt Ideal))
  (x18 : (⟨S64x32, .f32⟩ : BufTy).Contents (Elt Ideal)) (x19 : (⟨S32, .f32⟩ : BufTy).Contents (Elt Ideal))
  (x20 : (⟨S32x1, .f32⟩ : BufTy).Contents (Elt Ideal)) (x21 : (⟨S1, .f32⟩ : BufTy).Contents (Elt Ideal))

/-- The reference's weight arguments as functions of their coordinates (the biases have rank one). -/
def paramsOf : Params where
  wq0 := fun d c => x2 (ix2 d c)
  wk0 := fun d c => x3 (ix2 d c)
  wv0 := fun d c => x4 (ix2 d c)
  wr0 := fun d c => x5 (ix2 d c)
  wq1 := fun d c => x6 (ix2 d c)
  wk1 := fun d c => x7 (ix2 d c)
  wv1 := fun d c => x8 (ix2 d c)
  wr1 := fun d c => x9 (ix2 d c)
  wq2 := fun d c => x10 (ix2 d c)
  wk2 := fun d c => x11 (ix2 d c)
  wv2 := fun d c => x12 (ix2 d c)
  wr2 := fun d c => x13 (ix2 d c)
  w1 := fun i j => x14 (ix2 i j)
  b1 := fun j => x15 (ix1 j)
  w2 := fun i j => x16 (ix2 i j)
  b2 := fun j => x17 (ix1 j)
  w3 := fun i j => x18 (ix2 i j)
  b3 := fun j => x19 (ix1 j)
  w4 := fun i j => x20 (ix2 i j)
  b4 := fun j => x21 (ix1 j)

/-- The reference's result at `(b, 0)`, from the gathered rows of example `b` and the weight arguments. -/
theorem ref_apply (b : Fin 16384) :
    val_main_v95 (F := Ideal) x0 x1 x2 x3 x4 x5 x6 x7 x8 x9 x10 x11 x12 x13 x14 x15 x16 x17 x18 x19 x20 x21 (ix2 b 0)
      = net (paramsOf x2 x3 x4 x5 x6 x7 x8 x9 x10 x11 x12 x13 x14 x15 x16 x17 x18 x19 x20 x21) (fun f d => val_main_v12 (F := Ideal) x0 x1 (ix3 b f d)) := by
  rw [head_apply]
  have h0 : (fun (f : Fin 39) (d : Fin 32) => val_main_v31 (F := Ideal) x0 x1 x2 x3 x4 x5 (ix3 b f d))
      = attn (fun f d => val_main_v12 (F := Ideal) x0 x1 (ix3 b f d)) (fun d c => x2 (ix2 d c)) (fun d c => x3 (ix2 d c))
          (fun d c => x4 (ix2 d c)) (fun d c => x5 (ix2 d c)) := by
    funext f d
    rw [layer0_apply]
  have h1 : (fun (f : Fin 39) (d : Fin 32) => val_main_v50 (F := Ideal) x0 x1 x2 x3 x4 x5 x6 x7 x8 x9 (ix3 b f d))
      = attn (attn (fun f d => val_main_v12 (F := Ideal) x0 x1 (ix3 b f d)) (fun d c => x2 (ix2 d c)) (fun d c => x3 (ix2 d c))
          (fun d c => x4 (ix2 d c)) (fun d c => x5 (ix2 d c))) (fun d c => x6 (ix2 d c)) (fun d c => x7 (ix2 d c))
          (fun d c => x8 (ix2 d c)) (fun d c => x9 (ix2 d c)) := by
    funext f d
    rw [layer1_apply, h0]
  have h2 : (fun (f : Fin 39) (c : Fin 32) => val_main_v69 (F := Ideal) x0 x1 x2 x3 x4 x5 x6 x7 x8 x9 x10 x11 x12 x13 (ix3 b f c))
      = layers (paramsOf x2 x3 x4 x5 x6 x7 x8 x9 x10 x11 x12 x13 x14 x15 x16 x17 x18 x19 x20 x21) (fun f d => val_main_v12 (F := Ideal) x0 x1 (ix3 b f d)) := by
    funext f c
    rw [layer2_apply, h1]
    rfl
  rw [h2]
  rfl

end Cert.AutoInt.R

end
-- ==== Proof.Bridge.lean ====
/-
  The two results are one array.

  The kernel's result array is, at `(b, 0)`, the network of example `b`'s rows of the array its first window stages,
  with the weights as the region finds them; the reference's result is, at `(b, 0)`, the network of example `b`'s
  gathered rows with the weight arguments. The staged array is the gathered array, the region finds the sixteen
  weight matrices as launched, and each bias as its one-row reshape. So the two arrays are equal entry by entry.
-/
import proofs.«130033_j76630806495343_1_alg».proof.Proof.KValue
import proofs.«130033_j76630806495343_1_alg».proof.Proof.KPrefix
import proofs.«130033_j76630806495343_1_alg».proof.Proof.RAll

noncomputable section

namespace Cert.AutoInt.KV

open Cert.KernelIdeal Cert.KernelIdeal.Gen Idealize.ShloMosaic Idealize.ShloMosaic.TcCoe Idealize.SL.Sem Idealize.ShloMosaic.ValueIdx Cert.AutoInt

variable (m : (ℓ : Loc nD τ sig) → Buf (Elt Ideal) ℓ)

/-- The weights as the region finds them are the weight arguments. -/
theorem P_eq (c : Dev nD) : P m c = R.paramsOf (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  unfold P K.paramsOf R.paramsOf
  rw [V_main_arg2 m c, V_main_arg3 m c, V_main_arg4 m c, V_main_arg5 m c, V_main_arg6 m c, V_main_arg7 m c, V_main_arg8 m c, V_main_arg9 m c, V_main_arg10 m c, V_main_arg11 m c, V_main_arg12 m c, V_main_arg13 m c, V_main_arg14 m c, V_main_arg16 m c, V_main_arg18 m c, V_main_arg20 m c]
  congr 1
  · funext j; exact bias1_apply m c j
  · funext j; exact bias2_apply m c j
  · funext j; exact bias3_apply m c j
  · funext j; exact bias4_apply m c j

/-- The kernel's result array is the reference's result value of the same arguments. -/
theorem G_eq (c : Dev nD) :
    (G m c : S16384x1.Idx → EReal)
      = Cert.ReferenceIdeal.ReadP.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) := by
  funext i
  obtain ⟨b, q, rfl⟩ : ∃ (b : Fin 16384) (q : Fin 1), i = ix2 b q := ⟨i 0, i 1, eq_ix2 i⟩
  obtain rfl : q = 0 := Subsingleton.elim _ _
  rw [R.ref_apply]
  show net (P m c) (fun f d => V m c main_v13 (ix3 b f d)) = _
  rw [P_eq, rows_eq]

end Cert.AutoInt.KV

end
-- ==== Proof.lean ====
/-
  A fused feature-interaction network against its plain reference: equal results over the extended reals.

  Both programs embed 16384 examples of 39 integer features each (a gather of 16-wide rows of one table, the row number
  the feature's value plus 10000 times its field), run three self-attention layers over each example's 39 rows (four
  projections, unscaled scores, a softmax over each score row, the weighted value rows plus a residual projection, a
  rectifier; width 16 → 32 → 32 → 32), flatten the 39 × 32 result, and apply four dense layers 1248 → 128 → 64 → 32 → 1,
  the first three rectified, and the logistic function. The reference does this on all examples at once. The kernel's
  program does the gather on the host, then one pallas_call over a grid of 256 points, each taking 64 examples through
  all layers inside the kernel; it narrows matrices and intermediate values to a shorter float format, which is the
  identity on the extended reals, and spells the last step as one logistic operation where the reference writes
  `1 / (1 + exp (−x))`: one function there.

  Why the two results are equal. Every operation after the gather treats the examples independently, so each side's
  result at example `b` is ONE function, `AutoInt.net`, of that example's 39 gathered rows and the weights
  (Proof/Spec.lean). For the kernel this is read off its body stage by stage on a tile (Proof/KCore.lean,
  KLayers.lean, KHead.lean, composed in KTile.lean), and the 256 tiles' blocks cover the result array
  (KValue.lean); for the reference it is read stage by stage off its staged values (RLayer0–2.lean, RHead.lean,
  composed in RAll.lean). The gathered arrays agree because both programs compute the row numbers by the same
  integer operations (KPrefix.lean), and the region finds the weights as launched (Bridge.lean). No algebraic law
  beyond re-indexing sums is used, so the precondition (finite inputs) is never opened: the equality holds for every
  input, infinities included.

  The frames of the two kernel programs are the generated ones; the reference's frame and run come from the run over
  its staged values (Proof/RunP.lean over Proof/ReadP.lean). The idealization rewrote nothing that needs a
  conjunct, so `preserves` is `True`.
-/
import proofs.«130033_j76630806495343_1_alg».proof.Defs
import proofs.«130033_j76630806495343_1_alg».proof.Proof.Gen.Kernel
import proofs.«130033_j76630806495343_1_alg».proof.Proof.Gen.Kernel.Skeleton
import proofs.«130033_j76630806495343_1_alg».proof.Proof.Gen.Kernel.Launch
import proofs.«130033_j76630806495343_1_alg».proof.Proof.Gen.Kernel.Points
import proofs.«130033_j76630806495343_1_alg».proof.Proof.Gen.Kernel.Frame
import proofs.«130033_j76630806495343_1_alg».proof.Proof.Gen.KernelIdeal
import proofs.«130033_j76630806495343_1_alg».proof.Proof.Gen.KernelIdeal.Skeleton
import proofs.«130033_j76630806495343_1_alg».proof.Proof.Gen.KernelIdeal.Launch
import proofs.«130033_j76630806495343_1_alg».proof.Proof.Gen.KernelIdeal.Points
import proofs.«130033_j76630806495343_1_alg».proof.Proof.Gen.KernelIdeal.Frame
import proofs.«130033_j76630806495343_1_alg».proof.Proof.Gen.ReferenceIdeal
import proofs.«130033_j76630806495343_1_alg».proof.Proof.Gen.Pre_finite_inputs
import proofs.«130033_j76630806495343_1_alg».proof.Proof.Gen.KernelIdeal.Value
import proofs.«130033_j76630806495343_1_alg».proof.Proof.Bridge
import proofs.«130033_j76630806495343_1_alg».proof.Proof.RunP
import Idealize.ShloMosaic.Adequacy
import Idealize.ShloMosaic.Init

noncomputable section

namespace Cert.Proof

open Idealize.ShloMosaic Idealize.SL.Sem Idealize.ShloMosaic.TcCoe

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments the kernel's result array is `G`, at `(b, 0)` the network of example
    `b` (the blocks of the 256 grid points cover it), and the reference ends at its staged result value of its own
    arguments, which is the same array once the arguments agree. -/
theorem algebraic : Cert.algebraic_KernelIdeal_ReferenceIdeal := by
  intro m ρ m' ρ' _ hagree
  refine ⟨fun c => Cert.AutoInt.KV.G m c, ?_, ?_⟩
  · exact (θ_run Cert.KernelIdeal.defs _ _).mono
      (fun r h c => ⟨(h c).1.trans (Cert.AutoInt.KV.final m c), (h c).2⟩)
      (Cert.KernelIdeal.Value.run_blocks m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11, h12, h13, h14, h15, h16, h17, h18, h19, h20, h21⟩ := hagree c
    unfold Cert.ReferenceIdeal.ValueP.res_main_v95
    rw [h0, h1, h2, h3, h4, h5, h6, h7, h8, h9, h10, h11, h12, h13, h14, h15, h16, h17, h18, h19, h20, h21]
    exact (Cert.AutoInt.KV.G_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
